-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S2048x512 : Shape := ⟨2, ![2048, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn {F : FTy → Type} [FloatOps F] (main_arg0 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  main_v3
-- ==== Kernel.lean ====
abbrev S1024x512 : Shape := ⟨2, ![1024, 512]⟩
abbrev S2048x512 : Shape := ⟨2, ![2048, 512]⟩
abbrev S_ : Shape := ⟨0, ![]⟩
abbrev S16 : Shape := ⟨1, ![16]⟩
abbrev S1 : Shape := ⟨1, ![1]⟩
abbrev S32x512 : Shape := ⟨2, ![32, 512]⟩

abbrev nBuf : Space → Nat
  | .hbm => 2
  | .vmem => 2
  | .smem => 0
  | _ => 0

abbrev bufTy : (tb : Table) → Fin (tcTables nBuf tb) → BufTy
  | .hbm, ⟨0, _⟩ => ⟨S1024x512, .f32⟩
  | .hbm, ⟨1, _⟩ => ⟨S2048x512, .f32⟩
  | .local _ .vmem, ⟨0, _⟩ => ⟨S1024x512, .f32⟩
  | .local _ .vmem, ⟨1, _⟩ => ⟨S2048x512, .f32⟩
  | _, _ => ⟨S1024x512, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_6 : BitVec 32 := 4#32
  let v12 : BitVec 32 := Scalar.muli v9 c4_i32_6
  let v13 : BitVec 32 := Scalar.addi c0_i32 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v14 : BitVec 32 := Scalar.muli v5 c2_i32_7
  let v15 : BitVec 32 := Scalar.addi v13 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_8 : BitVec 32 := 1#32
  let v16 : BitVec 32 := Scalar.muli v8 c1_i32_8
  let v17 : BitVec 32 := Scalar.addi v15 v16
  v17.toNat
def k0_dev2 (d0 : Dev nD) : Nat :=
  let c0_i32_11 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_10 : BitVec 32 := 4#32
  let v18 : BitVec 32 := Scalar.muli v2 c4_i32_10
  let v19 : BitVec 32 := Scalar.addi c0_i32_11 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_12 : BitVec 32 := 2#32
  let v20 : BitVec 32 := Scalar.muli v5 c2_i32_12
  let v21 : BitVec 32 := Scalar.addi v19 v20
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_13 : BitVec 32 := 1#32
  let v22 : BitVec 32 := Scalar.muli v10 c1_i32_13
  let v23 : BitVec 32 := Scalar.addi v21 v22
  v23.toNat
def k0_off1 (d0 : Dev nD) (c0_i32_17 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v26 : BitVec 32 := Scalar.muli v2 c1024_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_16 : BitVec 32 := 512#32
  let v27 : BitVec 32 := Scalar.muli v8 c512_i32_16
  let v28 : BitVec 32 := Scalar.addi v26 v27
  let v29 : BitVec 32 := Scalar.addi v28 c0_i32_17
  let c0_i32_24 : BitVec 32 := 0#32
  ![v29.toNat, 0]
def k0_off2 (d0 : Dev nD) (c0_i32_15 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32 : BitVec 32 := 512#32
  let v24 : BitVec 32 := Scalar.muli v8 c512_i32
  let v25 : BitVec 32 := Scalar.addi v24 c0_i32_15
  let c0_i32_25 : BitVec 32 := 0#32
  ![v25.toNat, 0]
def k0_dev3 (d0 : Dev nD) : Nat :=
  let c0_i32_21 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_20 : BitVec 32 := 4#32
  let v30 : BitVec 32 := Scalar.muli v9 c4_i32_20
  let v31 : BitVec 32 := Scalar.addi c0_i32_21 v30
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_22 : BitVec 32 := 2#32
  let v32 : BitVec 32 := Scalar.muli v5 c2_i32_22
  let v33 : BitVec 32 := Scalar.addi v31 v32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_23 : BitVec 32 := 1#32
  let v34 : BitVec 32 := Scalar.muli v8 c1_i32_23
  let v35 : BitVec 32 := Scalar.addi v33 v34
  v35.toNat
def k0_dev4 (d0 : Dev nD) : Nat :=
  let c0_i32_33 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_32 : BitVec 32 := 4#32
  let v48 : BitVec 32 := Scalar.muli v9 c4_i32_32
  let v49 : BitVec 32 := Scalar.addi c0_i32_33 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_34 : BitVec 32 := 2#32
  let v50 : BitVec 32 := Scalar.muli v5 c2_i32_34
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_35 : BitVec 32 := 1#32
  let v52 : BitVec 32 := Scalar.muli v8 c1_i32_35
  let v53 : BitVec 32 := Scalar.addi v51 v52
  v53.toNat
def k0_dev5 (d0 : Dev nD) : Nat :=
  let c0_i32_45 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_44 : BitVec 32 := 4#32
  let v66 : BitVec 32 := Scalar.muli v9 c4_i32_44
  let v67 : BitVec 32 := Scalar.addi c0_i32_45 v66
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_46 : BitVec 32 := 2#32
  let v68 : BitVec 32 := Scalar.muli v5 c2_i32_46
  let v69 : BitVec 32 := Scalar.addi v67 v68
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v70 : BitVec 32 := Scalar.muli v8 c1_i32_47
  let v71 : BitVec 32 := Scalar.addi v69 v70
  v71.toNat
def k0_dev6 (d0 : Dev nD) : Nat :=
  let c0_i32_56 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_55 : BitVec 32 := 4#32
  let v84 : BitVec 32 := Scalar.muli v9 c4_i32_55
  let v85 : BitVec 32 := Scalar.addi c0_i32_56 v84
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_57 : BitVec 32 := 2#32
  let v86 : BitVec 32 := Scalar.muli v5 c2_i32_57
  let v87 : BitVec 32 := Scalar.addi v85 v86
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_58 : BitVec 32 := 1#32
  let v88 : BitVec 32 := Scalar.muli v8 c1_i32_58
  let v89 : BitVec 32 := Scalar.addi v87 v88
  v89.toNat
def k0_dev7 (d0 : Dev nD) : Nat :=
  let c0_i32_68 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_67 : BitVec 32 := 4#32
  let v102 : BitVec 32 := Scalar.muli v9 c4_i32_67
  let v103 : BitVec 32 := Scalar.addi c0_i32_68 v102
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_69 : BitVec 32 := 2#32
  let v104 : BitVec 32 := Scalar.muli v5 c2_i32_69
  let v105 : BitVec 32 := Scalar.addi v103 v104
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_70 : BitVec 32 := 1#32
  let v106 : BitVec 32 := Scalar.muli v8 c1_i32_70
  let v107 : BitVec 32 := Scalar.addi v105 v106
  v107.toNat
def k0_dev8 (d0 : Dev nD) : Nat :=
  let c0_i32_79 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_78 : BitVec 32 := 4#32
  let v120 : BitVec 32 := Scalar.muli v9 c4_i32_78
  let v121 : BitVec 32 := Scalar.addi c0_i32_79 v120
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v122 : BitVec 32 := Scalar.muli v5 c2_i32_80
  let v123 : BitVec 32 := Scalar.addi v121 v122
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v124 : BitVec 32 := Scalar.muli v8 c1_i32_81
  let v125 : BitVec 32 := Scalar.addi v123 v124
  v125.toNat
def k0_dev9 (d0 : Dev nD) : Nat :=
  let c0_i32_90 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_89 : BitVec 32 := 4#32
  let v138 : BitVec 32 := Scalar.muli v9 c4_i32_89
  let v139 : BitVec 32 := Scalar.addi c0_i32_90 v138
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_91 : BitVec 32 := 2#32
  let v140 : BitVec 32 := Scalar.muli v5 c2_i32_91
  let v141 : BitVec 32 := Scalar.addi v139 v140
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_92 : BitVec 32 := 1#32
  let v142 : BitVec 32 := Scalar.muli v8 c1_i32_92
  let v143 : BitVec 32 := Scalar.addi v141 v142
  v143.toNat
def k0_dev10 (d0 : Dev nD) : Nat :=
  let c0_i32_101 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_100 : BitVec 32 := 4#32
  let v156 : BitVec 32 := Scalar.muli v9 c4_i32_100
  let v157 : BitVec 32 := Scalar.addi c0_i32_101 v156
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_102 : BitVec 32 := 2#32
  let v158 : BitVec 32 := Scalar.muli v5 c2_i32_102
  let v159 : BitVec 32 := Scalar.addi v157 v158
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_103 : BitVec 32 := 1#32
  let v160 : BitVec 32 := Scalar.muli v8 c1_i32_103
  let v161 : BitVec 32 := Scalar.addi v159 v160
  v161.toNat
def k0_dev11 (d0 : Dev nD) : Nat :=
  let c0_i32_112 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_111 : BitVec 32 := 4#32
  let v174 : BitVec 32 := Scalar.muli v9 c4_i32_111
  let v175 : BitVec 32 := Scalar.addi c0_i32_112 v174
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_113 : BitVec 32 := 2#32
  let v176 : BitVec 32 := Scalar.muli v5 c2_i32_113
  let v177 : BitVec 32 := Scalar.addi v175 v176
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_114 : BitVec 32 := 1#32
  let v178 : BitVec 32 := Scalar.muli v8 c1_i32_114
  let v179 : BitVec 32 := Scalar.addi v177 v178
  v179.toNat
def k0_dev12 (d0 : Dev nD) : Nat :=
  let c0_i32_123 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_122 : BitVec 32 := 4#32
  let v192 : BitVec 32 := Scalar.muli v9 c4_i32_122
  let v193 : BitVec 32 := Scalar.addi c0_i32_123 v192
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_124 : BitVec 32 := 2#32
  let v194 : BitVec 32 := Scalar.muli v5 c2_i32_124
  let v195 : BitVec 32 := Scalar.addi v193 v194
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_125 : BitVec 32 := 1#32
  let v196 : BitVec 32 := Scalar.muli v8 c1_i32_125
  let v197 : BitVec 32 := Scalar.addi v195 v196
  v197.toNat
def k0_dev13 (d0 : Dev nD) : Nat :=
  let c0_i32_134 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_133 : BitVec 32 := 4#32
  let v210 : BitVec 32 := Scalar.muli v9 c4_i32_133
  let v211 : BitVec 32 := Scalar.addi c0_i32_134 v210
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_135 : BitVec 32 := 2#32
  let v212 : BitVec 32 := Scalar.muli v5 c2_i32_135
  let v213 : BitVec 32 := Scalar.addi v211 v212
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_136 : BitVec 32 := 1#32
  let v214 : BitVec 32 := Scalar.muli v8 c1_i32_136
  let v215 : BitVec 32 := Scalar.addi v213 v214
  v215.toNat
def k0_dev14 (d0 : Dev nD) : Nat :=
  let c0_i32_145 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_144 : BitVec 32 := 4#32
  let v228 : BitVec 32 := Scalar.muli v9 c4_i32_144
  let v229 : BitVec 32 := Scalar.addi c0_i32_145 v228
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_146 : BitVec 32 := 2#32
  let v230 : BitVec 32 := Scalar.muli v5 c2_i32_146
  let v231 : BitVec 32 := Scalar.addi v229 v230
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_147 : BitVec 32 := 1#32
  let v232 : BitVec 32 := Scalar.muli v8 c1_i32_147
  let v233 : BitVec 32 := Scalar.addi v231 v232
  v233.toNat
def k0_dev15 (d0 : Dev nD) : Nat :=
  let c0_i32_156 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_155 : BitVec 32 := 4#32
  let v246 : BitVec 32 := Scalar.muli v9 c4_i32_155
  let v247 : BitVec 32 := Scalar.addi c0_i32_156 v246
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_157 : BitVec 32 := 2#32
  let v248 : BitVec 32 := Scalar.muli v5 c2_i32_157
  let v249 : BitVec 32 := Scalar.addi v247 v248
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_158 : BitVec 32 := 1#32
  let v250 : BitVec 32 := Scalar.muli v8 c1_i32_158
  let v251 : BitVec 32 := Scalar.addi v249 v250
  v251.toNat
def k0_dev16 (d0 : Dev nD) : Nat :=
  let c0_i32_167 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_166 : BitVec 32 := 4#32
  let v264 : BitVec 32 := Scalar.muli v9 c4_i32_166
  let v265 : BitVec 32 := Scalar.addi c0_i32_167 v264
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_168 : BitVec 32 := 2#32
  let v266 : BitVec 32 := Scalar.muli v5 c2_i32_168
  let v267 : BitVec 32 := Scalar.addi v265 v266
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_169 : BitVec 32 := 1#32
  let v268 : BitVec 32 := Scalar.muli v8 c1_i32_169
  let v269 : BitVec 32 := Scalar.addi v267 v268
  v269.toNat
def k0_dev17 (d0 : Dev nD) : Nat :=
  let c0_i32_178 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_177 : BitVec 32 := 4#32
  let v282 : BitVec 32 := Scalar.muli v9 c4_i32_177
  let v283 : BitVec 32 := Scalar.addi c0_i32_178 v282
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_179 : BitVec 32 := 2#32
  let v284 : BitVec 32 := Scalar.muli v5 c2_i32_179
  let v285 : BitVec 32 := Scalar.addi v283 v284
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_180 : BitVec 32 := 1#32
  let v286 : BitVec 32 := Scalar.muli v8 c1_i32_180
  let v287 : BitVec 32 := Scalar.addi v285 v286
  v287.toNat
def k0_dev18 (d0 : Dev nD) : Nat :=
  let c0_i32_189 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_188 : BitVec 32 := 4#32
  let v300 : BitVec 32 := Scalar.muli v9 c4_i32_188
  let v301 : BitVec 32 := Scalar.addi c0_i32_189 v300
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_190 : BitVec 32 := 2#32
  let v302 : BitVec 32 := Scalar.muli v5 c2_i32_190
  let v303 : BitVec 32 := Scalar.addi v301 v302
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_191 : BitVec 32 := 1#32
  let v304 : BitVec 32 := Scalar.muli v8 c1_i32_191
  let v305 : BitVec 32 := Scalar.addi v303 v304
  v305.toNat
def k0_off3 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32_194 : BitVec 32 := 1024#32
  let v312 : BitVec 32 := Scalar.muli v2 c1024_i32_194
  let c0_i32_195 : BitVec 32 := 0#32
  ![v312.toNat, 0]
def k0_off4 (d0 : Dev nD) (c0_i32_207 : BitVec 32) : Fin 2 → Nat :=
  let c1_i32_204 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v324 : BitVec 32 := Scalar.subi c1_i32_204 v2
  let c1024_i32_205 : BitVec 32 := 1024#32
  let v325 : BitVec 32 := Scalar.muli v324 c1024_i32_205
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_206 : BitVec 32 := 512#32
  let v326 : BitVec 32 := Scalar.muli v8 c512_i32_206
  let v327 : BitVec 32 := Scalar.addi v325 v326
  let v328 : BitVec 32 := Scalar.addi v327 c0_i32_207
  let c0_i32_214 : BitVec 32 := 0#32
  ![v328.toNat, 0]
def k0_dev19 (d0 : Dev nD) : Nat :=
  let c0_i32_211 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_210 : BitVec 32 := 4#32
  let v329 : BitVec 32 := Scalar.muli v2 c4_i32_210
  let v330 : BitVec 32 := Scalar.addi c0_i32_211 v329
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_212 : BitVec 32 := 2#32
  let v331 : BitVec 32 := Scalar.muli v5 c2_i32_212
  let v332 : BitVec 32 := Scalar.addi v330 v331
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_213 : BitVec 32 := 1#32
  let v333 : BitVec 32 := Scalar.muli v10 c1_i32_213
  let v334 : BitVec 32 := Scalar.addi v332 v333
  v334.toNat
def k0_dev20 (d0 : Dev nD) : Nat :=
  let c0_i32_231 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_230 : BitVec 32 := 4#32
  let v356 : BitVec 32 := Scalar.muli v2 c4_i32_230
  let v357 : BitVec 32 := Scalar.addi c0_i32_231 v356
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_232 : BitVec 32 := 2#32
  let v358 : BitVec 32 := Scalar.muli v5 c2_i32_232
  let v359 : BitVec 32 := Scalar.addi v357 v358
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_233 : BitVec 32 := 1#32
  let v360 : BitVec 32 := Scalar.muli v10 c1_i32_233
  let v361 : BitVec 32 := Scalar.addi v359 v360
  v361.toNat
def k0_dev21 (d0 : Dev nD) : Nat :=
  let c0_i32_251 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_250 : BitVec 32 := 4#32
  let v383 : BitVec 32 := Scalar.muli v2 c4_i32_250
  let v384 : BitVec 32 := Scalar.addi c0_i32_251 v383
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_252 : BitVec 32 := 2#32
  let v385 : BitVec 32 := Scalar.muli v5 c2_i32_252
  let v386 : BitVec 32 := Scalar.addi v384 v385
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_253 : BitVec 32 := 1#32
  let v387 : BitVec 32 := Scalar.muli v10 c1_i32_253
  let v388 : BitVec 32 := Scalar.addi v386 v387
  v388.toNat
def k0_dev22 (d0 : Dev nD) : Nat :=
  let c0_i32_271 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_270 : BitVec 32 := 4#32
  let v410 : BitVec 32 := Scalar.muli v2 c4_i32_270
  let v411 : BitVec 32 := Scalar.addi c0_i32_271 v410
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_272 : BitVec 32 := 2#32
  let v412 : BitVec 32 := Scalar.muli v5 c2_i32_272
  let v413 : BitVec 32 := Scalar.addi v411 v412
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_273 : BitVec 32 := 1#32
  let v414 : BitVec 32 := Scalar.muli v10 c1_i32_273
  let v415 : BitVec 32 := Scalar.addi v413 v414
  v415.toNat
def k0_dev23 (d0 : Dev nD) : Nat :=
  let c0_i32_291 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_290 : BitVec 32 := 4#32
  let v437 : BitVec 32 := Scalar.muli v2 c4_i32_290
  let v438 : BitVec 32 := Scalar.addi c0_i32_291 v437
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_292 : BitVec 32 := 2#32
  let v439 : BitVec 32 := Scalar.muli v5 c2_i32_292
  let v440 : BitVec 32 := Scalar.addi v438 v439
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_293 : BitVec 32 := 1#32
  let v441 : BitVec 32 := Scalar.muli v10 c1_i32_293
  let v442 : BitVec 32 := Scalar.addi v440 v441
  v442.toNat
def k0_dev24 (d0 : Dev nD) : Nat :=
  let c0_i32_311 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_310 : BitVec 32 := 4#32
  let v464 : BitVec 32 := Scalar.muli v2 c4_i32_310
  let v465 : BitVec 32 := Scalar.addi c0_i32_311 v464
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_312 : BitVec 32 := 2#32
  let v466 : BitVec 32 := Scalar.muli v5 c2_i32_312
  let v467 : BitVec 32 := Scalar.addi v465 v466
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_313 : BitVec 32 := 1#32
  let v468 : BitVec 32 := Scalar.muli v10 c1_i32_313
  let v469 : BitVec 32 := Scalar.addi v467 v468
  v469.toNat
def k0_dev25 (d0 : Dev nD) : Nat :=
  let c0_i32_331 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_330 : BitVec 32 := 4#32
  let v491 : BitVec 32 := Scalar.muli v2 c4_i32_330
  let v492 : BitVec 32 := Scalar.addi c0_i32_331 v491
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_332 : BitVec 32 := 2#32
  let v493 : BitVec 32 := Scalar.muli v5 c2_i32_332
  let v494 : BitVec 32 := Scalar.addi v492 v493
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_333 : BitVec 32 := 1#32
  let v495 : BitVec 32 := Scalar.muli v10 c1_i32_333
  let v496 : BitVec 32 := Scalar.addi v494 v495
  v496.toNat
def k0_dev26 (d0 : Dev nD) : Nat :=
  let c0_i32_351 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_350 : BitVec 32 := 4#32
  let v518 : BitVec 32 := Scalar.muli v2 c4_i32_350
  let v519 : BitVec 32 := Scalar.addi c0_i32_351 v518
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_352 : BitVec 32 := 2#32
  let v520 : BitVec 32 := Scalar.muli v5 c2_i32_352
  let v521 : BitVec 32 := Scalar.addi v519 v520
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_353 : BitVec 32 := 1#32
  let v522 : BitVec 32 := Scalar.muli v10 c1_i32_353
  let v523 : BitVec 32 := Scalar.addi v521 v522
  v523.toNat
def k0_dev27 (d0 : Dev nD) : Nat :=
  let c0_i32_371 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_370 : BitVec 32 := 4#32
  let v545 : BitVec 32 := Scalar.muli v2 c4_i32_370
  let v546 : BitVec 32 := Scalar.addi c0_i32_371 v545
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_372 : BitVec 32 := 2#32
  let v547 : BitVec 32 := Scalar.muli v5 c2_i32_372
  let v548 : BitVec 32 := Scalar.addi v546 v547
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_373 : BitVec 32 := 1#32
  let v549 : BitVec 32 := Scalar.muli v10 c1_i32_373
  let v550 : BitVec 32 := Scalar.addi v548 v549
  v550.toNat
def k0_dev28 (d0 : Dev nD) : Nat :=
  let c0_i32_391 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_390 : BitVec 32 := 4#32
  let v572 : BitVec 32 := Scalar.muli v2 c4_i32_390
  let v573 : BitVec 32 := Scalar.addi c0_i32_391 v572
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_392 : BitVec 32 := 2#32
  let v574 : BitVec 32 := Scalar.muli v5 c2_i32_392
  let v575 : BitVec 32 := Scalar.addi v573 v574
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_393 : BitVec 32 := 1#32
  let v576 : BitVec 32 := Scalar.muli v10 c1_i32_393
  let v577 : BitVec 32 := Scalar.addi v575 v576
  v577.toNat
def k0_dev29 (d0 : Dev nD) : Nat :=
  let c0_i32_411 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_410 : BitVec 32 := 4#32
  let v599 : BitVec 32 := Scalar.muli v2 c4_i32_410
  let v600 : BitVec 32 := Scalar.addi c0_i32_411 v599
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_412 : BitVec 32 := 2#32
  let v601 : BitVec 32 := Scalar.muli v5 c2_i32_412
  let v602 : BitVec 32 := Scalar.addi v600 v601
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_413 : BitVec 32 := 1#32
  let v603 : BitVec 32 := Scalar.muli v10 c1_i32_413
  let v604 : BitVec 32 := Scalar.addi v602 v603
  v604.toNat
def k0_dev30 (d0 : Dev nD) : Nat :=
  let c0_i32_431 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_430 : BitVec 32 := 4#32
  let v626 : BitVec 32 := Scalar.muli v2 c4_i32_430
  let v627 : BitVec 32 := Scalar.addi c0_i32_431 v626
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_432 : BitVec 32 := 2#32
  let v628 : BitVec 32 := Scalar.muli v5 c2_i32_432
  let v629 : BitVec 32 := Scalar.addi v627 v628
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_433 : BitVec 32 := 1#32
  let v630 : BitVec 32 := Scalar.muli v10 c1_i32_433
  let v631 : BitVec 32 := Scalar.addi v629 v630
  v631.toNat
def k0_dev31 (d0 : Dev nD) : Nat :=
  let c0_i32_451 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_450 : BitVec 32 := 4#32
  let v653 : BitVec 32 := Scalar.muli v2 c4_i32_450
  let v654 : BitVec 32 := Scalar.addi c0_i32_451 v653
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_452 : BitVec 32 := 2#32
  let v655 : BitVec 32 := Scalar.muli v5 c2_i32_452
  let v656 : BitVec 32 := Scalar.addi v654 v655
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_453 : BitVec 32 := 1#32
  let v657 : BitVec 32 := Scalar.muli v10 c1_i32_453
  let v658 : BitVec 32 := Scalar.addi v656 v657
  v658.toNat
def k0_dev32 (d0 : Dev nD) : Nat :=
  let c0_i32_471 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_470 : BitVec 32 := 4#32
  let v680 : BitVec 32 := Scalar.muli v2 c4_i32_470
  let v681 : BitVec 32 := Scalar.addi c0_i32_471 v680
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_472 : BitVec 32 := 2#32
  let v682 : BitVec 32 := Scalar.muli v5 c2_i32_472
  let v683 : BitVec 32 := Scalar.addi v681 v682
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_473 : BitVec 32 := 1#32
  let v684 : BitVec 32 := Scalar.muli v10 c1_i32_473
  let v685 : BitVec 32 := Scalar.addi v683 v684
  v685.toNat
def k0_dev33 (d0 : Dev nD) : Nat :=
  let c0_i32_491 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_490 : BitVec 32 := 4#32
  let v707 : BitVec 32 := Scalar.muli v2 c4_i32_490
  let v708 : BitVec 32 := Scalar.addi c0_i32_491 v707
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_492 : BitVec 32 := 2#32
  let v709 : BitVec 32 := Scalar.muli v5 c2_i32_492
  let v710 : BitVec 32 := Scalar.addi v708 v709
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_493 : BitVec 32 := 1#32
  let v711 : BitVec 32 := Scalar.muli v10 c1_i32_493
  let v712 : BitVec 32 := Scalar.addi v710 v711
  v712.toNat
def k0_dev34 (d0 : Dev nD) : Nat :=
  let c0_i32_511 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_510 : BitVec 32 := 4#32
  let v734 : BitVec 32 := Scalar.muli v2 c4_i32_510
  let v735 : BitVec 32 := Scalar.addi c0_i32_511 v734
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_512 : BitVec 32 := 2#32
  let v736 : BitVec 32 := Scalar.muli v5 c2_i32_512
  let v737 : BitVec 32 := Scalar.addi v735 v736
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_513 : BitVec 32 := 1#32
  let v738 : BitVec 32 := Scalar.muli v10 c1_i32_513
  let v739 : BitVec 32 := Scalar.addi v737 v738
  v739.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_2 : (2#32 : BitVec 32).msb = false
  inb_S16_S1_0 : ∀ a, (![0] : Fin 1 → Nat) a + S1.size a ≤ S16.size a
  squeezes_S1_S_ : S1.Squeezes S_
  inb_S16_S1_1 : ∀ a, (![1] : Fin 1 → Nat) a + S1.size a ≤ S16.size a
  inb_S16_S1_2 : ∀ a, (![2] : Fin 1 → Nat) a + S1.size a ≤ S16.size a
  inb_S16_S1_3 : ∀ a, (![3] : Fin 1 → Nat) a + S1.size a ≤ S16.size a
  inb_S16_S1_4 : ∀ a, (![4] : Fin 1 → Nat) a + S1.size a ≤ S16.size a
  inb_S16_S1_5 : ∀ a, (![5] : Fin 1 → Nat) a + S1.size a ≤ S16.size a
  inb_S16_S1_6 : ∀ a, (![6] : Fin 1 → Nat) a + S1.size a ≤ S16.size a
  inb_S16_S1_7 : ∀ a, (![7] : Fin 1 → Nat) a + S1.size a ≤ S16.size a
  inb_S16_S1_8 : ∀ a, (![8] : Fin 1 → Nat) a + S1.size a ≤ S16.size a
  inb_S16_S1_9 : ∀ a, (![9] : Fin 1 → Nat) a + S1.size a ≤ S16.size a
  inb_S16_S1_10 : ∀ a, (![10] : Fin 1 → Nat) a + S1.size a ≤ S16.size a
  inb_S16_S1_11 : ∀ a, (![11] : Fin 1 → Nat) a + S1.size a ≤ S16.size a
  inb_S16_S1_12 : ∀ a, (![12] : Fin 1 → Nat) a + S1.size a ≤ S16.size a
  inb_S16_S1_13 : ∀ a, (![13] : Fin 1 → Nat) a + S1.size a ≤ S16.size a
  inb_S16_S1_14 : ∀ a, (![14] : Fin 1 → Nat) a + S1.size a ≤ S16.size a
  inb_S16_S1_15 : ∀ a, (![15] : Fin 1 → Nat) a + S1.size a ≤ S16.size a
  hcc0_scratch0 : 2 + S_.numel ≤ 67
  hcc0_scratch1 : 3 + S16.numel ≤ 67
  hcc0_scratch2 : 19 + S16.numel ≤ 67
  hcc0_scratch3 : 35 + S16.numel ≤ 67
  hcc0_scratch4 : 51 + S16.numel ≤ 67
  k0_dev1_lt : ∀ d0 : Dev nD, (k0_dev1 d0) < nD
  k0_dev2_lt : ∀ d0 : Dev nD, (k0_dev2 d0) < nD
  k0_off1_inb : ∀ d0 : Dev nD, ∀ (r : Fin 16), ∀ a, (k0_off1 d0 (BitVec.ofNat 32 (32 * r.val))) a + S32x512.size a ≤ S2048x512.size a
  k0_off2_inb : ∀ d0 : Dev nD, ∀ (r : Fin 16), ∀ a, (k0_off2 d0 (BitVec.ofNat 32 (32 * r.val))) a + S32x512.size a ≤ S1024x512.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_off3_inb : ∀ d0 : Dev nD, ∀ a, (k0_off3 d0) a + S1024x512.size a ≤ S2048x512.size a
  k0_off4_inb : ∀ d0 : Dev nD, ∀ (r : Fin 16), ∀ a, (k0_off4 d0 (BitVec.ofNat 32 (32 * r.val))) a + S32x512.size a ≤ S2048x512.size a
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  hstage0_0 : ∀ j, (stage0_0 j).IsWhole
  hstage0_1 : ∀ j, (stage0_1 j).IsWhole

variable [Facts₀]

abbrev cc0_scratch0 : DmaSems sig S_ := SemArray.consecutive 2 S_ hcc0_scratch0
abbrev cc0_scratch1 : DmaSems sig S16 := SemArray.consecutive 3 S16 hcc0_scratch1
abbrev cc0_scratch2 : DmaSems sig S16 := SemArray.consecutive 19 S16 hcc0_scratch2
abbrev cc0_scratch3 : DmaSems sig S16 := SemArray.consecutive 35 S16 hcc0_scratch3
abbrev cc0_scratch4 : DmaSems sig S16 := SemArray.consecutive 51 S16 hcc0_scratch4

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x512 : Shape := ⟨2, ![2048, 512]⟩

abbrev nBuf : Space → Nat
  | .hbm => 1
  | .vmem => 0
  | .smem => 0
  | _ => 0

abbrev bufTy : (tb : Table) → Fin (tcTables nBuf tb) → BufTy
  | .hbm, ⟨0, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.KernelIdeal.Prog.lean ====
import proofs.«900660_g7700000000000661_dist_ag_v7x_xyz2x2x2_x_m1024_n512_f32_1_alg».proof.Proof.Gen.KernelIdeal

/-!
# The kernel's body as a structured program

The printed body unrolls sixteen chunks of thirty-two rows. Read chunk by chunk it is: the entry handshake on the
barrier semaphore (a unit to the neighbour across the first mesh axis, a unit to the neighbour across the last, a wait
for two); sixteen sends of this device's half-block to the first neighbour's result buffer; one local copy of the whole
block into this device's own result buffer; sixteen times "wait for the first neighbour's chunk to land, forward it to
the second neighbour"; sixteen waits for the second neighbour's forwarded chunks; sixteen times the two send
completions; the local copy's completion. Here that reading is a program of its own, over lists of chunk numbers,
and the printed body is shown equal to it by unfolding.
-/

noncomputable section

namespace Cert.KernelIdeal.AG

open Cert.KernelIdeal Cert.KernelIdeal.Gen
open Idealize.ShloMosaic Idealize.SL.Sem

variable {F : FTy → Type} [FloatOps F]

/-- Chunk numbers, in program order. -/
def allK : List (Fin 16) := [0, 1, 2, 3, 4, 5, 6, 7, 8, 9, 10, 11, 12, 13, 14, 15]

theorem inbS (k : Fin 16) : ∀ a, (![k.val] : Fin 1 → Nat) a + S1.size a ≤ S16.size a := by
  intro a; fin_cases a; show k.val + 1 ≤ 16; omega

/-- Semaphore `k` of an array of sixteen. -/
abbrev semAt (a : DmaSems sig S16) (k : Fin 16) : DmaSems sig S_ :=
  (a.slice (Rect.unit (s := S16) ![k.val] S1.size (inbS k))).squeeze S_ squeezes_S1_S_

/-- The word `32·k`. -/
abbrev wordK (k : Fin 16) : BitVec 32 := BitVec.ofNat 32 (32 * k.val)

/-- Rows `[1024·x + 512·z + 32·k, +32)` of a result buffer: where this device's chunk `k` lands on the first neighbour. -/
abbrev outX (arg1 : Memref sig .tc .vmem S2048x512 .f32) (d0 : Dev nD) (k : Fin 16) : Memref sig .tc .vmem S32x512 .f32 :=
  arg1.slice (Rect.unit (s := S2048x512) (k0_off1 d0 (wordK k)) S32x512.size (k0_off1_inb d0 k)) (fun _ => rfl)
/-- Rows `[512·z + 32·k, +32)` of this device's block: chunk `k` of the half it sends. -/
abbrev srcX (arg0 : Memref sig .tc .vmem S1024x512 .f32) (d0 : Dev nD) (k : Fin 16) : Memref sig .tc .vmem S32x512 .f32 :=
  arg0.slice (Rect.unit (s := S1024x512) (k0_off2 d0 (wordK k)) S32x512.size (k0_off2_inb d0 k)) (fun _ => rfl)
/-- Rows `[1024·(1−x) + 512·z + 32·k, +32)` of a result buffer: where the first neighbour's chunk `k` lands here, and where it is forwarded to on the second neighbour. -/
abbrev outZ (arg1 : Memref sig .tc .vmem S2048x512 .f32) (d0 : Dev nD) (k : Fin 16) : Memref sig .tc .vmem S32x512 .f32 :=
  arg1.slice (Rect.unit (s := S2048x512) (k0_off4 d0 (wordK k)) S32x512.size (k0_off4_inb d0 k)) (fun _ => rfl)
/-- Rows `[1024·x, +1024)` of this device's result buffer: its own block. -/
abbrev outL (arg1 : Memref sig .tc .vmem S2048x512 .f32) (d0 : Dev nD) : Memref sig .tc .vmem S1024x512 .f32 :=
  arg1.slice (Rect.unit (s := S2048x512) (k0_off3 d0) S1024x512.size (k0_off3_inb d0)) (fun _ => rfl)

/-- The device chunk `k`'s first send addresses, as the kernel computes it (one printed chain per chunk). -/
def devX (d0 : Dev nD) (k : Fin 16) : Dev nD := (![⟨k0_dev3 d0, k0_dev3_lt d0⟩, ⟨k0_dev4 d0, k0_dev4_lt d0⟩, ⟨k0_dev5 d0, k0_dev5_lt d0⟩, ⟨k0_dev6 d0, k0_dev6_lt d0⟩, ⟨k0_dev7 d0, k0_dev7_lt d0⟩, ⟨k0_dev8 d0, k0_dev8_lt d0⟩, ⟨k0_dev9 d0, k0_dev9_lt d0⟩, ⟨k0_dev10 d0, k0_dev10_lt d0⟩, ⟨k0_dev11 d0, k0_dev11_lt d0⟩, ⟨k0_dev12 d0, k0_dev12_lt d0⟩, ⟨k0_dev13 d0, k0_dev13_lt d0⟩, ⟨k0_dev14 d0, k0_dev14_lt d0⟩, ⟨k0_dev15 d0, k0_dev15_lt d0⟩, ⟨k0_dev16 d0, k0_dev16_lt d0⟩, ⟨k0_dev17 d0, k0_dev17_lt d0⟩, ⟨k0_dev18 d0, k0_dev18_lt d0⟩] : Fin 16 → Dev nD) k
/-- The device chunk `k`'s forwarding send addresses. -/
def devZ (d0 : Dev nD) (k : Fin 16) : Dev nD := (![⟨k0_dev19 d0, k0_dev19_lt d0⟩, ⟨k0_dev20 d0, k0_dev20_lt d0⟩, ⟨k0_dev21 d0, k0_dev21_lt d0⟩, ⟨k0_dev22 d0, k0_dev22_lt d0⟩, ⟨k0_dev23 d0, k0_dev23_lt d0⟩, ⟨k0_dev24 d0, k0_dev24_lt d0⟩, ⟨k0_dev25 d0, k0_dev25_lt d0⟩, ⟨k0_dev26 d0, k0_dev26_lt d0⟩, ⟨k0_dev27 d0, k0_dev27_lt d0⟩, ⟨k0_dev28 d0, k0_dev28_lt d0⟩, ⟨k0_dev29 d0, k0_dev29_lt d0⟩, ⟨k0_dev30 d0, k0_dev30_lt d0⟩, ⟨k0_dev31 d0, k0_dev31_lt d0⟩, ⟨k0_dev32 d0, k0_dev32_lt d0⟩, ⟨k0_dev33 d0, k0_dev33_lt d0⟩, ⟨k0_dev34 d0, k0_dev34_lt d0⟩] : Fin 16 → Dev nD) k

abbrev P := Prog (TpuEff nD τ sig (Elt F) Λ₀ .tc) PUnit

/-- The sends of this device's half-block, chunk by chunk. -/
def xsends (arg0 : Memref sig .tc .vmem S1024x512 .f32) (arg1 : Memref sig .tc .vmem S2048x512 .f32) (arg3 arg4 : DmaSems sig S16) (d0 : Dev nD) :
    List (Fin 16) → P (F := F)
  | [] => pure ⟨⟩
  | k :: ks => do
    Prog.lift (.enqueueDma (srcX arg0 d0 k) (.remote (Dev.tc (devX d0 k)) (outX arg1 d0 k) (.dma (semAt arg3 k).sem)) (.dma (semAt arg4 k).sem) (View.wordExact_bits rfl) (View.wordExact_bits rfl) ⟨⟨rfl, Or.inl rfl⟩, trivial⟩)
    xsends arg0 arg1 arg3 arg4 d0 ks

/-- Per chunk: wait for the first neighbour's chunk, forward it to the second neighbour. -/
def forwards (arg0 : Memref sig .tc .vmem S1024x512 .f32) (arg1 : Memref sig .tc .vmem S2048x512 .f32) (arg4 arg5 arg6 : DmaSems sig S16) (d0 : Dev nD) :
    List (Fin 16) → P (F := F)
  | [] => pure ⟨⟩
  | k :: ks => do
    Prog.lift (.waitDma2 (semAt arg4 k).sem (srcX arg0 d0 k) (outX arg1 d0 k) (View.wordExact_bits rfl) (View.wordExact_bits rfl))
    Prog.lift (.enqueueDma (outZ arg1 d0 k) (.remote (Dev.tc (devZ d0 k)) (outZ arg1 d0 k) (.dma (semAt arg5 k).sem)) (.dma (semAt arg6 k).sem) (View.wordExact_bits rfl) (View.wordExact_bits rfl) ⟨⟨rfl, Or.inl rfl⟩, trivial⟩)
    forwards arg0 arg1 arg4 arg5 arg6 d0 ks

/-- The waits for the second neighbour's forwarded chunks. -/
def zwaits (arg1 : Memref sig .tc .vmem S2048x512 .f32) (arg6 : DmaSems sig S16) (d0 : Dev nD) :
    List (Fin 16) → P (F := F)
  | [] => pure ⟨⟩
  | k :: ks => do
    Prog.lift (.waitDma2 (semAt arg6 k).sem (outZ arg1 d0 k) (outZ arg1 d0 k) (View.wordExact_bits rfl) (View.wordExact_bits rfl))
    zwaits arg1 arg6 d0 ks

/-- Per chunk, the two send completions. -/
def swaits (arg0 : Memref sig .tc .vmem S1024x512 .f32) (arg1 : Memref sig .tc .vmem S2048x512 .f32) (arg3 arg5 : DmaSems sig S16) (d0 : Dev nD) :
    List (Fin 16) → P (F := F)
  | [] => pure ⟨⟩
  | k :: ks => do
    Prog.lift (.waitDma2 (semAt arg3 k).sem (outX arg1 d0 k) (srcX arg0 d0 k) (View.wordExact_bits rfl) (View.wordExact_bits rfl))
    Prog.lift (.waitDma2 (semAt arg5 k).sem (outZ arg1 d0 k) (outZ arg1 d0 k) (View.wordExact_bits rfl) (View.wordExact_bits rfl))
    swaits arg0 arg1 arg3 arg5 d0 ks

/-- The body, chunk by chunk. -/
def bodyS (arg0 : Memref sig .tc .vmem S1024x512 .f32) (harg0 : arg0.IsWhole) (arg1 : Memref sig .tc .vmem S2048x512 .f32) (harg1 : arg1.IsWhole)
    (arg2 : DmaSems sig S_) (arg3 arg4 arg5 arg6 : DmaSems sig S16) : P (F := F) := do
  let d0 : Dev nD ← Prog.lift .deviceId
  let bar : Sems sig S_ := SemArray.scalar (sig.barrier 0 rfl)
  semSignalWord (⟨k0_dev1 d0, k0_dev1_lt d0⟩ : Dev nD) bar.sem 1#32 hamt_1
  semSignalWord (⟨k0_dev2 d0, k0_dev2_lt d0⟩ : Dev nD) bar.sem 1#32 hamt_1
  semWaitWord bar.sem 2#32 hamt_2
  xsends arg0 arg1 arg3 arg4 d0 allK
  Prog.lift (.enqueueDma arg0 (.here (outL arg1 d0)) (.dma arg2.sem) harg0.wordExact (View.wordExact_bits rfl) ⟨Or.inl rfl, trivial⟩)
  forwards arg0 arg1 arg4 arg5 arg6 d0 allK
  zwaits arg1 arg6 d0 allK
  swaits arg0 arg1 arg3 arg5 d0 allK
  Prog.lift (.waitDma2 arg2.sem arg0 (outL arg1 d0) harg0.wordExact (View.wordExact_bits rfl))
  pure ⟨⟩

set_option maxRecDepth 200000 in
/-- The printed body is the chunk-by-chunk program, by unfolding. -/
theorem body_eq (arg0 : Memref sig .tc .vmem S1024x512 .f32) (harg0 : arg0.IsWhole) (arg1 : Memref sig .tc .vmem S2048x512 .f32) (harg1 : arg1.IsWhole)
    (arg2 : DmaSems sig S_) (arg3 arg4 arg5 arg6 : DmaSems sig S16) :
    cc0_body (F := F) arg0 harg0 arg1 harg1 arg2 arg3 arg4 arg5 arg6 = bodyS arg0 harg0 arg1 harg1 arg2 arg3 arg4 arg5 arg6 := rfl

end Cert.KernelIdeal.AG

end
-- ==== Proof.KernelIdeal.Cells.lean ====
import proofs.«900660_g7700000000000661_dist_ag_v7x_xyz2x2x2_x_m1024_n512_f32_1_alg».proof.Proof.KernelIdeal.Prog
import proofs.«900660_g7700000000000661_dist_ag_v7x_xyz2x2x2_x_m1024_n512_f32_1_alg».proof.Proof.Gen.KernelIdeal.Launch
import Idealize.ShloMosaic.Lib.Pipeline.Launch
import Idealize.ShloMosaic.Lib.Pipeline.Kit
import Idealize.ShloMosaic.Lib.Tactic

/-!
# The all-gather's protocol: neighbours, cells, contents, schedule

Device `c` sits at mesh coordinates `(x, y, z) = (c / 4, c / 2 % 2, c % 2)`. Its two partners are `xp c` (the other
`x`) and `zp c` (the other `z`); both maps are involutions and they commute. Whole `x` has 2048 rows; device `c`
holds rows `[1024·x, +1024)`. The result buffer of `c` is filled from three sources:

* rows `[1024·x, +1024)`: its own block, by one local copy;
* rows `[1024·(1−x) + 512·z, +512)`: the `z`-th half of `xp c`'s block, sent by `xp c` in sixteen chunks;
* rows `[1024·(1−x) + 512·(1−z), +512)`: the other half of that block, which `zp c` received from `xp (zp c)` and
  forwards, chunk by chunk.

Every semaphore has one payer. The barrier semaphore of `c` gets one unit from `xp c` and one from `zp c`; with its
unit each partner hands `c` the part of ITS result buffer that `c` is going to write.
-/

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The two partners -/

/-- The device with the other first coordinate. -/
def xp (c : Dev nD) : Dev nD := ⟨(c.val + 4) % 8, Nat.mod_lt _ (by decide)⟩
/-- The device with the other last coordinate. -/
def zp (c : Dev nD) : Dev nD := ⟨c.val + 1 - 2 * (c.val % 2), by have : c.val < 8 := c.isLt; show c.val + 1 - 2 * (c.val % 2) < 8; omega⟩

theorem xp_xp (c : Dev nD) : xp (xp c) = c := by revert c; decide
theorem zp_zp (c : Dev nD) : zp (zp c) = c := by revert c; decide
theorem xp_zp (c : Dev nD) : xp (zp c) = zp (xp c) := by revert c; decide
theorem xp_ne (c : Dev nD) : xp c ≠ c := by revert c; decide
theorem zp_ne (c : Dev nD) : zp c ≠ c := by revert c; decide
theorem xp_ne_zp (c : Dev nD) : xp c ≠ zp c := by revert c; decide

def xpE : Dev nD ≃ Dev nD := ⟨xp, xp, xp_xp, xp_xp⟩
def zpE : Dev nD ≃ Dev nD := ⟨zp, zp, zp_zp, zp_zp⟩

/-- The kernel's device chains: the first signal and every first send name `xp c`, the second signal and every
    forwarding send `zp c`. -/
theorem dev1_eq (c : Dev nD) : (⟨k0_dev1 c, k0_dev1_lt c⟩ : Dev nD) = xp c := by revert c; decide +kernel
theorem dev2_eq (c : Dev nD) : (⟨k0_dev2 c, k0_dev2_lt c⟩ : Dev nD) = zp c := by revert c; decide +kernel
theorem devX_eq (c : Dev nD) (k : Fin 16) : devX c k = xp c := by revert c k; decide +kernel
theorem devZ_eq (c : Dev nD) (k : Fin 16) : devZ c k = zp c := by revert c k; decide +kernel

/-! ## Memrefs, semaphores, cells -/

abbrev xM : Memref sig .tc .vmem S1024x512 .f32 := Memref.whole cc0_stg0_0
abbrev oM : Memref sig .tc .vmem S2048x512 .f32 := Memref.whole cc0_stg1_0

abbrev barS : Sem sig := (SemArray.scalar (sig.barrier 0 rfl) : Sems sig S_).sem
abbrev cpS : DmaSem sig := cc0_scratch0.sem
abbrev xsS (k : Fin 16) : DmaSem sig := (semAt cc0_scratch1 k).sem
abbrev xrS (k : Fin 16) : DmaSem sig := (semAt cc0_scratch2 k).sem
abbrev zsS (k : Fin 16) : DmaSem sig := (semAt cc0_scratch3 k).sem
abbrev zrS (k : Fin 16) : DmaSem sig := (semAt cc0_scratch4 k).sem

theorem cpS_val : (cpS : DmaSem sig).val = 2 := by decide
theorem xsS_val (k : Fin 16) : (xsS k).val = 3 + k.val := by revert k; decide
theorem xrS_val (k : Fin 16) : (xrS k).val = 19 + k.val := by revert k; decide
theorem zsS_val (k : Fin 16) : (zsS k).val = 35 + k.val := by revert k; decide
theorem zrS_val (k : Fin 16) : (zrS k).val = 51 + k.val := by revert k; decide

abbrev barCell (c : Dev nD) : GSem nD τ sig := ((c : Thread nD τ), .reg barS)
abbrev cpCell (c : Dev nD) : GSem nD τ sig := ((c : Thread nD τ), .dma cpS)
abbrev xsCell (c : Dev nD) (k : Fin 16) : GSem nD τ sig := ((c : Thread nD τ), .dma (xsS k))
abbrev xrCell (c : Dev nD) (k : Fin 16) : GSem nD τ sig := ((c : Thread nD τ), .dma (xrS k))
abbrev zsCell (c : Dev nD) (k : Fin 16) : GSem nD τ sig := ((c : Thread nD τ), .dma (zsS k))
abbrev zrCell (c : Dev nD) (k : Fin 16) : GSem nD τ sig := ((c : Thread nD τ), .dma (zrS k))

/-- The credit of a 32-row chunk and of a 1024-row block. -/
abbrev NC : ℕ := (outZ oM (0 : Dev nD) 0).view.dmaCredit
abbrev NL : ℕ := (outL oM (0 : Dev nD)).view.dmaCredit
theorem NC_pos : 0 < NC := View.dmaCredit_pos _ (by decide)
theorem NL_pos : 0 < NL := View.dmaCredit_pos _ (by decide)

/-! ## Contents -/

/-- Device `c`'s block of `x`, as its input staging buffer holds it. -/
def xstg (c : Dev nD) : (cc0_stg0_0 : Ref sig .tc).ty.Contents (Elt F) :=
  (win0_0.blk (0 : Fin 1)).view.read (Elt F) (m ((c : Thread nD τ).loc main_arg0))

/-- The device whose block supplies row `r` of `c`'s result. -/
def srcDev (c : Dev nD) (r : ℕ) : Dev nD :=
  if r / 1024 = c.val / 4 then c else if r % 1024 / 512 = c.val % 2 then xp c else xp (zp c)

/-- The row of a block that row `r` of the result is. -/
def blkIdx (i : S2048x512.Idx) : S1024x512.Idx :=
  fun a => match a with
    | ⟨0, _⟩ => ⟨(i 0).val % 1024, Nat.mod_lt _ (by decide)⟩
    | ⟨1, _⟩ => ⟨(i 1).val, (i 1).isLt⟩

/-- What the kernel leaves in device `c`'s result buffer: row `r` is row `r % 1024` of the block of `srcDev c r`. -/
def outAt (c : Dev nD) : (cc0_stg1_0 : Ref sig .tc).ty.Contents (Elt F) :=
  fun i => (xstg m (srcDev c (i 0).val) : S1024x512.Idx → Elt F .f32) (blkIdx i)

end Cert.KernelIdeal.AG

end
-- ==== Proof.KernelIdeal.Sched.lean ====
import proofs.«900660_g7700000000000661_dist_ag_v7x_xyz2x2x2_x_m1024_n512_f32_1_alg».proof.Proof.KernelIdeal.Cells

/-!
# The schedule of the all-gather's cells

One round per cell. A barrier cell has two duties of one unit: `false`, paid by `xp c`, which hands over the
sixteen chunks of `xp c`'s result buffer that `c` will write; `true`, paid by `zp c`, likewise for the chunks
`c` forwards into. Every DMA cell has the one duty `false`: a receive cell's landing hands its owner the chunk at its
final contents, a send cell's completion hands the sender its source back, the local copy's both.
-/

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The elements a view places on device `c`, held at share `q` with contents `f`. -/
def vpts {s : Shape} (c : Dev nD) (v : Memref sig .tc .vmem s .f32) (q : PosShare TreeShare)
    (f : Buf (Elt F) (v.view.loc (c : Thread nD τ))) : sProp 𝕄 :=
  v.view.loc (c : Thread nD τ) ↦[v.view.set]{q} f

/-! ## Payloads -/

/-- With its unit on `c`'s barrier, `xp c` hands over the chunks of its own result buffer that `c` sends into. -/
def barPayX (c : Dev nD) : sProp 𝕄 := bigSep Finset.univ fun k : Fin 16 => iprop(∃ f, vpts (xp c) (outZ oM (xp c) k) fullShare f)
/-- With its unit, `zp c` hands over the chunks of its own result buffer that `c` forwards into. -/
def barPayZ (c : Dev nD) : sProp 𝕄 := bigSep Finset.univ fun k : Fin 16 => iprop(∃ f, vpts (zp c) (outZ oM c k) fullShare f)
/-- The local copy done: the own block in place, and the share of the input it read. -/
def cpPay (c : Dev nD) : sProp 𝕄 := iprop(vpts c (outL oM c) fullShare (outAt m c) ∗ vpts c xM fullShare.left (xstg m c))
/-- A first send read out: the share of the input chunk it read. -/
def xsPay (c : Dev nD) (k : Fin 16) : sProp 𝕄 := vpts c (srcX xM c k) fullShare.right (xstg m c)
/-- `xp c`'s chunk `k` landed. -/
def xrPay (c : Dev nD) (k : Fin 16) : sProp 𝕄 := vpts c (outZ oM c k) fullShare (outAt m c)
/-- The forwarding send read out: the chunk it forwarded, back. -/
def zsPay (c : Dev nD) (k : Fin 16) : sProp 𝕄 := vpts c (outZ oM c k) fullShare (outAt m c)
/-- `zp c`'s forwarded chunk `k` landed. -/
def zrPay (c : Dev nD) (k : Fin 16) : sProp 𝕄 := vpts c (outZ oM (zp c) k) fullShare (outAt m c)

/-- The chunk number of a DMA semaphore of one of the four arrays of sixteen. -/
def kOf (q : DmaSem sig) : Fin 16 := ⟨(q.val + 13) % 16, Nat.mod_lt _ (by decide)⟩
theorem kOf_xs (k : Fin 16) : kOf (xsS k) = k := by revert k; decide
theorem kOf_xr (k : Fin 16) : kOf (xrS k) = k := by revert k; decide
theorem kOf_zs (k : Fin 16) : kOf (zsS k) = k := by revert k; decide
theorem kOf_zr (k : Fin 16) : kOf (zrS k) = k := by revert k; decide

/-! ## The schedule -/

def agRd : Rounds.Schedule (GSem nD τ sig) Bool 𝕄 where
  duties g r := if r = 0 ∧ g.1.2 = .tc then
      (match g.2 with
        | .reg s => if s = barS then Finset.univ else ∅
        | .dma q => if 2 ≤ q.val then {false} else ∅)
    else ∅
  unitless _ := False
  amount g _ _ := match g.2 with
    | .reg _ => 1
    | .dma q => if q.val = 2 then NL else NC
  payload g _ d := match g.2 with
    | .reg _ => if d then barPayZ g.1.1 else barPayX g.1.1
    | .dma q => if q.val = 2 then cpPay m g.1.1 else if q.val < 19 then xsPay m g.1.1 (kOf q)
        else if q.val < 35 then xrPay m g.1.1 (kOf q) else if q.val < 51 then zsPay m g.1.1 (kOf q) else zrPay m g.1.1 (kOf q)
  amount_pos g _ _ _ := by
    rcases g with ⟨t, sm⟩
    cases sm with
    | reg s => exact Nat.one_pos
    | dma q => dsimp only; split
               · exact NL_pos
               · exact NC_pos

instance agRd_payload_storable (g : GSem nD τ sig) (r : ℕ) (d : Bool) :
    BI.Storable (upEmb : UEmb _ 𝕄) ((agRd (F := F) m).payload g r d) := by
  rcases g with ⟨t, sm⟩
  cases sm with
  | reg s => dsimp only [agRd]; unfold barPayZ barPayX vpts; split <;> infer_instance
  | dma q => dsimp only [agRd]; unfold cpPay xsPay xrPay zsPay zrPay vpts; (repeat' split) <;> infer_instance

omit [FloatOps F] in
/-- A cell whose round `0` has the one duty `false` expects that duty's amount. Stated at a variable cell, so that
    checking an instance compares types and evaluates nothing. -/
theorem expect_of_single (g : GSem nD τ sig) (N : ℕ) (hd : (agRd (F := F) m).duties g 0 = {false})
    (ha : (agRd (F := F) m).amount g 0 false = N) : (agRd (F := F) m).expect g 0 = N :=
  (show (agRd (F := F) m).expect g 0 = ∑ d ∈ (agRd (F := F) m).duties g 0, (agRd (F := F) m).amount g 0 d from rfl).trans
    ((congrArg (fun B : Finset Bool => ∑ d ∈ B, (agRd (F := F) m).amount g 0 d) hd).trans ((Finset.sum_singleton _ _).trans ha))

omit [FloatOps F] in
/-- The rest of such a cell's round, no duty taken, is that duty's payload. -/
theorem rest_of_single (g : GSem nD τ sig) (P : sProp 𝕄) (hd : (agRd (F := F) m).duties g 0 = {false})
    (hp : (agRd (F := F) m).payload g 0 false = P) :
    bigSep ((agRd (F := F) m).duties g 0 \ ∅) (fun d => (agRd (F := F) m).payload g 0 d) = P := by
  rw [Finset.sdiff_empty, hd, bigSep_singleton, hp]

section Tables
variable (c : Dev nD) (k : Fin 16)

omit [FloatOps F] in
theorem duties_bar : (agRd (F := F) m).duties (barCell c) 0 = Finset.univ := by
  dsimp only [agRd]; rw [if_pos ⟨rfl, rfl⟩]; exact if_pos rfl
omit [FloatOps F] in
theorem duties_cp : (agRd (F := F) m).duties (cpCell c) 0 = {false} := by
  dsimp only [agRd]; rw [if_pos ⟨rfl, rfl⟩]; exact if_pos (by decide)
omit [FloatOps F] in
theorem duties_xs : (agRd (F := F) m).duties (xsCell c k) 0 = {false} := by
  dsimp only [agRd]; rw [if_pos ⟨rfl, rfl⟩]; exact if_pos (by rw [xsS_val]; omega)
omit [FloatOps F] in
theorem duties_xr : (agRd (F := F) m).duties (xrCell c k) 0 = {false} := by
  dsimp only [agRd]; rw [if_pos ⟨rfl, rfl⟩]; exact if_pos (by rw [xrS_val]; omega)
omit [FloatOps F] in
theorem duties_zs : (agRd (F := F) m).duties (zsCell c k) 0 = {false} := by
  dsimp only [agRd]; rw [if_pos ⟨rfl, rfl⟩]; exact if_pos (by rw [zsS_val]; omega)
omit [FloatOps F] in
theorem duties_zr : (agRd (F := F) m).duties (zrCell c k) 0 = {false} := by
  dsimp only [agRd]; rw [if_pos ⟨rfl, rfl⟩]; exact if_pos (by rw [zrS_val]; omega)
omit [FloatOps F] in
theorem duties_later (g : GSem nD τ sig) : ∀ r, 1 ≤ r → (agRd (F := F) m).duties g r = ∅ :=
  fun r hr => by dsimp only [agRd]; rw [if_neg fun h => by omega]

omit [FloatOps F] in
theorem amount_bar (d : Bool) : (agRd (F := F) m).amount (barCell c) 0 d = 1 := rfl
omit [FloatOps F] in
theorem amount_cp (d : Bool) : (agRd (F := F) m).amount (cpCell c) 0 d = NL := by dsimp only [agRd]; exact if_pos cpS_val
omit [FloatOps F] in
theorem amount_xs (d : Bool) : (agRd (F := F) m).amount (xsCell c k) 0 d = NC := by
  dsimp only [agRd]; exact if_neg (by rw [xsS_val]; omega)
omit [FloatOps F] in
theorem amount_xr (d : Bool) : (agRd (F := F) m).amount (xrCell c k) 0 d = NC := by
  dsimp only [agRd]; exact if_neg (by rw [xrS_val]; omega)
omit [FloatOps F] in
theorem amount_zs (d : Bool) : (agRd (F := F) m).amount (zsCell c k) 0 d = NC := by
  dsimp only [agRd]; exact if_neg (by rw [zsS_val]; omega)
omit [FloatOps F] in
theorem amount_zr (d : Bool) : (agRd (F := F) m).amount (zrCell c k) 0 d = NC := by
  dsimp only [agRd]; exact if_neg (by rw [zrS_val]; omega)

omit [FloatOps F] in
theorem expect_bar : (agRd (F := F) m).expect (barCell c) 0 = 2 := by
  unfold Schedule.expect Schedule.amountOf
  rw [duties_bar, Finset.sum_congr rfl fun d _ => amount_bar m c d, Finset.sum_const, Finset.card_univ, Fintype.card_bool, smul_eq_mul]
omit [FloatOps F] in
theorem expect_cp : (agRd (F := F) m).expect (cpCell c) 0 = NL :=
  expect_of_single m (cpCell c) NL (duties_cp m c) (amount_cp m c false)
omit [FloatOps F] in
theorem expect_xs : (agRd (F := F) m).expect (xsCell c k) 0 = NC :=
  expect_of_single m (xsCell c k) NC (duties_xs m c k) (amount_xs m c k false)
omit [FloatOps F] in
theorem expect_xr : (agRd (F := F) m).expect (xrCell c k) 0 = NC :=
  expect_of_single m (xrCell c k) NC (duties_xr m c k) (amount_xr m c k false)
omit [FloatOps F] in
theorem expect_zs : (agRd (F := F) m).expect (zsCell c k) 0 = NC :=
  expect_of_single m (zsCell c k) NC (duties_zs m c k) (amount_zs m c k false)
omit [FloatOps F] in
theorem expect_zr : (agRd (F := F) m).expect (zrCell c k) 0 = NC :=
  expect_of_single m (zrCell c k) NC (duties_zr m c k) (amount_zr m c k false)

omit [FloatOps F] in
theorem payload_bar_false : (agRd (F := F) m).payload (barCell c) 0 false = barPayX c := by
  dsimp only [agRd]; exact if_neg Bool.false_ne_true
omit [FloatOps F] in
theorem payload_bar_true : (agRd (F := F) m).payload (barCell c) 0 true = barPayZ c := by
  dsimp only [agRd]; exact if_pos rfl
omit [FloatOps F] in
theorem payload_cp (d : Bool) : (agRd (F := F) m).payload (cpCell c) 0 d = cpPay m c := by
  dsimp only [agRd]; exact if_pos cpS_val
omit [FloatOps F] in
theorem payload_xs (d : Bool) : (agRd (F := F) m).payload (xsCell c k) 0 d = xsPay m c k := by
  dsimp only [agRd]; rw [if_neg (by rw [xsS_val]; omega), if_pos (by rw [xsS_val]; omega), kOf_xs]
omit [FloatOps F] in
theorem payload_xr (d : Bool) : (agRd (F := F) m).payload (xrCell c k) 0 d = xrPay m c k := by
  dsimp only [agRd]; rw [if_neg (by rw [xrS_val]; omega), if_neg (by rw [xrS_val]; omega), if_pos (by rw [xrS_val]; omega), kOf_xr]
omit [FloatOps F] in
theorem payload_zs (d : Bool) : (agRd (F := F) m).payload (zsCell c k) 0 d = zsPay m c k := by
  dsimp only [agRd]
  rw [if_neg (by rw [zsS_val]; omega), if_neg (by rw [zsS_val]; omega), if_neg (by rw [zsS_val]; omega), if_pos (by rw [zsS_val]; omega), kOf_zs]
omit [FloatOps F] in
theorem payload_zr (d : Bool) : (agRd (F := F) m).payload (zrCell c k) 0 d = zrPay m c k := by
  dsimp only [agRd]
  rw [if_neg (by rw [zrS_val]; omega), if_neg (by rw [zrS_val]; omega), if_neg (by rw [zrS_val]; omega), if_neg (by rw [zrS_val]; omega), kOf_zr]

omit [FloatOps F] in
/-- The rest of a barrier cell's round, no duty taken: both partners' chunks. -/
theorem rest_bar : bigSep ((agRd (F := F) m).duties (barCell c) 0 \ ∅) (fun d => (agRd (F := F) m).payload (barCell c) 0 d) = iprop(barPayX c ∗ barPayZ c) := by
  rw [Finset.sdiff_empty, duties_bar, bigSep_univ_eq_bigSepL [false, true] (by decide) (by decide), bigSepL_cons_cons, bigSepL_singleton,
    payload_bar_false, payload_bar_true]
  rfl
omit [FloatOps F] in
theorem rest_cp : bigSep ((agRd (F := F) m).duties (cpCell c) 0 \ ∅) (fun d => (agRd (F := F) m).payload (cpCell c) 0 d) = cpPay m c :=
  rest_of_single m (cpCell c) (cpPay m c) (duties_cp m c) (payload_cp m c false)
omit [FloatOps F] in
theorem rest_xs : bigSep ((agRd (F := F) m).duties (xsCell c k) 0 \ ∅) (fun d => (agRd (F := F) m).payload (xsCell c k) 0 d) = xsPay m c k :=
  rest_of_single m (xsCell c k) (xsPay m c k) (duties_xs m c k) (payload_xs m c k false)
omit [FloatOps F] in
theorem rest_xr : bigSep ((agRd (F := F) m).duties (xrCell c k) 0 \ ∅) (fun d => (agRd (F := F) m).payload (xrCell c k) 0 d) = xrPay m c k :=
  rest_of_single m (xrCell c k) (xrPay m c k) (duties_xr m c k) (payload_xr m c k false)
omit [FloatOps F] in
theorem rest_zs : bigSep ((agRd (F := F) m).duties (zsCell c k) 0 \ ∅) (fun d => (agRd (F := F) m).payload (zsCell c k) 0 d) = zsPay m c k :=
  rest_of_single m (zsCell c k) (zsPay m c k) (duties_zs m c k) (payload_zs m c k false)
omit [FloatOps F] in
theorem rest_zr : bigSep ((agRd (F := F) m).duties (zrCell c k) 0 \ ∅) (fun d => (agRd (F := F) m).payload (zrCell c k) 0 d) = zrPay m c k :=
  rest_of_single m (zrCell c k) (zrPay m c k) (duties_zr m c k) (payload_zr m c k false)

end Tables

/-! ## What each device owes at launch; the levels -/

/-- The receive credit still owed for the chunks `ks` of the first sends, and of the forwarding sends. -/
def owedX (c : Dev nD) (ks : List (Fin 16)) : CellTallies nD τ sig Unit := (ks.map fun k => tallyAt (xrCell (xp c) k) () NC).sum
def owedZ (c : Dev nD) (ks : List (Fin 16)) : CellTallies nD τ sig Unit := (ks.map fun k => tallyAt (zrCell (zp c) k) () NC).sum

/-- All transfers; with the second signal; with the first too (the first signal peels the last summand). -/
def O₂ (c : Dev nD) : CellTallies nD τ sig Unit := owedZ c allK + owedX c allK
def O₁ (c : Dev nD) : CellTallies nD τ sig Unit := O₂ c + tallyAt (barCell (zp c)) () 1
def O₀ (c : Dev nD) : CellTallies nD τ sig Unit := O₁ c + tallyAt (barCell (xp c)) () 1

theorem owedX_cons (c : Dev nD) (k : Fin 16) (ks : List (Fin 16)) : owedX c (k :: ks) = owedX c ks + tallyAt (xrCell (xp c) k) () NC := by
  unfold owedX; rw [List.map_cons, List.sum_cons, add_comm]
theorem owedZ_cons (c : Dev nD) (k : Fin 16) (ks : List (Fin 16)) : owedZ c (k :: ks) = owedZ c ks + tallyAt (zrCell (zp c) k) () NC := by
  unfold owedZ; rw [List.map_cons, List.sum_cons, add_comm]
theorem owedX_nil (c : Dev nD) : owedX c [] = 0 := rfl
theorem owedZ_nil (c : Dev nD) : owedZ c [] = 0 := rfl

def L (g : GSem nD τ sig) : Finset Unit := if g.1.2 = .tc then {()} else ∅
/-- Barrier cells at 1, first-receive cells at 2, forwarded-receive cells at 3, the rest at 0: a device waits on its
    barrier owing all its transfers, and on a first-receive cell owing forwarding transfers. -/
def lv (g : GSem nD τ sig) (_ : Unit) : ℕ := match g.2 with
  | .reg _ => 1
  | .dma q => if 19 ≤ q.val ∧ q.val < 35 then 2 else if 51 ≤ q.val then 3 else 0

theorem L_of_ne (g : GSem nD τ sig) (h : g.1.2 ≠ .tc) : L g = ∅ := if_neg h
theorem L_tc (c : Dev nD) (sm : SemLoc sig) : L ((c : Thread nD τ), sm) = {()} := if_pos rfl

end Cert.KernelIdeal.AG

end
-- ==== Proof.KernelIdeal.Ghost.lean ====
import proofs.«900660_g7700000000000661_dist_ag_v7x_xyz2x2x2_x_m1024_n512_f32_1_alg».proof.Proof.KernelIdeal.Sched

/-!
# What a device starts from, and the pipeline's proof data

The launch allocates one invariant per cell, under names `K`. Device `c` opens the invariants of its own cells, of its
two partners' barrier cells (its signals) and of the partners' receive cells its transfers credit. It holds its own
cells' positions, the tokens of the duties IT pays, and the marks that each cell it pays has reached round `0`.
-/

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Cell indices -/

/-- A device's own DMA cells: the local copy's, then array × chunk. -/
abbrev KIx : Type := Unit ⊕ (Fin 4 × Fin 16)
/-- All of a device's cells: its barrier cell, then its own DMA cells. -/
abbrev CIx : Type := Unit ⊕ KIx

def famS (j : Fin 4) (k : Fin 16) : DmaSem sig := (![xsS, xrS, zsS, zrS] : Fin 4 → Fin 16 → DmaSem sig) j k
def dsem : KIx → DmaSem sig
  | .inl _ => cpS
  | .inr (j, k) => famS j k
abbrev osem : KIx → SemLoc sig := fun i => .dma (dsem i)
def csem : CIx → SemLoc sig
  | .inl _ => .reg barS
  | .inr i => osem i
abbrev kcell (ck : Dev nD × CIx) : GSem nD τ sig := ((ck.1 : Thread nD τ), csem ck.2)

abbrev iBar : CIx := .inl ()
abbrev iCp : CIx := .inr (.inl ())
abbrev iF (j : Fin 4) (k : Fin 16) : CIx := .inr (.inr (j, k))

theorem kcell_bar (c : Dev nD) : kcell (c, iBar) = barCell c := rfl
theorem kcell_cp (c : Dev nD) : kcell (c, iCp) = cpCell c := rfl
theorem kcell_xs (c : Dev nD) (k : Fin 16) : kcell (c, iF 0 k) = xsCell c k := rfl
theorem kcell_xr (c : Dev nD) (k : Fin 16) : kcell (c, iF 1 k) = xrCell c k := rfl
theorem kcell_zs (c : Dev nD) (k : Fin 16) : kcell (c, iF 2 k) = zsCell c k := rfl
theorem kcell_zr (c : Dev nD) (k : Fin 16) : kcell (c, iF 3 k) = zrCell c k := rfl

/-! ## Ghost state -/

section Ghost
variable (K : Dev nD × CIx → ℕ) (c : Dev nD)

/-- The invariants device `c`'s body opens. -/
def invs : sProp 𝕄 :=
  iprop(cellInv ER (agRd m) (K (c, iBar)) (barCell c) ∗ cellInv ER (agRd m) (K (xp c, iBar)) (barCell (xp c)) ∗ cellInv ER (agRd m) (K (zp c, iBar)) (barCell (zp c))
    ∗ cellInv ER (agRd m) (K (c, iCp)) (cpCell c)
    ∗ (bigSep Finset.univ fun k : Fin 16 => cellInv ER (agRd m) (K (c, iF 0 k)) (xsCell c k))
    ∗ (bigSep Finset.univ fun k : Fin 16 => cellInv ER (agRd m) (K (c, iF 1 k)) (xrCell c k))
    ∗ (bigSep Finset.univ fun k : Fin 16 => cellInv ER (agRd m) (K (c, iF 2 k)) (zsCell c k))
    ∗ (bigSep Finset.univ fun k : Fin 16 => cellInv ER (agRd m) (K (c, iF 3 k)) (zrCell c k))
    ∗ (bigSep Finset.univ fun k : Fin 16 => cellInv ER (agRd m) (K (xp c, iF 1 k)) (xrCell (xp c) k))
    ∗ (bigSep Finset.univ fun k : Fin 16 => cellInv ER (agRd m) (K (zp c, iF 3 k)) (zrCell (zp c) k)))

instance invs_persistent : BI.Persistent (invs m K c) := by unfold invs; infer_instance

/-- Round `0` reached, of every cell device `c` pays. -/
def reachs : sProp 𝕄 :=
  iprop(reached ER (barCell (xp c)) 0 ∗ reached ER (barCell (zp c)) 0 ∗ reached ER (cpCell c) 0
    ∗ (bigSep Finset.univ fun k : Fin 16 => reached ER (xsCell c k) 0)
    ∗ (bigSep Finset.univ fun k : Fin 16 => reached ER (zsCell c k) 0)
    ∗ (bigSep Finset.univ fun k : Fin 16 => reached ER (xrCell (xp c) k) 0)
    ∗ (bigSep Finset.univ fun k : Fin 16 => reached ER (zrCell (zp c) k) 0))

instance reachs_persistent : BI.Persistent (reachs (F := F) c) := by unfold reachs; infer_instance

/-- Device `c`'s positions: round `0`, nothing taken, of each of its own cells. -/
def poss : sProp 𝕄 :=
  iprop(atPos ER (barCell c) 0 ∅ 0 ∗ atPos ER (cpCell c) 0 ∅ 0
    ∗ (bigSep Finset.univ fun k : Fin 16 => atPos ER (xsCell c k) 0 ∅ 0)
    ∗ (bigSep Finset.univ fun k : Fin 16 => atPos ER (xrCell c k) 0 ∅ 0)
    ∗ (bigSep Finset.univ fun k : Fin 16 => atPos ER (zsCell c k) 0 ∅ 0)
    ∗ (bigSep Finset.univ fun k : Fin 16 => atPos ER (zrCell c k) 0 ∅ 0))

/-- The tokens of the duties device `c` pays: `xp c`'s barrier duty `false`, `zp c`'s barrier duty `true`, its own
    copy's and sends', and the partners' receive duties its transfers land on. -/
def payToks : sProp 𝕄 :=
  iprop(dutyTok ER (barCell (xp c)) 0 false ∗ dutyTok ER (barCell (zp c)) 0 true ∗ dutyTok ER (cpCell c) 0 false
    ∗ (bigSep Finset.univ fun k : Fin 16 => dutyTok ER (xsCell c k) 0 false)
    ∗ (bigSep Finset.univ fun k : Fin 16 => dutyTok ER (zsCell c k) 0 false)
    ∗ (bigSep Finset.univ fun k : Fin 16 => dutyTok ER (xrCell (xp c) k) 0 false)
    ∗ (bigSep Finset.univ fun k : Fin 16 => dutyTok ER (zrCell (zp c) k) 0 false))

def ghost : sProp 𝕄 := iprop(invs m K c ∗ reachs c ∗ poss c ∗ payToks c)

end Ghost

/-- The credit the launch deals device `c` for the units others owe its cells. -/
def creds (c : Dev nD) : sProp 𝕄 :=
  iprop(cred (tallyAt (barCell c) () 2)
    ∗ (bigSep Finset.univ fun k : Fin 16 => cred (tallyAt (xrCell c k) () NC))
    ∗ (bigSep Finset.univ fun k : Fin 16 => cred (tallyAt (zrCell c k) () NC)))

/-- What device `c`'s body starts from. -/
def start (c : Dev nD) : sProp 𝕄 := iprop((∃ K, ghost m K c) ∗ creds c ∗ levAts L lv)

def Φ₀ (c : Dev nD) : sProp 𝕄 := start m c
/-- After the point: every own cell closed, its counter at zero. -/
def Φ₁ (c : Dev nD) : sProp 𝕄 :=
  iprop(semVal (cpCell c) 0
    ∗ (bigSep Finset.univ fun k : Fin 16 => semVal (xsCell c k) 0)
    ∗ (bigSep Finset.univ fun k : Fin 16 => semVal (xrCell c k) 0)
    ∗ (bigSep Finset.univ fun k : Fin 16 => semVal (zsCell c k) 0)
    ∗ (bigSep Finset.univ fun k : Fin 16 => semVal (zrCell c k) 0))

/-! ## The pipeline's proof data -/

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- A whole buffer of device `c` at contents `X`, as the pipeline hands a staging buffer to the body. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is entered with, and what it leaves. -/
def bodyPre (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xstg m c) ∗ stg c cc0_stg1_0 (outAt m c))

end Cert.KernelIdeal.AG

end
-- ==== Proof.KernelIdeal.Lands.lean ====
import proofs.«900660_g7700000000000661_dist_ag_v7x_xyz2x2x2_x_m1024_n512_f32_1_alg».proof.Proof.KernelIdeal.Ghost
import Idealize.ShloMosaic.Lib.Pipeline.Value

/-!
# What each landing leaves

A transfer writes its destination rows with its source rows as they stand. Row `r` of device `c`'s result is to hold
row `r % 1024` of the block of `srcDev c r`; each of the three kinds of transfer lands exactly that on the rows it
writes: a first send from `c` lands rows of `c`'s block on `xp c`, whose source device for those rows is `c`; a
forwarding send lands rows `c` itself received from `xp c` on `zp c`, whose source device for them is `xp c = xp (zp (zp c))`;
the local copy lands the own block.
-/

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Where device `c`'s first send of chunk `k` lands is `xp c`'s chunk `k` of the rows it forwards. -/
theorem outX_eq (c : Dev nD) (k : Fin 16) : outX oM c k = outZ oM (xp c) k := by
  have e : k0_off1 c (wordK k) = k0_off4 (xp c) (wordK k) := by revert c k; decide +kernel
  show oM.slice (Rect.unit (s := S2048x512) (k0_off1 c (wordK k)) S32x512.size (k0_off1_inb c k)) (fun _ => rfl)
     = oM.slice (Rect.unit (s := S2048x512) (k0_off4 (xp c) (wordK k)) S32x512.size (k0_off4_inb (xp c) k)) (fun _ => rfl)
  generalize k0_off1_inb c k = h1
  generalize k0_off4_inb (xp c) k = h4
  revert h1 h4
  rw [e]
  intro h1 h4
  rfl

/-! ## Mesh coordinates of the partners -/

theorem xp_div (c : Dev nD) : (xp c).val / 4 = 1 - c.val / 4 := by revert c; decide
theorem xp_mod (c : Dev nD) : (xp c).val % 2 = c.val % 2 := by revert c; decide
theorem zp_div (c : Dev nD) : (zp c).val / 4 = c.val / 4 := by revert c; decide
theorem zp_mod (c : Dev nD) : (zp c).val % 2 = 1 - c.val % 2 := by revert c; decide

/-! ## The rows and columns a view's index is placed at -/

theorem rowX (c : Dev nD) (k : Fin 16) (y : S32x512.Idx) :
    (((outX oM c k).view.emb y) 0).val = 1024 * (c.val / 4) + 512 * (c.val % 2) + 32 * k.val + (y 0).val := by
  show (k0_off1 c (wordK k)) 0 + 1 * (y 0).val = _
  rw [k0_off1_eq c k]
  simp

theorem colX (c : Dev nD) (k : Fin 16) (y : S32x512.Idx) :
    (((outX oM c k).view.emb y) 1).val = (y 1).val := by
  show (k0_off1 c (wordK k)) 1 + 1 * (y 1).val = _
  rw [k0_off1_eq c k]
  simp

theorem rowS (c : Dev nD) (k : Fin 16) (y : S32x512.Idx) :
    (((srcX xM c k).view.emb y) 0).val = 512 * (c.val % 2) + 32 * k.val + (y 0).val := by
  show (k0_off2 c (wordK k)) 0 + 1 * (y 0).val = _
  rw [k0_off2_eq c k]
  simp

theorem colS (c : Dev nD) (k : Fin 16) (y : S32x512.Idx) :
    (((srcX xM c k).view.emb y) 1).val = (y 1).val := by
  show (k0_off2 c (wordK k)) 1 + 1 * (y 1).val = _
  rw [k0_off2_eq c k]
  simp

theorem rowZ (c : Dev nD) (k : Fin 16) (y : S32x512.Idx) :
    (((outZ oM c k).view.emb y) 0).val = (512 * (c.val % 2) + 32 * k.val + 1024) - 1024 * (c.val / 4) + (y 0).val := by
  show (k0_off4 c (wordK k)) 0 + 1 * (y 0).val = _
  rw [k0_off4_eq c k]
  simp

theorem colZ (c : Dev nD) (k : Fin 16) (y : S32x512.Idx) :
    (((outZ oM c k).view.emb y) 1).val = (y 1).val := by
  show (k0_off4 c (wordK k)) 1 + 1 * (y 1).val = _
  rw [k0_off4_eq c k]
  simp

theorem rowL (c : Dev nD) (y : S1024x512.Idx) :
    (((outL oM c).view.emb y) 0).val = 1024 * (c.val / 4) + (y 0).val := by
  show (k0_off3 c) 0 + 1 * (y 0).val = _
  rw [k0_off3_eq c]
  simp

theorem colL (c : Dev nD) (y : S1024x512.Idx) :
    (((outL oM c).view.emb y) 1).val = (y 1).val := by
  show (k0_off3 c) 1 + 1 * (y 1).val = _
  rw [k0_off3_eq c]
  simp

/-! ## What each landing leaves -/

/-- Device `c`'s chunk `k` landed on `xp c`: there the rows hold what `xp c`'s result is to hold. -/
theorem land_x (c : Dev nD) (k : Fin 16) (fd : Buf (Elt F) ((outX oM c k).view.loc (xp c : Thread nD τ))) :
    ∀ i ∈ (outX oM c k).view.set,
      (outX oM c k).view.write (Elt F) fd ((srcX xM c k).view.read (Elt F) (xstg m c)) Finset.univ i = outAt m (xp c) i := by
  intro i hi
  obtain ⟨y, rfl⟩ := View.exists_emb_of_mem_set _ hi
  clear hi
  rw [View.write_emb_of_mem _ _ (Finset.mem_univ y), View.read_apply]
  show (xstg m c : S1024x512.Idx → Elt F .f32) ((srcX xM c k).view.emb y)
     = (xstg m (srcDev (xp c) (((outX oM c k).view.emb y) 0).val) : S1024x512.Idx → Elt F .f32) (blkIdx ((outX oM c k).view.emb y))
  have hr := rowX c k y
  have hc := colX c k y
  have hrs := rowS c k y
  have hcs := colS c k y
  have hy : (y 0).val < 32 := (y 0).isLt
  have hk := k.isLt
  have hcl : c.val < 8 := c.isLt
  have h1 := xp_div c
  have h2 := xp_mod c
  have hd : srcDev (xp c) (((outX oM c k).view.emb y) 0).val = c := by
    rw [hr]; unfold srcDev
    rw [if_neg (by omega), if_pos (by omega), xp_xp]
  rw [hd]
  congr 1
  funext a
  fin_cases a
  · apply Fin.ext
    show (((srcX xM c k).view.emb y) 0).val = (((outX oM c k).view.emb y) 0).val % 1024
    omega
  · apply Fin.ext
    show (((srcX xM c k).view.emb y) 1).val = (((outX oM c k).view.emb y) 1).val
    omega

/-- Device `c`'s forwarded chunk `k` landed on `zp c`. -/
theorem land_z (c : Dev nD) (k : Fin 16) (fd : Buf (Elt F) ((outZ oM c k).view.loc (zp c : Thread nD τ))) :
    ∀ i ∈ (outZ oM c k).view.set,
      (outZ oM c k).view.write (Elt F) fd ((outZ oM c k).view.read (Elt F) (outAt m c)) Finset.univ i = outAt m (zp c) i := by
  intro i hi
  obtain ⟨y, rfl⟩ := View.exists_emb_of_mem_set _ hi
  clear hi
  rw [View.write_emb_of_mem _ _ (Finset.mem_univ y), View.read_apply]
  show (xstg m (srcDev c (((outZ oM c k).view.emb y) 0).val) : S1024x512.Idx → Elt F .f32) (blkIdx ((outZ oM c k).view.emb y))
     = (xstg m (srcDev (zp c) (((outZ oM c k).view.emb y) 0).val) : S1024x512.Idx → Elt F .f32) (blkIdx ((outZ oM c k).view.emb y))
  have hr := rowZ c k y
  have hy : (y 0).val < 32 := (y 0).isLt
  have hk := k.isLt
  have hcl : c.val < 8 := c.isLt
  have h1 := zp_div c
  have h2 := zp_mod c
  have hd : srcDev c (((outZ oM c k).view.emb y) 0).val = xp c := by
    rw [hr]; unfold srcDev
    rw [if_neg (by omega), if_pos (by omega)]
  have hd' : srcDev (zp c) (((outZ oM c k).view.emb y) 0).val = xp c := by
    rw [hr]; unfold srcDev
    rw [if_neg (by omega), if_neg (by omega), zp_zp]
  rw [hd, hd']

/-- The local copy landed. -/
theorem land_l (c : Dev nD) (fd : Buf (Elt F) ((outL oM c).view.loc (c : Thread nD τ))) :
    ∀ i ∈ (outL oM c).view.set,
      (outL oM c).view.write (Elt F) fd ((xM : Memref sig .tc .vmem S1024x512 .f32).view.read (Elt F) (xstg m c)) Finset.univ i = outAt m c i := by
  intro i hi
  obtain ⟨y, rfl⟩ := View.exists_emb_of_mem_set _ hi
  clear hi
  rw [View.write_emb_of_mem _ _ (Finset.mem_univ y), View.read_apply]
  show (xstg m c : S1024x512.Idx → Elt F .f32) y
     = (xstg m (srcDev c (((outL oM c).view.emb y) 0).val) : S1024x512.Idx → Elt F .f32) (blkIdx ((outL oM c).view.emb y))
  have hr := rowL c y
  have hc := colL c y
  have hy : (y 0).val < 1024 := (y 0).isLt
  have hcl : c.val < 8 := c.isLt
  have hd : srcDev c (((outL oM c).view.emb y) 0).val = c := by
    rw [hr]; unfold srcDev
    rw [if_pos (by omega)]
  rw [hd]
  congr 1
  funext a
  fin_cases a
  · apply Fin.ext
    show (y 0).val = (((outL oM c).view.emb y) 0).val % 1024
    omega
  · apply Fin.ext
    show (y 1).val = (((outL oM c).view.emb y) 1).val
    omega

/-- info: 'Cert.KernelIdeal.AG.outX_eq' depends on axioms: [propext, Classical.choice, Quot.sound] -/
#guard_msgs in #print axioms outX_eq
/-- info: 'Cert.KernelIdeal.AG.land_x' depends on axioms: [propext, Classical.choice, Quot.sound] -/
#guard_msgs in #print axioms land_x
/-- info: 'Cert.KernelIdeal.AG.land_z' depends on axioms: [propext, Classical.choice, Quot.sound] -/
#guard_msgs in #print axioms land_z
/-- info: 'Cert.KernelIdeal.AG.land_l' depends on axioms: [propext, Classical.choice, Quot.sound] -/
#guard_msgs in #print axioms land_l

end Cert.KernelIdeal.AG

end
-- ==== Proof.KernelIdeal.Levels.lean ====
import proofs.«900660_g7700000000000661_dist_ag_v7x_xyz2x2x2_x_m1024_n512_f32_1_alg».proof.Proof.KernelIdeal.Ghost

/-!
# Wait evidence from the levels

A wait is allowed at a level below everything the waiter still owes. Barrier cells sit at 1, the cells the first
sends land on at 2, the cells the forwarding sends land on at 3, every other cell at 0.
-/

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Levels of the cells a device can owe on -/

theorem lv_bar (c : Dev nD) : lv (barCell c) () = 1 := rfl
theorem lv_xr (c : Dev nD) (k : Fin 16) : lv (xrCell c k) () = 2 := by
  dsimp only [lv]; rw [if_pos (by rw [xrS_val]; omega)]
theorem lv_zr (c : Dev nD) (k : Fin 16) : lv (zrCell c k) () = 3 := by
  dsimp only [lv]; rw [if_neg (by rw [zrS_val]; omega), if_pos (by rw [zrS_val]; omega)]

/-! ## Where a positive tally sits -/

/-- A positive tally of the forwarding transfers still owed is at a forwarded-receive cell of `zp c`. -/
theorem owedZ_pos {c : Dev nD} {ks : List (Fin 16)} {g : GSem nD τ sig} {u : Unit} (h : 0 < owedZ c ks g u) :
    ∃ k, g = zrCell (zp c) k := by
  induction ks with
  | nil => rw [owedZ_nil, Pi.zero_apply, Finsupp.coe_zero, Pi.zero_apply] at h; exact absurd h (Nat.lt_irrefl 0)
  | cons k ks ih =>
    rw [owedZ_cons, Pi.add_apply, Finsupp.add_apply, tallyAt_apply] at h
    by_cases hk : g = zrCell (zp c) k ∧ u = ()
    · exact ⟨k, hk.1⟩
    · rw [if_neg hk, add_zero] at h; exact ih h

/-- A positive tally of the first sends still owed is at a first-receive cell of `xp c`. -/
theorem owedX_pos {c : Dev nD} {ks : List (Fin 16)} {g : GSem nD τ sig} {u : Unit} (h : 0 < owedX c ks g u) :
    ∃ k, g = xrCell (xp c) k := by
  induction ks with
  | nil => rw [owedX_nil, Pi.zero_apply, Finsupp.coe_zero, Pi.zero_apply] at h; exact absurd h (Nat.lt_irrefl 0)
  | cons k ks ih =>
    rw [owedX_cons, Pi.add_apply, Finsupp.add_apply, tallyAt_apply] at h
    by_cases hk : g = xrCell (xp c) k ∧ u = ()
    · exact ⟨k, hk.1⟩
    · rw [if_neg hk, add_zero] at h; exact ih h

/-- A positive tally of all the transfers is at one of the two partners' receive cells. -/
theorem O₂_pos {c : Dev nD} {g : GSem nD τ sig} {u : Unit} (h : 0 < O₂ c g u) :
    (∃ k, g = zrCell (zp c) k) ∨ ∃ k, g = xrCell (xp c) k := by
  unfold O₂ at h
  rw [Pi.add_apply, Finsupp.add_apply] at h
  rcases Nat.add_pos_iff_pos_or_pos.mp h with h | h
  · exact Or.inl (owedZ_pos h)
  · exact Or.inr (owedX_pos h)

/-- A positive tally of everything owed at launch: a receive cell or a barrier cell of a partner. -/
theorem O₀_pos {c : Dev nD} {g : GSem nD τ sig} {u : Unit} (h : 0 < O₀ c g u) :
    (∃ k, g = zrCell (zp c) k) ∨ (∃ k, g = xrCell (xp c) k) ∨ g = barCell (zp c) ∨ g = barCell (xp c) := by
  unfold O₀ O₁ at h
  rw [Pi.add_apply, Finsupp.add_apply, Pi.add_apply, Finsupp.add_apply, tallyAt_apply, tallyAt_apply] at h
  by_cases h1 : g = barCell (xp c) ∧ u = ()
  · exact Or.inr (Or.inr (Or.inr h1.1))
  by_cases h2 : g = barCell (zp c) ∧ u = ()
  · exact Or.inr (Or.inr (Or.inl h2.1))
  rw [if_neg h1, if_neg h2, add_zero, add_zero] at h
  rcases O₂_pos h with h | h
  · exact Or.inl h
  · exact Or.inr (Or.inl h)

/-- Everything owed at launch is owed on a TensorCore cell, at level one or more. -/
theorem O₀_mem {c : Dev nD} {g : GSem nD τ sig} {u : Unit} (h : 0 < O₀ c g u) : u ∈ L g := by
  rcases O₀_pos h with ⟨k, rfl⟩ | ⟨k, rfl⟩ | rfl | rfl <;> (rw [L_tc]; exact Finset.mem_singleton_self _)
theorem O₀_lv {c : Dev nD} {g : GSem nD τ sig} {u : Unit} (h : 0 < O₀ c g u) : 0 < lv g u := by
  rcases O₀_pos h with ⟨k, rfl⟩ | ⟨k, rfl⟩ | rfl | rfl
  · rw [show u = () from rfl, lv_zr]; decide
  · rw [show u = () from rfl, lv_xr]; decide
  · rw [show u = () from rfl, lv_bar]; decide
  · rw [show u = () from rfl, lv_bar]; decide

/-- The transfers are owed on TensorCore cells, at level two or more. -/
theorem O₂_mem {c : Dev nD} {g : GSem nD τ sig} {u : Unit} (h : 0 < O₂ c g u) : u ∈ L g := by
  rcases O₂_pos h with ⟨k, rfl⟩ | ⟨k, rfl⟩ <;> (rw [L_tc]; exact Finset.mem_singleton_self _)
theorem O₂_lv {c : Dev nD} {g : GSem nD τ sig} {u : Unit} (h : 0 < O₂ c g u) : 1 < lv g u := by
  rcases O₂_pos h with ⟨k, rfl⟩ | ⟨k, rfl⟩
  · rw [show u = () from rfl, lv_zr]; decide
  · rw [show u = () from rfl, lv_xr]; decide

/-! ## The three waits -/

omit [FloatOps F] in
/-- A staging cell's wait (level 0), owing everything or nothing. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => O₀_mem hg)
      (fun p hp => by
        rw [Finset.mem_singleton.mp hp]; dsimp only [lv]
        rw [if_neg (fun h => by omega), if_neg (fun h => by omega)])
      (fun g u hg => O₀_lv hg)
  · rw [MayWait_zero]; iintro -; iempintro

omit [FloatOps F] in
/-- At its barrier wait a device owes its thirty-two transfers: receive cells, above its barrier cell. -/
theorem mayWait_bar (c : Dev nD) :
    (levAts L lv : sProp 𝕄) ⊢ MayWait (c : Thread nD τ) (.reg barS) () (O₂ c) :=
  MayOwe.of_cut (L := L) (lev := lv) 1
    (fun p hp => by rw [Finset.mem_singleton.mp hp, L_tc]; exact Finset.mem_singleton_self _)
    (fun g u hg => O₂_mem hg)
    (fun p hp => by rw [Finset.mem_singleton.mp hp]; exact le_of_eq (lv_bar c))
    (fun g u hg => O₂_lv hg)

omit [FloatOps F] in
/-- Waiting for a first-send chunk a device owes forwarding transfers only: cells one level up. -/
theorem mayWait_xr (c : Dev nD) (k : Fin 16) (ks : List (Fin 16)) :
    (levAts L lv : sProp 𝕄) ⊢ MayWait (c : Thread nD τ) (.dma (xrS k)) () (owedZ c ks) :=
  MayOwe.of_cut (L := L) (lev := lv) 2
    (fun p hp => by rw [Finset.mem_singleton.mp hp, L_tc]; exact Finset.mem_singleton_self _)
    (fun g u hg => by obtain ⟨j, rfl⟩ := owedZ_pos hg; rw [L_tc]; exact Finset.mem_singleton_self _)
    (fun p hp => by rw [Finset.mem_singleton.mp hp]; exact le_of_eq (lv_xr c k))
    (fun g u hg => by obtain ⟨j, rfl⟩ := owedZ_pos hg; rw [show u = () from rfl, lv_zr]; decide)

/-! ## Axioms -/

/-- info: 'Cert.KernelIdeal.AG.mayWait_stage' depends on axioms: [propext, Classical.choice, Quot.sound] -/
#guard_msgs in #print axioms mayWait_stage
/-- info: 'Cert.KernelIdeal.AG.mayWait_bar' depends on axioms: [propext, Classical.choice, Quot.sound] -/
#guard_msgs in #print axioms mayWait_bar
/-- info: 'Cert.KernelIdeal.AG.mayWait_xr' depends on axioms: [propext, Classical.choice, Quot.sound] -/
#guard_msgs in #print axioms mayWait_xr

end Cert.KernelIdeal.AG

end
-- ==== Proof.KernelIdeal.Steps.lean ====
import proofs.«900660_g7700000000000661_dist_ag_v7x_xyz2x2x2_x_m1024_n512_f32_1_alg».proof.Proof.KernelIdeal.Lands
import proofs.«900660_g7700000000000661_dist_ag_v7x_xyz2x2x2_x_m1024_n512_f32_1_alg».proof.Proof.KernelIdeal.Levels

/-!
# One rule per kind of operation, at a symbolic device and chunk

Each transfer pays two duties: its send cell's (the source comes back when it is read out) and the receive cell's on
the partner (the chunk at its final contents). Each wait is for the whole of its cell's one round; the cell is closed
right after, its counter back at zero.
-/

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Two spellings of one view hold the same elements. -/
theorem vpts_of_eq {s : Shape} (c : Dev nD) {v v' : Memref sig .tc .vmem s .f32} (h : v = v') (q : PosShare TreeShare)
    (f : Buf (Elt F) (v.view.loc (c : Thread nD τ))) (f' : Buf (Elt F) (v'.view.loc (c : Thread nD τ))) (hf : HEq f f') :
    (vpts c v q f : sProp 𝕄) = vpts c v' q f' := by
  subst h; cases hf; rfl

section Steps
variable (K : Dev nD × CIx → ℕ) (c : Dev nD) (k : Fin 16)

/-- The first send of chunk `k`, addressed to `n = xp c`. -/
theorem step_xsend {α : Type} {Q : α → sProp 𝕄} {kont : PUnit → Prog (TpuEff nD τ sig (Elt F) Λ₀ .tc) α}
    (n : Dev nD) (hn : n = xp c)
    {hsc : ((outX oM c k : Memref sig (Dev.tc n : Thread nD τ).2.kind .vmem S32x512 .f32)).view.ref.isScScratch = false}
    {hsrc : (srcX xM c k).view.WordExact} {hdst : (outX oM c k).view.WordExact}
    {hsem : DmaTarget.Typed .vmem (.dma (xrS k)) (.remote (Dev.tc n : Thread nD τ) (outX oM c k) (.dma (xsS k)) hsc)}
    (O : CellTallies nD τ sig Unit) (W : Waits sig Unit) :
    iprop(cellInv ER (agRd m) (K (c, iF 0 k)) (xsCell c k) ∗ cellInv ER (agRd m) (K (xp c, iF 1 k)) (xrCell (xp c) k)
        ∗ reached ER (xsCell c k) 0 ∗ reached ER (xrCell (xp c) k) 0
        ∗ vpts c (srcX xM c k) fullShare.right (xstg m c) ∗ (∃ f, vpts (xp c) (outZ oM (xp c) k) fullShare f)
        ∗ dutyTok ER (xsCell c k) 0 false ∗ dutyTok ER (xrCell (xp c) k) 0 false
        ∗ owes (c : Thread nD τ) (O + tallyAt (xrCell (xp c) k) () NC) W)
      ⊢ iprop(((cred (tallyAt (xsCell c k) () NC) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (srcX xM c k) (.remote (Dev.tc n : Thread nD τ) (outX oM c k) (.dma (xsS k)) hsc) (.dma (xrS k)) hsrc hdst hsem) kont) Q) := by
  subst hn
  iintro ⟨HI1, HI2, Hr1, Hr2, Hsrc, ⟨%f, Hdst⟩, Ht1, Ht2, HO⟩ Hk
  -- the destination rows on `xp c`, spelt as the rows this device's send writes
  ihave Hdst := (Entails.of_eq (vpts_of_eq (xp c) (outX_eq c k).symm fullShare f f HEq.rfl)) $$ Hdst
  unfold vpts
  iapply (Rounds.wp_send_pointsTo 𝒱₀ ER (agRd m) (c : Thread nD τ) none (c' := (xp c : Thread nD τ))
      (src := srcX xM c k) (dst := outX oM c k) (q := fullShare.right) (fs := xstg m c) (fd := f)
      (κ₁ := K (c, iF 0 k)) (κ₂ := K (xp c, iF 1 k)) (r₁ := 0) (r₂ := 0) (d₁ := false) (d₂ := false)
      (by rw [duties_xs]; exact Finset.mem_singleton_self _) (by rw [duties_xr]; exact Finset.mem_singleton_self _)
      () () NC rfl (amount_xs m c k false) (amount_xr m (xp c) k false) O rfl (W := W)
      (by rw [payload_xs]; unfold xsPay vpts; exact BI.Entails.refl _)
      (by rw [payload_xr]; unfold xrPay
          -- on the rows written, the landed contents are what `xp c`'s result is to hold
          rw [pointsTo_congr (land_x m c k f)]
          exact Entails.of_eq (vpts_of_eq (xp c) (outX_eq c k) fullShare (outAt m (xp c)) (outAt m (xp c)) HEq.rfl))) $$ [HI1 HI2 Hsrc Hdst HO Ht1 Hr1 Ht2 Hr2]
  · isplitl [HI1]; · iexact HI1
    isplitl [HI2]; · iexact HI2
    isplitl [Hsrc]; · iexact Hsrc
    isplitl [Hdst]; · iexact Hdst
    isplitl [HO]; · iexact HO
    isplitl [Ht1]; · iexact Ht1
    isplitl [Hr1]; · iexact Hr1
    isplitl [Ht2]; · iexact Ht2
    iexact Hr2
  iexact Hk

/-- The forwarding send of chunk `k`, addressed to `n = zp c`. -/
theorem step_zsend {α : Type} {Q : α → sProp 𝕄} {kont : PUnit → Prog (TpuEff nD τ sig (Elt F) Λ₀ .tc) α}
    (n : Dev nD) (hn : n = zp c)
    {hsc : ((outZ oM c k : Memref sig (Dev.tc n : Thread nD τ).2.kind .vmem S32x512 .f32)).view.ref.isScScratch = false}
    {hsrc : (outZ oM c k).view.WordExact} {hdst : (outZ oM c k).view.WordExact}
    {hsem : DmaTarget.Typed .vmem (.dma (zrS k)) (.remote (Dev.tc n : Thread nD τ) (outZ oM c k) (.dma (zsS k)) hsc)}
    (O : CellTallies nD τ sig Unit) (W : Waits sig Unit) :
    iprop(cellInv ER (agRd m) (K (c, iF 2 k)) (zsCell c k) ∗ cellInv ER (agRd m) (K (zp c, iF 3 k)) (zrCell (zp c) k)
        ∗ reached ER (zsCell c k) 0 ∗ reached ER (zrCell (zp c) k) 0
        ∗ vpts c (outZ oM c k) fullShare (outAt m c) ∗ (∃ f, vpts (zp c) (outZ oM c k) fullShare f)
        ∗ dutyTok ER (zsCell c k) 0 false ∗ dutyTok ER (zrCell (zp c) k) 0 false
        ∗ owes (c : Thread nD τ) (O + tallyAt (zrCell (zp c) k) () NC) W)
      ⊢ iprop(((cred (tallyAt (zsCell c k) () NC) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (outZ oM c k) (.remote (Dev.tc n : Thread nD τ) (outZ oM c k) (.dma (zsS k)) hsc) (.dma (zrS k)) hsrc hdst hsem) kont) Q) := by
  subst hn
  iintro ⟨HI1, HI2, Hr1, Hr2, Hsrc, ⟨%f, Hdst⟩, Ht1, Ht2, HO⟩ Hk
  unfold vpts
  iapply (Rounds.wp_send_pointsTo 𝒱₀ ER (agRd m) (c : Thread nD τ) none (c' := (zp c : Thread nD τ))
      (src := outZ oM c k) (dst := outZ oM c k) (q := fullShare) (fs := outAt m c) (fd := f)
      (κ₁ := K (c, iF 2 k)) (κ₂ := K (zp c, iF 3 k)) (r₁ := 0) (r₂ := 0) (d₁ := false) (d₂ := false)
      (by rw [duties_zs]; exact Finset.mem_singleton_self _) (by rw [duties_zr]; exact Finset.mem_singleton_self _)
      () () NC rfl (amount_zs m c k false) (amount_zr m (zp c) k false) O rfl (W := W)
      (by rw [payload_zs]; unfold zsPay vpts; exact BI.Entails.refl _)
      (by rw [payload_zr]; unfold zrPay
          -- on the rows written, the landed contents are what `zp c`'s result is to hold
          rw [pointsTo_congr (land_z m c k f), zp_zp]
          unfold vpts; exact BI.Entails.refl _)) $$ [HI1 HI2 Hsrc Hdst HO Ht1 Hr1 Ht2 Hr2]
  · isplitl [HI1]; · iexact HI1
    isplitl [HI2]; · iexact HI2
    isplitl [Hsrc]; · iexact Hsrc
    isplitl [Hdst]; · iexact Hdst
    isplitl [HO]; · iexact HO
    isplitl [Ht1]; · iexact Ht1
    isplitl [Hr1]; · iexact Hr1
    isplitl [Ht2]; · iexact Ht2
    iexact Hr2
  iexact Hk

/-- The local copy of the whole block. -/
theorem step_copy {α : Type} {Q : α → sProp 𝕄} {kont : PUnit → Prog (TpuEff nD τ sig (Elt F) Λ₀ .tc) α}
    {hsrc : (xM : Memref sig .tc .vmem S1024x512 .f32).view.WordExact} {hdst : (outL oM c).view.WordExact}
    {hsem : DmaTarget.Typed (nD := nD) .vmem (.dma cpS) (DmaTarget.here (outL oM c) : DmaTarget nD τ sig (c : Thread nD τ).2 .vmem S1024x512 .f32)} :
    iprop(cellInv ER (agRd m) (K (c, iCp)) (cpCell c) ∗ reached ER (cpCell c) 0
        ∗ vpts c xM fullShare.left (xstg m c) ∗ (∃ f, vpts c (outL oM c) fullShare f) ∗ dutyTok ER (cpCell c) 0 false)
      ⊢ iprop((cred (tallyAt (cpCell c) () NL) -∗ wp frame (wpE (defs₀ (F := F)) 𝒱₀ (c : Thread nD τ) none) Set.univ (kont ⟨⟩) Q)
          -∗ wp frame (wpE (defs₀ (F := F)) 𝒱₀ (c : Thread nD τ) none) Set.univ (.op (.enqueueDma xM (DmaTarget.here (outL oM c) : DmaTarget nD τ sig (c : Thread nD τ).2 .vmem S1024x512 .f32) (.dma cpS) hsrc hdst hsem) kont) Q) := by
  iintro ⟨HI, Hr, Hsrc, ⟨%f, Hdst⟩, Ht⟩ Hk
  unfold vpts
  iapply (Rounds.wp_copy_pointsTo 𝒱₀ ER (agRd m) (c : Thread nD τ) none
      (src := xM) (dst := outL oM c) (q := fullShare.left) (fs := xstg m c) (fd := f) (κ := K (c, iCp)) (r := 0) (d := false)
      (by rw [duties_cp]; exact Finset.mem_singleton_self _) () NL rfl (amount_cp m c false)
      (by rw [payload_cp]; unfold cpPay vpts
          -- on the rows written, the landed contents are the own block
          rw [pointsTo_congr (land_l m c f)])) $$ [HI Hsrc Hdst Ht Hr]
  · isplitl [HI]; · iexact HI
    isplitl [Hsrc]; · iexact Hsrc
    isplitl [Hdst]; · iexact Hdst
    isplitl [Ht]; · iexact Ht
    iexact Hr
  iexact Hk

/-- A wait for the whole round of one of the device's own DMA cells `(c, .dma q)`, then the cell closed: the general
    form of the five waits below. `N` is the cell's expected amount, `P` its one duty's payload. -/
theorem step_wait_close {α : Type} {Q : α → sProp 𝕄} {kont : PUnit → Prog (TpuEff nD τ sig (Elt F) Λ₀ .tc) α}
    (q : DmaSem sig) (κ : ℕ) (N : ℕ) (P : sProp 𝕄)
    (hexp : (agRd (F := F) m).expect ((c : Thread nD τ), .dma q) 0 = N)
    (hrest : bigSep ((agRd (F := F) m).duties ((c : Thread nD τ), .dma q) 0 \ ∅) (fun d => (agRd (F := F) m).payload ((c : Thread nD τ), .dma q) 0 d) = P)
    {sp sp' : Space} {s s' : Shape} {e e' : EltTy} {src : Memref sig .tc sp' s' e'} {dst : Memref sig .tc sp s e}
    {hsrc : src.view.WordExact} {hdst : dst.view.WordExact} (hN : dst.view.dmaCredit = N)
    (O : CellTallies nD τ sig Unit) (W : Waits sig Unit) :
    iprop(cellInv ER (agRd m) κ ((c : Thread nD τ), .dma q) ∗ cred (tallyAt ((c : Thread nD τ), .dma q) () N)
        ∗ atPos ER ((c : Thread nD τ), .dma q) 0 ∅ 0 ∗ MayWait (c : Thread nD τ) (.dma q) () O ∗ owes (c : Thread nD τ) O W)
      ⊢ iprop((((∃ W', owes (c : Thread nD τ) O W') ∗ P ∗ semVal ((c : Thread nD τ), .dma q) 0) -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 q src dst hsrc hdst) kont) Q) := by
  subst hN
  iintro ⟨#HI, Hc, Hat, Hmw, HO⟩ Hk
  -- the wait takes the whole of the cell's one round
  iapply (Rounds.wp_wait_rest_token 𝒱₀ ER (agRd m) (c : Thread nD τ) none (κ := κ)
      (wpE_waitDma2_eq 𝒱₀ (c : Thread nD τ) none Set.univ) (Set.mem_univ _) () (O := O) (W := W) (R := 0) (m := 0) (T := ∅)
      (by rw [Nat.zero_add, hexp])) $$ [Hc HO Hmw Hat]
  · isplitr; · iexact HI
    isplitl [Hc]; · iexact Hc
    isplitl [HO]; · iexact HO
    isplitl [Hmw]; · iexact Hmw
    iexact Hat
  iintro ⟨HO, Hat, -, Hpay⟩
  ihave HP := (Entails.of_eq hrest) $$ Hpay
  -- no later round has a duty: the cell closes, its counter at zero
  imod (Rounds.cell_close ER (agRd m) (Set.mem_univ κ) (fun h => h) (R := 0 + 1) (duties_later m _)) $$ [Hat] with Hz
  · isplitr; · iexact HI
    iexact Hat
  iapply Hk
  isplitl [HO]; · iexists _; iexact HO
  isplitl [HP]; · iexact HP
  iexact Hz

end Steps

end Cert.KernelIdeal.AG

end
-- ==== Proof.KernelIdeal.Loops.lean ====
import proofs.«900660_g7700000000000661_dist_ag_v7x_xyz2x2x2_x_m1024_n512_f32_1_alg».proof.Proof.KernelIdeal.Steps

/-!
# The four chunk loops

Each loop of the body runs one or two rules per chunk, and the chunks' resources are independent: a loop over a list
of chunks takes the list's resources, item by item, and returns the list's results. What links the items is only what
the device still owes, which each transfer pays a summand off.
-/

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
/-- A list's chain with its head split off. -/
theorem bigSepL_cons' {I : Type} (i : I) (l : List I) (Φ : I → sProp 𝕄) : bigSepL (i :: l) Φ = iprop(Φ i ∗ bigSepL l Φ) :=
  bigSepL_cons i l Φ

section Pick
variable (K : Dev nD × CIx → ℕ) (c : Dev nD) (k : Fin 16)

omit [FloatOps F] in
theorem inv_bar : invs m K c ⊢ cellInv ER (agRd m) (K (c, iBar)) (barCell c) := by
  unfold invs; iintro ⟨H, -⟩; iexact H
omit [FloatOps F] in
theorem inv_barX : invs m K c ⊢ cellInv ER (agRd m) (K (xp c, iBar)) (barCell (xp c)) := by
  unfold invs; iintro ⟨-, H, -⟩; iexact H
omit [FloatOps F] in
theorem inv_barZ : invs m K c ⊢ cellInv ER (agRd m) (K (zp c, iBar)) (barCell (zp c)) := by
  unfold invs; iintro ⟨-, -, H, -⟩; iexact H
omit [FloatOps F] in
theorem inv_cp : invs m K c ⊢ cellInv ER (agRd m) (K (c, iCp)) (cpCell c) := by
  unfold invs; iintro ⟨-, -, -, H, -⟩; iexact H
omit [FloatOps F] in
theorem reach_barX : (reachs c : sProp 𝕄) ⊢ reached ER (barCell (xp c)) 0 := by
  unfold reachs; iintro ⟨H, -⟩; iexact H
omit [FloatOps F] in
theorem reach_barZ : (reachs c : sProp 𝕄) ⊢ reached ER (barCell (zp c)) 0 := by
  unfold reachs; iintro ⟨-, H, -⟩; iexact H
omit [FloatOps F] in
theorem reach_cp : (reachs c : sProp 𝕄) ⊢ reached ER (cpCell c) 0 := by
  unfold reachs; iintro ⟨-, -, H, -⟩; iexact H
omit [FloatOps F] in
theorem inv_xs : invs m K c ⊢ cellInv ER (agRd m) (K (c, iF 0 k)) (xsCell c k) := by
  have h : invs m K c ⊢ bigSep Finset.univ (fun k : Fin 16 => cellInv ER (agRd m) (K (c, iF 0 k)) (xsCell c k)) := by
    unfold invs; iintro ⟨-, -, -, -, H, -⟩; iexact H
  exact h.trans (bigSep_elim (Finset.mem_univ k))
omit [FloatOps F] in
theorem inv_xr : invs m K c ⊢ cellInv ER (agRd m) (K (c, iF 1 k)) (xrCell c k) := by
  have h : invs m K c ⊢ bigSep Finset.univ (fun k : Fin 16 => cellInv ER (agRd m) (K (c, iF 1 k)) (xrCell c k)) := by
    unfold invs; iintro ⟨-, -, -, -, -, H, -⟩; iexact H
  exact h.trans (bigSep_elim (Finset.mem_univ k))
omit [FloatOps F] in
theorem inv_zs : invs m K c ⊢ cellInv ER (agRd m) (K (c, iF 2 k)) (zsCell c k) := by
  have h : invs m K c ⊢ bigSep Finset.univ (fun k : Fin 16 => cellInv ER (agRd m) (K (c, iF 2 k)) (zsCell c k)) := by
    unfold invs; iintro ⟨-, -, -, -, -, -, H, -⟩; iexact H
  exact h.trans (bigSep_elim (Finset.mem_univ k))
omit [FloatOps F] in
theorem inv_zr : invs m K c ⊢ cellInv ER (agRd m) (K (c, iF 3 k)) (zrCell c k) := by
  have h : invs m K c ⊢ bigSep Finset.univ (fun k : Fin 16 => cellInv ER (agRd m) (K (c, iF 3 k)) (zrCell c k)) := by
    unfold invs; iintro ⟨-, -, -, -, -, -, -, H, -⟩; iexact H
  exact h.trans (bigSep_elim (Finset.mem_univ k))
omit [FloatOps F] in
theorem inv_xrP : invs m K c ⊢ cellInv ER (agRd m) (K (xp c, iF 1 k)) (xrCell (xp c) k) := by
  have h : invs m K c ⊢ bigSep Finset.univ (fun k : Fin 16 => cellInv ER (agRd m) (K (xp c, iF 1 k)) (xrCell (xp c) k)) := by
    unfold invs; iintro ⟨-, -, -, -, -, -, -, -, H, -⟩; iexact H
  exact h.trans (bigSep_elim (Finset.mem_univ k))
omit [FloatOps F] in
theorem inv_zrP : invs m K c ⊢ cellInv ER (agRd m) (K (zp c, iF 3 k)) (zrCell (zp c) k) := by
  have h : invs m K c ⊢ bigSep Finset.univ (fun k : Fin 16 => cellInv ER (agRd m) (K (zp c, iF 3 k)) (zrCell (zp c) k)) := by
    unfold invs; iintro ⟨-, -, -, -, -, -, -, -, -, H⟩; iexact H
  exact h.trans (bigSep_elim (Finset.mem_univ k))
omit [FloatOps F] in
theorem reach_xs : (reachs c : sProp 𝕄) ⊢ reached ER (xsCell c k) 0 := by
  have h : (reachs c : sProp 𝕄) ⊢ bigSep Finset.univ (fun k : Fin 16 => reached ER (xsCell c k) 0) := by
    unfold reachs; iintro ⟨-, -, -, H, -⟩; iexact H
  exact h.trans (bigSep_elim (Finset.mem_univ k))
omit [FloatOps F] in
theorem reach_zs : (reachs c : sProp 𝕄) ⊢ reached ER (zsCell c k) 0 := by
  have h : (reachs c : sProp 𝕄) ⊢ bigSep Finset.univ (fun k : Fin 16 => reached ER (zsCell c k) 0) := by
    unfold reachs; iintro ⟨-, -, -, -, H, -⟩; iexact H
  exact h.trans (bigSep_elim (Finset.mem_univ k))
omit [FloatOps F] in
theorem reach_xrP : (reachs c : sProp 𝕄) ⊢ reached ER (xrCell (xp c) k) 0 := by
  have h : (reachs c : sProp 𝕄) ⊢ bigSep Finset.univ (fun k : Fin 16 => reached ER (xrCell (xp c) k) 0) := by
    unfold reachs; iintro ⟨-, -, -, -, -, H, -⟩; iexact H
  exact h.trans (bigSep_elim (Finset.mem_univ k))
omit [FloatOps F] in
theorem reach_zrP : (reachs c : sProp 𝕄) ⊢ reached ER (zrCell (zp c) k) 0 := by
  have h : (reachs c : sProp 𝕄) ⊢ bigSep Finset.univ (fun k : Fin 16 => reached ER (zrCell (zp c) k) 0) := by
    unfold reachs; iintro ⟨-, -, -, -, -, -, H⟩; iexact H
  exact h.trans (bigSep_elim (Finset.mem_univ k))

end Pick

/-! The credit of a view depends on its shape and element type only. -/
omit [FloatOps F] in
theorem credX (c : Dev nD) (k : Fin 16) : (outX oM c k).view.dmaCredit = NC := rfl
omit [FloatOps F] in
theorem credZ (c : Dev nD) (k : Fin 16) : (outZ oM c k).view.dmaCredit = NC := rfl
omit [FloatOps F] in
theorem credS (c : Dev nD) (k : Fin 16) : (srcX xM c k).view.dmaCredit = NC := rfl
omit [FloatOps F] in
theorem credL (c : Dev nD) : (outL oM c).view.dmaCredit = NL := rfl

section Loops
variable (K : Dev nD × CIx → ℕ) (c : Dev nD)

/-- The first sends of the chunks `ks`: each pays its receive credit off what the device owes and leaves the credit to
    wait for its own completion. -/
theorem xsends_run (ks : List (Fin 16)) : ∀ (O : CellTallies nD τ sig Unit) (W : Waits sig Unit),
    iprop(invs m K c ∗ reachs c
        ∗ bigSepL ks (fun k => vpts c (srcX xM c k) fullShare.right (xstg m c))
        ∗ bigSepL ks (fun k => iprop(∃ f, vpts (xp c) (outZ oM (xp c) k) fullShare f))
        ∗ bigSepL ks (fun k => dutyTok ER (xsCell c k) 0 false)
        ∗ bigSepL ks (fun k => dutyTok ER (xrCell (xp c) k) 0 false)
        ∗ owes (c : Thread nD τ) (O + owedX c ks) W)
      ⊢ wp frame (wpE (defs₀ (F := F)) 𝒱₀ (c : Thread nD τ) none) Set.univ (xsends xM oM cc0_scratch1 cc0_scratch2 c ks)
          (fun _ => iprop(bigSepL ks (fun k => cred (tallyAt (xsCell c k) () NC)) ∗ owes (c : Thread nD τ) O W)) := by
  induction ks with
  | nil =>
    intro O W
    rw [owedX_nil, add_zero]
    iintro ⟨-, -, -, -, -, -, HO⟩
    simp only [xsends, Prog.pure_eq_ret, wp_ret]
    imodintro
    isplitr
    · rw [bigSepL_nil]; iempintro
    · iexact HO
  | cons k ks ih =>
    intro O W
    rw [bigSepL_cons', bigSepL_cons', bigSepL_cons', bigSepL_cons', bigSepL_cons', owedX_cons, ← add_assoc]
    iintro ⟨#HI, #HR, ⟨Hs, Hss⟩, ⟨Hd, Hds⟩, ⟨Ht, Hts⟩, ⟨Hu, Hus⟩, HO⟩
    simp only [xsends, Prog.lift, Prog.bind_op, Prog.bind_ret]
    iapply (step_xsend m K c k (devX c k) (devX_eq c k) (O + owedX c ks) W) $$ [Hs Hd Ht Hu HO]
    · isplitr; · iapply (inv_xs m K c k); iexact HI
      isplitr; · iapply (inv_xrP m K c k); iexact HI
      isplitr; · iapply (reach_xs c k); iexact HR
      isplitr; · iapply (reach_xrP c k); iexact HR
      isplitl [Hs]; · iexact Hs
      isplitl [Hd]; · iexact Hd
      isplitl [Ht]; · iexact Ht
      isplitl [Hu]; · iexact Hu
      iexact HO
    iintro ⟨Hc, HO⟩
    iapply (wp_wand_r frame (wpE (defs₀ (F := F)) 𝒱₀ (c : Thread nD τ) none) Set.univ (Q := fun _ => iprop(bigSepL ks (fun k => cred (tallyAt (xsCell c k) () NC)) ∗ owes (c : Thread nD τ) O W)))
    isplitr [Hc]
    · iapply (ih O W)
      isplitr; · iexact HI
      isplitr; · iexact HR
      isplitl [Hss]; · iexact Hss
      isplitl [Hds]; · iexact Hds
      isplitl [Hts]; · iexact Hts
      isplitl [Hus]; · iexact Hus
      iexact HO
    · iintro %_ ⟨Hcs, HO⟩
      isplitr [HO]
      · isplitl [Hc]; · iexact Hc
        iexact Hcs
      · iexact HO

/-- Per chunk: the first partner's chunk has landed (its cell is closed), and it is forwarded to the second partner. -/
theorem forwards_run (ks : List (Fin 16)) : ∀ (W : Waits sig Unit),
    iprop(invs m K c ∗ reachs c ∗ levAts L lv
        ∗ bigSepL ks (fun k => cred (tallyAt (xrCell c k) () NC))
        ∗ bigSepL ks (fun k => atPos ER (xrCell c k) 0 ∅ 0)
        ∗ bigSepL ks (fun k => iprop(∃ f, vpts (zp c) (outZ oM c k) fullShare f))
        ∗ bigSepL ks (fun k => dutyTok ER (zsCell c k) 0 false)
        ∗ bigSepL ks (fun k => dutyTok ER (zrCell (zp c) k) 0 false)
        ∗ owes (c : Thread nD τ) (owedZ c ks) W)
      ⊢ wp frame (wpE (defs₀ (F := F)) 𝒱₀ (c : Thread nD τ) none) Set.univ (forwards xM oM cc0_scratch2 cc0_scratch3 cc0_scratch4 c ks)
          (fun _ => iprop(bigSepL ks (fun k => semVal (xrCell c k) 0) ∗ bigSepL ks (fun k => cred (tallyAt (zsCell c k) () NC))
            ∗ ∃ W', owes (c : Thread nD τ) 0 W')) := by
  induction ks with
  | nil =>
    intro W
    rw [owedZ_nil]
    iintro ⟨-, -, -, -, -, -, -, -, HO⟩
    simp only [forwards, Prog.pure_eq_ret, wp_ret]
    imodintro
    isplitr; · rw [bigSepL_nil]; iempintro
    isplitr; · rw [bigSepL_nil]; iempintro
    iexists W; iexact HO
  | cons k ks ih =>
    intro W
    rw [bigSepL_cons', bigSepL_cons', bigSepL_cons', bigSepL_cons', bigSepL_cons', bigSepL_cons', bigSepL_cons']
    iintro ⟨#HI, #HR, #Hlev, ⟨Hc, Hcs⟩, ⟨Ha, Has⟩, ⟨Hd, Hds⟩, ⟨Ht, Hts⟩, ⟨Hu, Hus⟩, HO⟩
    simp only [forwards, Prog.lift, Prog.bind_op, Prog.bind_ret]
    iapply (step_wait_close m c (xrS k) (K (c, iF 1 k)) NC (xrPay m c k) (expect_xr m c k) (rest_xr m c k) (src := srcX xM c k) (dst := outX oM c k) (credX c k) (owedZ c (k :: ks)) W) $$ [Hc Ha HO]
    · isplitr; · iapply (inv_xr m K c k); iexact HI
      isplitl [Hc]; · iexact Hc
      isplitl [Ha]; · iexact Ha
      isplitr; · iapply (mayWait_xr c k (k :: ks)); iexact Hlev
      iexact HO
    iintro ⟨⟨%W1, HO⟩, Hpay, Hz⟩
    rw [owedZ_cons]
    iapply (step_zsend m K c k (devZ c k) (devZ_eq c k) (owedZ c ks) W1) $$ [Hpay Hd Ht Hu HO]
    · isplitr; · iapply (inv_zs m K c k); iexact HI
      isplitr; · iapply (inv_zrP m K c k); iexact HI
      isplitr; · iapply (reach_zs c k); iexact HR
      isplitr; · iapply (reach_zrP c k); iexact HR
      isplitl [Hpay]; · unfold xrPay; iexact Hpay
      isplitl [Hd]; · iexact Hd
      isplitl [Ht]; · iexact Ht
      isplitl [Hu]; · iexact Hu
      iexact HO
    iintro ⟨Hcz, HO⟩
    iapply (wp_wand_r frame (wpE (defs₀ (F := F)) 𝒱₀ (c : Thread nD τ) none) Set.univ (Q := fun _ => iprop(bigSepL ks (fun k => semVal (xrCell c k) 0) ∗ bigSepL ks (fun k => cred (tallyAt (zsCell c k) () NC))
            ∗ ∃ W', owes (c : Thread nD τ) 0 W')))
    isplitr [Hz Hcz]
    · iapply (ih W1)
      isplitr; · iexact HI
      isplitr; · iexact HR
      isplitr; · iexact Hlev
      isplitl [Hcs]; · iexact Hcs
      isplitl [Has]; · iexact Has
      isplitl [Hds]; · iexact Hds
      isplitl [Hts]; · iexact Hts
      isplitl [Hus]; · iexact Hus
      iexact HO
    · iintro %_ ⟨Hzs, Hczs, HO⟩
      isplitl [Hz Hzs]
      · isplitl [Hz]; · iexact Hz
        iexact Hzs
      isplitl [Hcz Hczs]
      · isplitl [Hcz]; · iexact Hcz
        iexact Hczs
      iexact HO

/-- The waits for the second partner's forwarded chunks: each lands at its final contents, its cell is closed. -/
theorem zwaits_run (ks : List (Fin 16)) : ∀ (W : Waits sig Unit),
    iprop(invs m K c
        ∗ bigSepL ks (fun k => cred (tallyAt (zrCell c k) () NC))
        ∗ bigSepL ks (fun k => atPos ER (zrCell c k) 0 ∅ 0)
        ∗ owes (c : Thread nD τ) 0 W)
      ⊢ wp frame (wpE (defs₀ (F := F)) 𝒱₀ (c : Thread nD τ) none) Set.univ (zwaits oM cc0_scratch4 c ks)
          (fun _ => iprop(bigSepL ks (fun k => zrPay m c k) ∗ bigSepL ks (fun k => semVal (zrCell c k) 0)
            ∗ ∃ W', owes (c : Thread nD τ) 0 W')) := by
  induction ks with
  | nil =>
    intro W
    iintro ⟨-, -, -, HO⟩
    simp only [zwaits, Prog.pure_eq_ret, wp_ret]
    imodintro
    isplitr; · rw [bigSepL_nil]; iempintro
    isplitr; · rw [bigSepL_nil]; iempintro
    iexists W; iexact HO
  | cons k ks ih =>
    intro W
    rw [bigSepL_cons', bigSepL_cons', bigSepL_cons', bigSepL_cons']
    iintro ⟨#HI, ⟨Hc, Hcs⟩, ⟨Ha, Has⟩, HO⟩
    simp only [zwaits, Prog.lift, Prog.bind_op, Prog.bind_ret]
    iapply (step_wait_close m c (zrS k) (K (c, iF 3 k)) NC (zrPay m c k) (expect_zr m c k) (rest_zr m c k) (src := outZ oM c k) (dst := outZ oM c k) (credZ c k) 0 W) $$ [Hc Ha HO]
    · isplitr; · iapply (inv_zr m K c k); iexact HI
      isplitl [Hc]; · iexact Hc
      isplitl [Ha]; · iexact Ha
      isplitr; · rw [MayWait_zero]; iempintro
      iexact HO
    iintro ⟨⟨%W1, HO⟩, Hpay, Hz⟩
    iapply (wp_wand_r frame (wpE (defs₀ (F := F)) 𝒱₀ (c : Thread nD τ) none) Set.univ (Q := fun _ => iprop(bigSepL ks (fun k => zrPay m c k) ∗ bigSepL ks (fun k => semVal (zrCell c k) 0)
            ∗ ∃ W', owes (c : Thread nD τ) 0 W')))
    isplitr [Hpay Hz]
    · iapply (ih W1)
      isplitr; · iexact HI
      isplitl [Hcs]; · iexact Hcs
      isplitl [Has]; · iexact Has
      iexact HO
    · iintro %_ ⟨Hps, Hzs, HO⟩
      isplitl [Hpay Hps]
      · isplitl [Hpay]; · iexact Hpay
        iexact Hps
      isplitl [Hz Hzs]
      · isplitl [Hz]; · iexact Hz
        iexact Hzs
      iexact HO

/-- Per chunk, the two send completions: the sources come back, the two send cells are closed. -/
theorem swaits_run (ks : List (Fin 16)) : ∀ (W : Waits sig Unit),
    iprop(invs m K c
        ∗ bigSepL ks (fun k => cred (tallyAt (xsCell c k) () NC))
        ∗ bigSepL ks (fun k => atPos ER (xsCell c k) 0 ∅ 0)
        ∗ bigSepL ks (fun k => cred (tallyAt (zsCell c k) () NC))
        ∗ bigSepL ks (fun k => atPos ER (zsCell c k) 0 ∅ 0)
        ∗ owes (c : Thread nD τ) 0 W)
      ⊢ wp frame (wpE (defs₀ (F := F)) 𝒱₀ (c : Thread nD τ) none) Set.univ (swaits xM oM cc0_scratch1 cc0_scratch3 c ks)
          (fun _ => iprop(bigSepL ks (fun k => xsPay m c k) ∗ bigSepL ks (fun k => semVal (xsCell c k) 0)
            ∗ bigSepL ks (fun k => zsPay m c k) ∗ bigSepL ks (fun k => semVal (zsCell c k) 0)
            ∗ ∃ W', owes (c : Thread nD τ) 0 W')) := by
  induction ks with
  | nil =>
    intro W
    iintro ⟨-, -, -, -, -, HO⟩
    simp only [swaits, Prog.pure_eq_ret, wp_ret]
    imodintro
    isplitr; · rw [bigSepL_nil]; iempintro
    isplitr; · rw [bigSepL_nil]; iempintro
    isplitr; · rw [bigSepL_nil]; iempintro
    isplitr; · rw [bigSepL_nil]; iempintro
    iexists W; iexact HO
  | cons k ks ih =>
    intro W
    rw [bigSepL_cons', bigSepL_cons', bigSepL_cons', bigSepL_cons', bigSepL_cons', bigSepL_cons', bigSepL_cons', bigSepL_cons']
    iintro ⟨#HI, ⟨Hc, Hcs⟩, ⟨Ha, Has⟩, ⟨Hd, Hds⟩, ⟨Hb, Hbs⟩, HO⟩
    simp only [swaits, Prog.lift, Prog.bind_op, Prog.bind_ret]
    iapply (step_wait_close m c (xsS k) (K (c, iF 0 k)) NC (xsPay m c k) (expect_xs m c k) (rest_xs m c k) (src := outX oM c k) (dst := srcX xM c k) (credS c k) 0 W) $$ [Hc Ha HO]
    · isplitr; · iapply (inv_xs m K c k); iexact HI
      isplitl [Hc]; · iexact Hc
      isplitl [Ha]; · iexact Ha
      isplitr; · rw [MayWait_zero]; iempintro
      iexact HO
    iintro ⟨⟨%W1, HO⟩, Hp1, Hz1⟩
    iapply (step_wait_close m c (zsS k) (K (c, iF 2 k)) NC (zsPay m c k) (expect_zs m c k) (rest_zs m c k) (src := outZ oM c k) (dst := outZ oM c k) (credZ c k) 0 W1) $$ [Hd Hb HO]
    · isplitr; · iapply (inv_zs m K c k); iexact HI
      isplitl [Hd]; · iexact Hd
      isplitl [Hb]; · iexact Hb
      isplitr; · rw [MayWait_zero]; iempintro
      iexact HO
    iintro ⟨⟨%W2, HO⟩, Hp2, Hz2⟩
    iapply (wp_wand_r frame (wpE (defs₀ (F := F)) 𝒱₀ (c : Thread nD τ) none) Set.univ (Q := fun _ => iprop(bigSepL ks (fun k => xsPay m c k) ∗ bigSepL ks (fun k => semVal (xsCell c k) 0)
            ∗ bigSepL ks (fun k => zsPay m c k) ∗ bigSepL ks (fun k => semVal (zsCell c k) 0)
            ∗ ∃ W', owes (c : Thread nD τ) 0 W')))
    isplitr [Hp1 Hz1 Hp2 Hz2]
    · iapply (ih W2)
      isplitr; · iexact HI
      isplitl [Hcs]; · iexact Hcs
      isplitl [Has]; · iexact Has
      isplitl [Hds]; · iexact Hds
      isplitl [Hbs]; · iexact Hbs
      iexact HO
    · iintro %_ ⟨Hp1s, Hz1s, Hp2s, Hz2s, HO⟩
      isplitl [Hp1 Hp1s]
      · isplitl [Hp1]; · iexact Hp1
        iexact Hp1s
      isplitl [Hz1 Hz1s]
      · isplitl [Hz1]; · iexact Hz1
        iexact Hz1s
      isplitl [Hp2 Hp2s]
      · isplitl [Hp2]; · iexact Hp2
        iexact Hp2s
      isplitl [Hz2 Hz2s]
      · isplitl [Hz2]; · iexact Hz2
        iexact Hz2s
      iexact HO

end Loops

end Cert.KernelIdeal.AG

end
-- ==== Proof.KernelIdeal.Regions.lean ====
import proofs.«900660_g7700000000000661_dist_ag_v7x_xyz2x2x2_x_m1024_n512_f32_1_alg».proof.Proof.KernelIdeal.Ghost
import Idealize.ShloMosaic.Lib.Pipeline.Value

/-!
# The two staging buffers cut into the pieces the transfers use, and what each landing leaves

The result buffer of device `c` is the disjoint union of its own block's rows (`outL oM c`), the sixteen chunks
`xp c` sends into (`outZ oM c k`) and the sixteen chunks `zp c` forwards into (`outZ oM (zp c) k`). The input buffer
is read whole by the local copy and, in its `z`-th half, chunk by chunk by the first sends: it is held in two half
shares, the right one cut into those chunks and a rest.
-/

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev xLoc (c : Dev nD) : Loc nD τ sig := (c : Thread nD τ).loc cc0_stg0_0
abbrev oLoc (c : Dev nD) : Loc nD τ sig := (c : Thread nD τ).loc cc0_stg1_0

/-- The part of the input buffer no first send reads. -/
def xRestSet (c : Dev nD) : Finset (Idx (xLoc c)) :=
  ((xM : Memref sig .tc .vmem S1024x512 .f32).view.set : Finset (Idx (xLoc c))) \ (Finset.univ.biUnion fun k : Fin 16 => ((srcX xM c k).view.set : Finset (Idx (xLoc c))))

namespace Regions

/-! ## Coordinates of the second neighbour, and membership in the pieces by the row coordinate

Every piece is a band of rows over all 512 columns, so membership is a statement about the row coordinate alone;
the bands' offsets are the printed offset chains in their closed forms. -/

/-- The second neighbour has the other last coordinate, -/
theorem zp_mod (c : Dev nD) : (zp c).val % 2 = 1 - c.val % 2 := by revert c; decide
/-- and the same first coordinate. -/
theorem zp_div (c : Dev nD) : (zp c).val / 4 = c.val / 4 := by revert c; decide

/-- The own block's rows: `[1024·x, +1024)`. -/
theorem mem_outL (c : Dev nD) (i : Idx (oLoc c)) :
    i ∈ ((outL oM c).view.set : Finset (Idx (oLoc c))) ↔ 1024 * (c.val / 4) ≤ (i 0).val ∧ (i 0).val < 1024 * (c.val / 4) + 1024 := by
  have h : ((outL oM c).view.set : Finset (Idx (oLoc c)))
      = (Rect.unit (s := S2048x512) (k0_off3 c) S1024x512.size (k0_off3_inb c)).set := View.set_slice_whole _ _
  rw [h, Rect.mem_set_unit, Gen.k0_off3_eq]
  constructor
  · intro h; exact h 0
  · intro h a; fin_cases a
    · exact h
    · have h1 : (i 1).val < 512 := (i 1).isLt; show 0 ≤ (i 1).val ∧ (i 1).val < 0 + 512; omega

/-- Chunk `k` as device `d` places it: rows `[1024·(1−x_d) + 512·z_d + 32·k, +32)`, read in any device's result buffer. -/
theorem mem_outZ (c d : Dev nD) (k : Fin 16) (i : Idx (oLoc c)) :
    i ∈ ((outZ oM d k).view.set : Finset (Idx (oLoc c))) ↔
      (512 * (d.val % 2) + 32 * k.val + 1024) - 1024 * (d.val / 4) ≤ (i 0).val ∧ (i 0).val < (512 * (d.val % 2) + 32 * k.val + 1024) - 1024 * (d.val / 4) + 32 := by
  have h : ((outZ oM d k).view.set : Finset (Idx (oLoc c)))
      = (Rect.unit (s := S2048x512) (k0_off4 d (wordK k)) S32x512.size (k0_off4_inb d k)).set := View.set_slice_whole _ _
  rw [h, Rect.mem_set_unit, Gen.k0_off4_eq]
  constructor
  · intro h; exact h 0
  · intro h a; fin_cases a
    · exact h
    · have h1 : (i 1).val < 512 := (i 1).isLt; show 0 ≤ (i 1).val ∧ (i 1).val < 0 + 512; omega

/-- Chunk `k` of the half-block that is sent: rows `[512·z + 32·k, +32)`. -/
theorem mem_srcX (c : Dev nD) (k : Fin 16) (i : Idx (xLoc c)) :
    i ∈ ((srcX xM c k).view.set : Finset (Idx (xLoc c))) ↔
      512 * (c.val % 2) + 32 * k.val ≤ (i 0).val ∧ (i 0).val < 512 * (c.val % 2) + 32 * k.val + 32 := by
  have h : ((srcX xM c k).view.set : Finset (Idx (xLoc c)))
      = (Rect.unit (s := S1024x512) (k0_off2 c (wordK k)) S32x512.size (k0_off2_inb c k)).set := View.set_slice_whole _ _
  rw [h, Rect.mem_set_unit, Gen.k0_off2_eq]
  constructor
  · intro h; exact h 0
  · intro h a; fin_cases a
    · exact h
    · have h1 : (i 1).val < 512 := (i 1).isLt; show 0 ≤ (i 1).val ∧ (i 1).val < 0 + 512; omega

/-! ## The result buffer -/

/-- Every row is in the own block, or in the other block's `z`-th half (chunk `r % 512 / 32`), or in its other half. -/
theorem out_cover (c : Dev nD) :
    (Finset.univ : Finset (Idx (oLoc c))) = ((outL oM c).view.set : Finset (Idx (oLoc c)))
      ∪ ((Finset.univ.biUnion fun k : Fin 16 => ((outZ oM c k).view.set : Finset (Idx (oLoc c))))
        ∪ (Finset.univ.biUnion fun k : Fin 16 => ((outZ oM (zp c) k).view.set : Finset (Idx (oLoc c))))) := by
  ext i
  rw [Finset.mem_union, Finset.mem_union, Finset.mem_biUnion, Finset.mem_biUnion]
  refine ⟨fun _ => ?_, fun _ => Finset.mem_univ i⟩
  have hc : c.val < 8 := c.isLt
  have hr : (i 0).val < 2048 := (i 0).isLt
  obtain ⟨k, hk⟩ : ∃ k : Fin 16, k.val = (i 0).val % 512 / 32 := ⟨⟨(i 0).val % 512 / 32, by omega⟩, rfl⟩
  by_cases h1 : 1024 * (c.val / 4) ≤ (i 0).val ∧ (i 0).val < 1024 * (c.val / 4) + 1024
  · exact Or.inl ((mem_outL c i).mpr h1)
  · by_cases h2 : (i 0).val % 1024 / 512 = c.val % 2
    · refine Or.inr (Or.inl ⟨k, Finset.mem_univ _, (mem_outZ c c k i).mpr ?_⟩)
      omega
    · refine Or.inr (Or.inr ⟨k, Finset.mem_univ _, (mem_outZ c (zp c) k i).mpr ?_⟩)
      rw [zp_mod, zp_div]; omega

/-- The own block meets no chunk of the other block. -/
theorem out_disj_L (c : Dev nD) :
    Disjoint ((outL oM c).view.set : Finset (Idx (oLoc c)))
      ((Finset.univ.biUnion fun k : Fin 16 => ((outZ oM c k).view.set : Finset (Idx (oLoc c))))
        ∪ (Finset.univ.biUnion fun k : Fin 16 => ((outZ oM (zp c) k).view.set : Finset (Idx (oLoc c))))) := by
  rw [Finset.disjoint_left]
  intro i hi hj
  rw [mem_outL] at hi
  rw [Finset.mem_union, Finset.mem_biUnion, Finset.mem_biUnion] at hj
  have hc : c.val < 8 := c.isLt
  rcases hj with ⟨k, -, hk⟩ | ⟨k, -, hk⟩
  · rw [mem_outZ] at hk; have := k.isLt; omega
  · rw [mem_outZ, zp_mod, zp_div] at hk; have := k.isLt; omega

/-- The two halves of the other block are apart. -/
theorem out_disj_Z (c : Dev nD) :
    Disjoint (α := Finset (Idx (oLoc c))) (Finset.univ.biUnion fun k : Fin 16 => ((outZ oM c k).view.set : Finset (Idx (oLoc c))))
      (Finset.univ.biUnion fun k : Fin 16 => ((outZ oM (zp c) k).view.set : Finset (Idx (oLoc c)))) := by
  rw [Finset.disjoint_left]
  intro i hi hj
  rw [Finset.mem_biUnion] at hi hj
  have hc : c.val < 8 := c.isLt
  obtain ⟨k, -, hk⟩ := hi
  obtain ⟨k', -, hk'⟩ := hj
  rw [mem_outZ] at hk
  rw [mem_outZ, zp_mod, zp_div] at hk'
  have := k.isLt; have := k'.isLt; omega

/-- Chunks of one half are apart. -/
theorem outZ_pairwise (c d : Dev nD) :
    ∀ k ∈ (Finset.univ : Finset (Fin 16)), ∀ k' ∈ (Finset.univ : Finset (Fin 16)), k ≠ k' →
      Disjoint ((outZ oM d k).view.set : Finset (Idx (oLoc c))) ((outZ oM d k').view.set : Finset (Idx (oLoc c))) := by
  intro k _ k' _ hne
  rw [Finset.disjoint_left]
  intro i hi hj
  rw [mem_outZ c d] at hi hj
  have hv : k.val ≠ k'.val := fun e => hne (Fin.ext e)
  have hd : d.val < 8 := d.isLt
  omega

omit [FloatOps F] in
/-- A points-to along two disjoint element sets, as an equation. -/
theorem pts_union_eq {ℓ : Loc nD τ sig} {I J : Finset (Idx ℓ)} {q : PosShare TreeShare} {f : Buf (Elt F) ℓ} (h : Disjoint I J) :
    (ℓ ↦[I ∪ J]{q} f : sProp 𝕄) = iprop((ℓ ↦[I]{q} f) ∗ ℓ ↦[J]{q} f) :=
  BI.equiv_iff.mp ⟨(pointsTo_union h).1, (pointsTo_union h).2⟩

omit [FloatOps F] in
/-- The whole result buffer is its own block, the sixteen chunks the first neighbour sends into and the sixteen the second
    neighbour forwards into. -/
theorem out_eq (c : Dev nD) (f : Buf (Elt F) (oLoc c)) :
    (oLoc c ↦{fullShare} f : sProp 𝕄)
      = iprop(vpts c (outL oM c) fullShare f ∗ (bigSep Finset.univ fun k : Fin 16 => vpts c (outZ oM c k) fullShare f)
          ∗ (bigSep Finset.univ fun k : Fin 16 => vpts c (outZ oM (zp c) k) fullShare f)) := by
  unfold vpts
  have e : (oLoc c ↦{fullShare} f : sProp 𝕄) = (oLoc c ↦[((outL oM c).view.set : Finset (Idx (oLoc c)))
      ∪ ((Finset.univ.biUnion fun k : Fin 16 => ((outZ oM c k).view.set : Finset (Idx (oLoc c))))
        ∪ (Finset.univ.biUnion fun k : Fin 16 => ((outZ oM (zp c) k).view.set : Finset (Idx (oLoc c)))))]{fullShare} f) := by
    rw [← out_cover c]
  rw [e, pts_union_eq (out_disj_L c), pts_union_eq (out_disj_Z c),
    pointsTo_biUnion _ _ (outZ_pairwise c c), pointsTo_biUnion _ _ (outZ_pairwise c (zp c))]

/-! ## The input buffer -/

/-- The sent chunks are apart. -/
theorem srcX_pairwise (c : Dev nD) :
    ∀ k ∈ (Finset.univ : Finset (Fin 16)), ∀ k' ∈ (Finset.univ : Finset (Fin 16)), k ≠ k' →
      Disjoint ((srcX xM c k).view.set : Finset (Idx (xLoc c))) ((srcX xM c k').view.set : Finset (Idx (xLoc c))) := by
  intro k _ k' _ hne
  rw [Finset.disjoint_left]
  intro i hi hj
  rw [mem_srcX c] at hi hj
  have hv : k.val ≠ k'.val := fun e => hne (Fin.ext e)
  omega

/-- Each sent chunk lies in the buffer. -/
theorem srcX_subset (c : Dev nD) :
    (Finset.univ.biUnion fun k : Fin 16 => ((srcX xM c k).view.set : Finset (Idx (xLoc c))))
      ⊆ ((xM : Memref sig .tc .vmem S1024x512 .f32).view.set : Finset (Idx (xLoc c))) :=
  Finset.biUnion_subset.mpr fun k _ => View.set_slice_subset _ _

omit [FloatOps F] in
/-- A full-share points-to is its left half share and its right half share, as an equation. -/
theorem pts_halves_eq {ℓ : Loc nD τ sig} {I : Finset (Idx ℓ)} {f : Buf (Elt F) ℓ} :
    (ℓ ↦[I]{fullShare} f : sProp 𝕄) = iprop((ℓ ↦[I]{fullShare.left} f) ∗ ℓ ↦[I]{fullShare.right} f) :=
  BI.equiv_iff.mp ⟨(pointsTo_share (PosShare.mem_left_op_right fullShare)).1, (pointsTo_share (PosShare.mem_left_op_right fullShare)).2⟩

omit [FloatOps F] in
/-- Carving a subset out of a points-to, as an equation. -/
theorem pts_subset_eq {ℓ : Loc nD τ sig} {I S : Finset (Idx ℓ)} {q : PosShare TreeShare} {f : Buf (Elt F) ℓ} (h : I ⊆ S) :
    (ℓ ↦[S]{q} f : sProp 𝕄) = iprop((ℓ ↦[I]{q} f) ∗ ℓ ↦[S \ I]{q} f) :=
  BI.equiv_iff.mp ⟨(pointsTo_split_subset h).1, (pointsTo_split_subset h).2⟩

omit [FloatOps F] in
/-- The whole input buffer is a left half share of everything and a right half share of the sixteen sent chunks and
    of the rest. -/
theorem x_eq (c : Dev nD) (f : Buf (Elt F) (xLoc c)) :
    (xLoc c ↦{fullShare} f : sProp 𝕄)
      = iprop(vpts c xM fullShare.left f ∗ (bigSep Finset.univ fun k : Fin 16 => vpts c (srcX xM c k) fullShare.right f)
          ∗ (xLoc c ↦[xRestSet c]{fullShare.right} f)) := by
  unfold vpts xRestSet
  have hw : ((xM : Memref sig .tc .vmem S1024x512 .f32).view.set : Finset (Idx (xLoc c))) = Finset.univ := View.set_whole _
  rw [pts_halves_eq]
  conv_lhs => rw [← hw]
  rw [pts_subset_eq (q := fullShare.right) (srcX_subset c), pointsTo_biUnion _ _ (srcX_pairwise c)]

end Regions

open Regions

omit [FloatOps F] in
theorem out_split (c : Dev nD) (f : Buf (Elt F) (oLoc c)) :
    (oLoc c ↦{fullShare} f : sProp 𝕄)
      ⊢ iprop(vpts c (outL oM c) fullShare f ∗ (bigSep Finset.univ fun k : Fin 16 => vpts c (outZ oM c k) fullShare f)
          ∗ (bigSep Finset.univ fun k : Fin 16 => vpts c (outZ oM (zp c) k) fullShare f)) :=
  Entails.of_eq (out_eq c f)

theorem out_join (c : Dev nD) :
    iprop(vpts c (outL oM c) fullShare (outAt m c) ∗ (bigSep Finset.univ fun k : Fin 16 => vpts c (outZ oM c k) fullShare (outAt m c))
        ∗ (bigSep Finset.univ fun k : Fin 16 => vpts c (outZ oM (zp c) k) fullShare (outAt m c)))
      ⊢ (oLoc c ↦{fullShare} outAt m c : sProp 𝕄) :=
  Entails.of_eq (out_eq c (outAt m c)).symm

omit [FloatOps F] in
theorem x_split (c : Dev nD) (f : Buf (Elt F) (xLoc c)) :
    (xLoc c ↦{fullShare} f : sProp 𝕄)
      ⊢ iprop(vpts c xM fullShare.left f ∗ (bigSep Finset.univ fun k : Fin 16 => vpts c (srcX xM c k) fullShare.right f)
          ∗ (xLoc c ↦[xRestSet c]{fullShare.right} f)) :=
  Entails.of_eq (x_eq c f)

omit [FloatOps F] in
theorem x_join (c : Dev nD) (f : Buf (Elt F) (xLoc c)) :
    iprop(vpts c xM fullShare.left f ∗ (bigSep Finset.univ fun k : Fin 16 => vpts c (srcX xM c k) fullShare.right f)
        ∗ (xLoc c ↦[xRestSet c]{fullShare.right} f))
      ⊢ (xLoc c ↦{fullShare} f : sProp 𝕄) :=
  Entails.of_eq (x_eq c f).symm

/-- info: 'Cert.KernelIdeal.AG.out_split' depends on axioms: [propext, Classical.choice, Quot.sound] -/
#guard_msgs in #print axioms out_split

/-- info: 'Cert.KernelIdeal.AG.out_join' depends on axioms: [propext, Classical.choice, Quot.sound] -/
#guard_msgs in #print axioms out_join

/-- info: 'Cert.KernelIdeal.AG.x_split' depends on axioms: [propext, Classical.choice, Quot.sound] -/
#guard_msgs in #print axioms x_split

/-- info: 'Cert.KernelIdeal.AG.x_join' depends on axioms: [propext, Classical.choice, Quot.sound] -/
#guard_msgs in #print axioms x_join

end Cert.KernelIdeal.AG

end
-- ==== Proof.KernelIdeal.Body.lean ====
import proofs.«900660_g7700000000000661_dist_ag_v7x_xyz2x2x2_x_m1024_n512_f32_1_alg».proof.Proof.KernelIdeal.Loops
import proofs.«900660_g7700000000000661_dist_ag_v7x_xyz2x2x2_x_m1024_n512_f32_1_alg».proof.Proof.KernelIdeal.Regions

/-!
# One device's body

From what the pipeline hands over — the input block in its staging buffer, the result staging buffer at any contents —
and the device's ghost state: the two buffers are cut into the pieces the transfers use; the handshake hands each
partner the chunks of this device's result buffer it will write, and brings back the partners' chunks this device
writes; then the sends, the local copy, the forwarding loop, and the completions, after which every piece of the result
buffer is back at its final contents, the input buffer is whole again, and every own cell is closed.
-/

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem allK_univ : (Finset.univ : Finset (Fin 16)) = allK.toFinset := by decide
omit [FloatOps F] in
theorem allK_nodup : allK.Nodup := by decide
omit [FloatOps F] in
/-- All sixteen chunks, listed. -/
theorem bigSep_allK (Φ : Fin 16 → sProp 𝕄) : bigSep Finset.univ Φ = bigSepL allK Φ := bigSep_univ_eq_bigSepL allK allK_univ allK_nodup Φ

omit [FloatOps F] in
theorem bigSep_ex_intro (c d : Dev nD) (f : Buf (Elt F) ((c : Thread nD τ).loc cc0_stg1_0)) :
    (bigSep Finset.univ fun k : Fin 16 => vpts c (outZ oM d k) fullShare f : sProp 𝕄)
      ⊢ bigSep Finset.univ fun k : Fin 16 => iprop(∃ f, vpts c (outZ oM d k) fullShare f) :=
  bigSep_mono fun k _ =>
    show (vpts c (outZ oM d k) fullShare f : sProp 𝕄) ⊢ iprop(∃ f, vpts c (outZ oM d k) fullShare f) from by
      iintro H; iexists f; iexact H

set_option maxHeartbeats 800000 in
/-- The body, from what the pipeline hands over to what it takes back. -/
theorem sound_body (c : Dev nD) :
    bodyPre m c ⊢ wp frame (wpE (defs₀ (F := F)) 𝒱₀ (c : Thread nD τ) none) Set.univ
      (bodyS xM (Memref.isWhole_whole _) oM (Memref.isWhole_whole _) cc0_scratch0 cc0_scratch1 cc0_scratch2 cc0_scratch3 cc0_scratch4)
      (fun _ => bodyPost m c) := by
  unfold bodyPre Φ₀ start
  iintro ⟨⟨⟨%K, Hg⟩, Hcr, #Hlev⟩, Ho, ⟨%d0, %g0, %hg0, Hx⟩, ⟨%d1, %g1, %hg1, Hout⟩⟩
  have hx : g0 = xstg m c := by rw [hg0]; unfold Dat.before; rw [if_pos (fetch_0 t₀)]; rfl
  subst hx
  unfold ghost
  icases Hg with ⟨#HI, #HR, Hpos, Htok⟩
  unfold Dat.owesAt Pipeline.owesWithin
  icases Ho with ⟨%W, %hW, HO⟩
  rw [show (dats m 0 c).owed t₀.castSucc = O₀ c from rfl]
  -- the two staging buffers cut into the transfers' pieces
  ihave Hx3 := (x_split c (xstg m c)) $$ Hx
  icases Hx3 with ⟨HxL, HxR, HxRest⟩
  ihave Ho3 := (out_split c g1) $$ Hout
  icases Ho3 with ⟨HoL, HoX, HoZ⟩
  unfold poss payToks creds
  icases Hpos with ⟨HaB, HaC, HaXS, HaXR, HaZS, HaZR⟩
  icases Htok with ⟨HtBX, HtBZ, HtC, HtXS, HtZS, HtXR, HtZR⟩
  icases Hcr with ⟨HcB, HcXR, HcZR⟩
  -- the program, operation by operation and loop by loop
  unfold bodyS
  simp only [semSignalWord, semWaitWord, Prog.lift, Prog.bind_op, Prog.bind_ret, Prog.pure_eq_ret, wp_deviceId, wp_bind]
  simp only [dev1_eq c, dev2_eq c]
  -- the first signal, to `xp c`'s barrier: with it the chunks of this device's result buffer that `xp c` writes
  iapply (Rounds.wp_signal 𝒱₀ ER (agRd m) (c : Thread nD τ) none (dst := (xp c : Thread nD τ)) (κ := K (xp c, iBar))
      (d := false) (by rw [duties_bar]; exact Finset.mem_univ _) ((amount_bar m (xp c) false).trans (by decide)) () (O₁ c) rfl)
    $$ [HO HtBX HoX]
  · isplitr; · iapply (inv_barX m K c); iexact HI
    isplitl [HO]; · iexact HO
    isplitl [HtBX]; · iexact HtBX
    isplitl [HoX]
    · rw [payload_bar_false]; unfold barPayX; rw [xp_xp]
      iapply (bigSep_ex_intro c c g1); iexact HoX
    · iapply (reach_barX c); iexact HR
  iintro HO
  -- the second, to `zp c`'s barrier: with it the chunks `zp c` forwards into
  unfold O₁
  iapply (Rounds.wp_signal 𝒱₀ ER (agRd m) (c : Thread nD τ) none (dst := (zp c : Thread nD τ)) (κ := K (zp c, iBar))
      (d := true) (by rw [duties_bar]; exact Finset.mem_univ _) ((amount_bar m (zp c) true).trans (by decide)) () (O₂ c) rfl)
    $$ [HO HtBZ HoZ]
  · isplitr; · iapply (inv_barZ m K c); iexact HI
    isplitl [HO]; · iexact HO
    isplitl [HtBZ]; · iexact HtBZ
    isplitl [HoZ]
    · rw [payload_bar_true]; unfold barPayZ; rw [zp_zp]
      iapply (bigSep_ex_intro c (zp c) g1); iexact HoZ
    · iapply (reach_barZ c); iexact HR
  iintro HO
  -- the wait for both partners: their chunks of THEIR result buffers come with it
  iapply (Rounds.wp_wait_rest_token 𝒱₀ ER (agRd m) (c : Thread nD τ) none (κ := K (c, iBar))
      (wpE_semWait_eq 𝒱₀ (c : Thread nD τ) none Set.univ) (Set.mem_univ _) () (O := O₂ c) (W := W) (R := 0) (m := 0) (T := ∅)
      (by rw [expect_bar]; decide)) $$ [HcB HO HaB]
  · isplitr; · iapply (inv_bar m K c); iexact HI
    isplitl [HcB]; · iexact HcB
    isplitl [HO]; · iexact HO
    isplitr; · iapply (mayWait_bar c); iexact Hlev
    iexact HaB
  iintro ⟨HO, -, -, Hpay⟩
  ihave Hp := (Entails.of_eq (rest_bar m c)) $$ Hpay
  unfold barPayX barPayZ
  icases Hp with ⟨HpX, HpZ⟩
  simp only [bigSep_allK]
  simp only [wp_bind]
  -- the sixteen first sends
  unfold O₂
  iapply (wp_wand_r frame (wpE (defs₀ (F := F)) 𝒱₀ (c : Thread nD τ) none) Set.univ (Q := fun _ => iprop(bigSepL allK (fun k => cred (tallyAt (xsCell c k) () NC))
      ∗ owes (c : Thread nD τ) (owedZ c allK) (insert (SemLoc.reg barS, ()) W))))
  isplitl [HxR HpX HtXS HtXR HO]
  · iapply (xsends_run m K c allK (owedZ c allK) (insert (SemLoc.reg barS, ()) W))
    isplitr; · iexact HI
    isplitr; · iexact HR
    isplitl [HxR]; · iexact HxR
    isplitl [HpX]; · iexact HpX
    isplitl [HtXS]; · iexact HtXS
    isplitl [HtXR]; · iexact HtXR
    iexact HO
  iintro %_ ⟨HcXS, HO⟩
  -- the local copy
  iapply (step_copy m K c) $$ [HxL HoL HtC]
  · isplitr; · iapply (inv_cp m K c); iexact HI
    isplitr; · iapply (reach_cp c); iexact HR
    isplitl [HxL]; · iexact HxL
    isplitl [HoL]; · iexists g1; iexact HoL
    iexact HtC
  iintro HcC
  simp only [wp_bind]
  -- per chunk: the first partner's chunk landed, forwarded to the second
  iapply (wp_wand_r frame (wpE (defs₀ (F := F)) 𝒱₀ (c : Thread nD τ) none) Set.univ (Q := fun _ => iprop(bigSepL allK (fun k => semVal (xrCell c k) 0) ∗ bigSepL allK (fun k => cred (tallyAt (zsCell c k) () NC))
      ∗ ∃ W', owes (c : Thread nD τ) 0 W')))
  isplitl [HcXR HaXR HpZ HtZS HtZR HO]
  · iapply (forwards_run m K c allK (insert (SemLoc.reg barS, ()) W))
    isplitr; · iexact HI
    isplitr; · iexact HR
    isplitr; · iexact Hlev
    isplitl [HcXR]; · iexact HcXR
    isplitl [HaXR]; · iexact HaXR
    isplitl [HpZ]; · iexact HpZ
    isplitl [HtZS]; · iexact HtZS
    isplitl [HtZR]; · iexact HtZR
    iexact HO
  iintro %_ ⟨HzXR, HcZS, ⟨%W2, HO⟩⟩
  -- the second partner's forwarded chunks landed
  iapply (wp_wand_r frame (wpE (defs₀ (F := F)) 𝒱₀ (c : Thread nD τ) none) Set.univ (Q := fun _ => iprop(bigSepL allK (fun k => zrPay m c k) ∗ bigSepL allK (fun k => semVal (zrCell c k) 0)
      ∗ ∃ W', owes (c : Thread nD τ) 0 W')))
  isplitl [HcZR HaZR HO]
  · iapply (zwaits_run m K c allK W2)
    isplitr; · iexact HI
    isplitl [HcZR]; · iexact HcZR
    isplitl [HaZR]; · iexact HaZR
    iexact HO
  iintro %_ ⟨HpZR, HzZR, ⟨%W3, HO⟩⟩
  -- the sends read out
  iapply (wp_wand_r frame (wpE (defs₀ (F := F)) 𝒱₀ (c : Thread nD τ) none) Set.univ (Q := fun _ => iprop(bigSepL allK (fun k => xsPay m c k) ∗ bigSepL allK (fun k => semVal (xsCell c k) 0)
      ∗ bigSepL allK (fun k => zsPay m c k) ∗ bigSepL allK (fun k => semVal (zsCell c k) 0)
      ∗ ∃ W', owes (c : Thread nD τ) 0 W')))
  isplitl [HcXS HaXS HcZS HaZS HO]
  · iapply (swaits_run m K c allK W3)
    isplitr; · iexact HI
    isplitl [HcXS]; · iexact HcXS
    isplitl [HaXS]; · iexact HaXS
    isplitl [HcZS]; · iexact HcZS
    isplitl [HaZS]; · iexact HaZS
    iexact HO
  iintro %_ ⟨HpXS, HzXS, HpZS, HzZS, ⟨%W4, HO⟩⟩
  -- the local copy done
  iapply (step_wait_close m c cpS (K (c, iCp)) NL (cpPay m c) (expect_cp m c) (rest_cp m c) (src := xM) (dst := outL oM c) (credL c) 0 W4)
    $$ [HcC HaC HO]
  · isplitr; · iapply (inv_cp m K c); iexact HI
    isplitl [HcC]; · iexact HcC
    isplitl [HaC]; · iexact HaC
    isplitr; · rw [MayWait_zero]; iempintro
    iexact HO
  iintro ⟨⟨%W5, HO⟩, HpC, HzC⟩
  rw [wp_ret]; imodintro
  -- every piece is back: the buffers whole again, the own cells closed
  unfold cpPay
  icases HpC with ⟨HoL, HxL⟩
  unfold bodyPost Φ₁ Dat.owesAt Pipeline.owesWithin
  rw [show (dats m 0 c).owed t₀.succ = 0 from rfl]
  simp only [bigSep_allK]
  isplitl [HzC HzXS HzXR HzZS HzZR]
  · isplitl [HzC]; · iexact HzC
    isplitl [HzXS]; · iexact HzXS
    isplitl [HzXR]; · iexact HzXR
    isplitl [HzZS]; · iexact HzZS
    iexact HzZR
  isplitl [HO]
  · iexists W5; isplitr; · ipureintro; exact fun _ _ => Or.inl trivial
    iexact HO
  isplitl [HxL HpXS HxRest]
  · iexists (xstg m c); isplitr; · (ipureintro; rfl)
    iapply (x_join c (xstg m c))
    simp only [bigSep_allK]
    isplitl [HxL]; · iexact HxL
    isplitl [HpXS]; · unfold xsPay; iexact HpXS
    iexact HxRest
  · iexists (outAt m c); isplitr; · (ipureintro; rfl)
    iapply (out_join m c)
    simp only [bigSep_allK]
    isplitl [HoL]; · iexact HoL
    isplitl [HpZS]; · unfold zsPay; iexact HpZS
    unfold zrPay; iexact HpZR

/-- The library's body obligation on device `c`. -/
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre m c ⊢ wp frame (wpE (defs₀ (F := F)) 𝒱₀ (c : Thread nD τ) none) Set.univ
    (cc0_body (Memref.whole cc0_stg0_0) (Memref.isWhole_whole _) (Memref.whole cc0_stg1_0) (Memref.isWhole_whole _)
      cc0_scratch0 cc0_scratch1 cc0_scratch2 cc0_scratch3 cc0_scratch4) (fun _ => bodyPost m c)
  rw [body_eq]
  exact sound_body m c

end Cert.KernelIdeal.AG

end
-- ==== Proof.KernelIdeal.Launch.lean ====
import proofs.«900660_g7700000000000661_dist_ag_v7x_xyz2x2x2_x_m1024_n512_f32_1_alg».proof.Proof.KernelIdeal.Levels

/-!
# The launch

Every device's body proved (`hbody`), the program runs: the protocol's ghost state is allocated for all devices at
once (the barrier cells are shared by three devices each), every device is dealt the invariants it opens, its
positions, the tokens of the duties it pays and the credit for the units others owe its cells, and the pipeline's
launch theorem for devices that owe at launch does the rest.
-/

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The kernel's own semaphores; the cells and the tokens -/

theorem ownSemFacts : Pipeline.OwnSemFacts cfg0.spec osem := by decide +kernel

omit [FloatOps F] in
theorem share_eq (c : Dev nD) (w : Fin cfg0.W) : (dats m 0 c).share w = fullShare := by unfold Dat.share; split <;> rfl

/-- A barrier cell is no DMA cell, and the DMA cells are told apart by their semaphores. -/
theorem csem_injective : Function.Injective csem := by
  intro i i' h
  rcases i with _ | i <;> rcases i' with _ | i'
  · rfl
  · exact absurd h (fun h => by cases h)
  · exact absurd h (fun h => by cases h)
  · exact congrArg Sum.inr (ownSemFacts.inj h)

theorem kcell_injective : Function.Injective (kcell : Dev nD × CIx → GSem nD τ sig) := by
  rintro ⟨c, i⟩ ⟨c', i'⟩ h
  have h1 : c = c' := congrArg (fun g : GSem nD τ sig => g.1.1) h
  subst h1
  have h2 : csem i = csem i' := congrArg Prod.snd h
  rw [csem_injective h2]

/-- Every cell of the protocol. -/
def agCells : Finset (GSem nD τ sig) := Finset.univ.map ⟨kcell, kcell_injective⟩

/-- The duties of a device's own cells: its barrier's `true`, and the `false` of every cell. -/
abbrev TIx : Type := Unit ⊕ CIx
def tokOf (cj : Dev nD × TIx) : GSem nD τ sig × ℕ × Bool := match cj.2 with
  | .inl _ => (barCell cj.1, 0, true)
  | .inr i => (kcell (cj.1, i), 0, false)
theorem tokOf_injective : Function.Injective tokOf := by
  rintro ⟨c, j⟩ ⟨c', j'⟩ h
  rcases j with _ | i <;> rcases j' with _ | i'
  · have h1 : c = c' := congrArg (fun x : GSem nD τ sig × ℕ × Bool => x.1.1.1) h
    subst h1; rfl
  · have h' : true = false := congrArg (fun x : GSem nD τ sig × ℕ × Bool => x.2.2) h
    cases h'
  · have h' : false = true := congrArg (fun x : GSem nD τ sig × ℕ × Bool => x.2.2) h
    cases h'
  · have h1 : (c, i) = (c', i') := kcell_injective (congrArg (fun x : GSem nD τ sig × ℕ × Bool => x.1) h)
    cases h1; rfl
def agToks : Finset (GSem nD τ sig × ℕ × Bool) := Finset.univ.map ⟨tokOf, tokOf_injective⟩

def u₀ : UU :=
  (initOf (Pipeline.cells cfgs cellOf_inj) (Pipeline.launchToks cfgs cellOf_inj), initOf agCells agToks)

/-- The duty tokens of device `c`'s own cells. -/
def toks (c : Dev nD) : sProp 𝕄 :=
  iprop(dutyTok ER (barCell c) 0 true ∗ bigSep Finset.univ fun i : CIx => dutyTok ER (kcell (c, i)) 0 false)

/-- What the launch element deals device `c`. -/
def G (c : Dev nD) : sProp 𝕄 :=
  iprop((bigSep Finset.univ fun i : CIx => roundState ER (agRd m) (kcell (c, i)) 0)
    ∗ (bigSep Finset.univ fun i : CIx => iprop(atPos ER (kcell (c, i)) 0 ∅ 0 ∗ reached ER (kcell (c, i)) 0)) ∗ toks c)

/-- What the global step makes of it. -/
def G' (c : Dev nD) : sProp 𝕄 := iprop(∃ K, ghost m K c)

omit [FloatOps F] in
/-- A conjunction over a device's cells, family by family. -/
theorem bigSep_CIx (Φ : CIx → sProp 𝕄) :
    bigSep Finset.univ Φ = iprop(Φ iBar ∗ Φ iCp ∗ (bigSep Finset.univ fun k : Fin 16 => Φ (iF 0 k)) ∗ (bigSep Finset.univ fun k : Fin 16 => Φ (iF 1 k))
      ∗ (bigSep Finset.univ fun k : Fin 16 => Φ (iF 2 k)) ∗ (bigSep Finset.univ fun k : Fin 16 => Φ (iF 3 k))) := by
  rw [bigSep_univ_sum, bigSep_univ_sum, bigSep_univ_of_subsingleton (), bigSep_univ_of_subsingleton (), bigSep_univ_prod,
    bigSep_univ_eq_bigSepL [(0 : Fin 4), 1, 2, 3] (by decide) (by decide)]
  rfl

omit [FloatOps F] in
/-- A conjunction over a sum of index types, with the proof mode's `∗`. -/
theorem bigSep_sum' {A B : Type} [Fintype A] [Fintype B] (Φ : A ⊕ B → sProp 𝕄) :
    bigSep Finset.univ Φ = iprop((bigSep Finset.univ fun a => Φ (.inl a)) ∗ bigSep Finset.univ fun b => Φ (.inr b)) := bigSep_univ_sum Φ

omit [FloatOps F] in
/-- A conjunction over the devices, re-indexed along either partner map. -/
theorem bigSep_xp (Φ : Dev nD → sProp 𝕄) : bigSep Finset.univ Φ = bigSep Finset.univ fun c => Φ (xp c) := bigSep_univ_equiv xpE Φ
omit [FloatOps F] in
theorem bigSep_zp (Φ : Dev nD → sProp 𝕄) : bigSep Finset.univ Φ = bigSep Finset.univ fun c => Φ (zp c) := bigSep_univ_equiv zpE Φ

omit [FloatOps F] in
theorem fund_ag : BI.own (ER (initOf agCells agToks)) ⊢ (|==> bigSep Finset.univ (G m) : sProp 𝕄) := by
  have hX (Φ : GSem nD τ sig → sProp 𝕄) : bigSep agCells Φ = bigSep Finset.univ fun c : Dev nD => bigSep Finset.univ fun i : CIx => Φ (kcell (c, i)) := by
    unfold agCells; rw [bigSep_map, bigSep_univ_prod]; rfl
  have hT : bigSep agToks (fun x => (dutyTok ER x.1 x.2.1 x.2.2 : sProp 𝕄)) = bigSep Finset.univ fun c : Dev nD => toks c := by
    unfold agToks; rw [bigSep_map, bigSep_univ_prod]
    exact bigSep_congr fun c _ => by unfold toks; rw [bigSep_sum', bigSep_univ_of_subsingleton ()]; rfl
  iintro HX
  imod (Rounds.fund ER (agRd m) agCells agToks) $$ HX with ⟨Hst, Hr, Hat, Htok⟩
  imodintro
  ihave Hst' := (Entails.of_eq (hX fun g => roundState ER (agRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### The global step -/

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CIx => semVal (kcell (c, i)) 0 : sProp 𝕄) := by
  rw [unscopedSems0_eq, bigSep_sum', bigSep_univ_of_subsingleton ()]
  unfold Pipeline.ownSems0
  iintro ⟨HS, HB⟩
  isplitl [HB]; · iexact HB
  iexact HS

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CIx => iprop(∃ κ : ℕ, cellInv ER (agRd m) κ (kcell (c, i))))
          ∗ (bigSep Finset.univ fun i : CIx => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : CIx => semVal (kcell (c, i)) 0) ∗ bigSep Finset.univ fun i : CIx => roundState ER (agRd m) (kcell (c, i)) 0)
      ⊢ (|={Set.univ}=> bigSep Finset.univ fun i : CIx => iprop(∃ κ : ℕ, cellInv ER (agRd m) κ (kcell (c, i))) : sProp 𝕄) from by
        rw [← bigSep_sep']
        exact (bigSep_mono fun i _ => (Rounds.body_intro ER (agRd m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- The persistent records of all devices: every cell's invariant, and that its round `0` is reached. -/
def records (K : Dev nD × CIx → ℕ) : sProp 𝕄 :=
  iprop((bigSep Finset.univ fun ck : Dev nD × CIx => cellInv ER (agRd m) (K ck) (kcell ck))
    ∗ bigSep Finset.univ fun ck : Dev nD × CIx => reached ER (kcell ck) 0)

instance records_persistent (K : Dev nD × CIx → ℕ) : BI.Persistent (records m K) := by unfold records; infer_instance

omit [FloatOps F] in
theorem inv_at (K : Dev nD × CIx → ℕ) (ck : Dev nD × CIx) : records m K ⊢ cellInv ER (agRd m) (K ck) (kcell ck) :=
  (show records m K ⊢ bigSep Finset.univ fun ck : Dev nD × CIx => cellInv ER (agRd m) (K ck) (kcell ck) from by
    unfold records; iintro ⟨#HI, -⟩; iexact HI).trans (bigSep_elim (Finset.mem_univ ck))
omit [FloatOps F] in
theorem reached_at (K : Dev nD × CIx → ℕ) (ck : Dev nD × CIx) : records m K ⊢ reached ER (kcell ck) 0 :=
  (show records m K ⊢ bigSep Finset.univ fun ck : Dev nD × CIx => reached ER (kcell ck) 0 from by
    unfold records; iintro ⟨-, #HR⟩; iexact HR).trans (bigSep_elim (Finset.mem_univ ck))

omit [FloatOps F] in
theorem inv_fam (K : Dev nD × CIx → ℕ) (d : Dev nD) (j : Fin 4) :
    records m K ⊢ bigSep Finset.univ fun k : Fin 16 => cellInv ER (agRd m) (K (d, iF j k)) (kcell (d, iF j k)) :=
  bigSep_intro_persistent fun k _ => inv_at m K (d, iF j k)
omit [FloatOps F] in
theorem reached_fam (K : Dev nD × CIx → ℕ) (d : Dev nD) (j : Fin 4) :
    records m K ⊢ bigSep Finset.univ fun k : Fin 16 => reached ER (kcell (d, iF j k)) 0 :=
  bigSep_intro_persistent fun k _ => reached_at m K (d, iF j k)

omit [FloatOps F] in
theorem invs_intro (K : Dev nD × CIx → ℕ) (c : Dev nD) : records m K ⊢ invs m K c := by
  unfold invs
  iintro #HR
  isplitr; · iapply (show records m K ⊢ cellInv ER (agRd m) (K (c, iBar)) (barCell c) from inv_at m K (c, iBar)); iexact HR
  isplitr; · iapply (show records m K ⊢ cellInv ER (agRd m) (K (xp c, iBar)) (barCell (xp c)) from inv_at m K (xp c, iBar)); iexact HR
  isplitr; · iapply (show records m K ⊢ cellInv ER (agRd m) (K (zp c, iBar)) (barCell (zp c)) from inv_at m K (zp c, iBar)); iexact HR
  isplitr; · iapply (show records m K ⊢ cellInv ER (agRd m) (K (c, iCp)) (cpCell c) from inv_at m K (c, iCp)); iexact HR
  isplitr; · iapply (show records m K ⊢ bigSep Finset.univ fun k : Fin 16 => cellInv ER (agRd m) (K (c, iF 0 k)) (xsCell c k) from inv_fam m K c 0); iexact HR
  isplitr; · iapply (show records m K ⊢ bigSep Finset.univ fun k : Fin 16 => cellInv ER (agRd m) (K (c, iF 1 k)) (xrCell c k) from inv_fam m K c 1); iexact HR
  isplitr; · iapply (show records m K ⊢ bigSep Finset.univ fun k : Fin 16 => cellInv ER (agRd m) (K (c, iF 2 k)) (zsCell c k) from inv_fam m K c 2); iexact HR
  isplitr; · iapply (show records m K ⊢ bigSep Finset.univ fun k : Fin 16 => cellInv ER (agRd m) (K (c, iF 3 k)) (zrCell c k) from inv_fam m K c 3); iexact HR
  isplitr; · iapply (show records m K ⊢ bigSep Finset.univ fun k : Fin 16 => cellInv ER (agRd m) (K (xp c, iF 1 k)) (xrCell (xp c) k) from inv_fam m K (xp c) 1); iexact HR
  iapply (show records m K ⊢ bigSep Finset.univ fun k : Fin 16 => cellInv ER (agRd m) (K (zp c, iF 3 k)) (zrCell (zp c) k) from inv_fam m K (zp c) 3); iexact HR

omit [FloatOps F] in
theorem reachs_intro (K : Dev nD × CIx → ℕ) (c : Dev nD) : records m K ⊢ reachs c := by
  unfold reachs
  iintro #HR
  isplitr; · iapply (show records m K ⊢ reached ER (barCell (xp c)) 0 from reached_at m K (xp c, iBar)); iexact HR
  isplitr; · iapply (show records m K ⊢ reached ER (barCell (zp c)) 0 from reached_at m K (zp c, iBar)); iexact HR
  isplitr; · iapply (show records m K ⊢ reached ER (cpCell c) 0 from reached_at m K (c, iCp)); iexact HR
  isplitr; · iapply (show records m K ⊢ bigSep Finset.univ fun k : Fin 16 => reached ER (xsCell c k) 0 from reached_fam m K c 0); iexact HR
  isplitr; · iapply (show records m K ⊢ bigSep Finset.univ fun k : Fin 16 => reached ER (zsCell c k) 0 from reached_fam m K c 2); iexact HR
  isplitr; · iapply (show records m K ⊢ bigSep Finset.univ fun k : Fin 16 => reached ER (xrCell (xp c) k) 0 from reached_fam m K (xp c) 1); iexact HR
  iapply (show records m K ⊢ bigSep Finset.univ fun k : Fin 16 => reached ER (zrCell (zp c) k) 0 from reached_fam m K (zp c) 3); iexact HR

omit [FloatOps F] in
theorem ghost_intro (K : Dev nD × CIx → ℕ) (c : Dev nD) : iprop(records m K ∗ poss c ∗ payToks c) ⊢ G' m c := by
  unfold G' ghost
  iintro ⟨#HR, Hp, Ht⟩
  iexists K
  isplitr; · iapply (invs_intro m K c); iexact HR
  isplitr; · iapply (reachs_intro m K c); iexact HR
  isplitl [Hp]; · iexact Hp
  iexact Ht

omit [FloatOps F] in
/-- A device's own cells' tokens, family by family. -/
theorem toks_eq (c : Dev nD) : (toks c : sProp 𝕄) = iprop(dutyTok ER (barCell c) 0 true ∗ dutyTok ER (barCell c) 0 false ∗ dutyTok ER (cpCell c) 0 false
    ∗ (bigSep Finset.univ fun k : Fin 16 => dutyTok ER (xsCell c k) 0 false) ∗ (bigSep Finset.univ fun k : Fin 16 => dutyTok ER (xrCell c k) 0 false)
    ∗ (bigSep Finset.univ fun k : Fin 16 => dutyTok ER (zsCell c k) 0 false) ∗ (bigSep Finset.univ fun k : Fin 16 => dutyTok ER (zrCell c k) 0 false)) := by
  unfold toks; rw [bigSep_CIx]; rfl

omit [FloatOps F] in
/-- The tokens dealt around: a barrier's `false` token and the first-receive tokens go to the partner across the first
    axis, its `true` token and the forwarded-receive tokens to the partner across the last; the rest stay. -/
theorem toks_around : (bigSep Finset.univ fun c : Dev nD => (toks c : sProp 𝕄)) ⊢ bigSep Finset.univ fun c : Dev nD => payToks c := by
  rw [bigSep_congr (s := Finset.univ) (fun (c : Dev nD) _ => toks_eq (F := F) c)]
  unfold payToks
  simp only [bigSep_sep']
  rw [bigSep_xp (fun c : Dev nD => (dutyTok ER (barCell c) 0 false : sProp 𝕄)),
    bigSep_zp (fun c : Dev nD => (dutyTok ER (barCell c) 0 true : sProp 𝕄)),
    bigSep_xp (fun c : Dev nD => bigSep Finset.univ fun k : Fin 16 => (dutyTok ER (xrCell c k) 0 false : sProp 𝕄)),
    bigSep_zp (fun c : Dev nD => bigSep Finset.univ fun k : Fin 16 => (dutyTok ER (zrCell c k) 0 false : sProp 𝕄))]
  iintro ⟨HbT, HbF, Hcp, Hxs, Hxr, Hzs, Hzr⟩
  isplitl [HbF]; · iexact HbF
  isplitl [HbT]; · iexact HbT
  isplitl [Hcp]; · iexact Hcp
  isplitl [Hxs]; · iexact Hxs
  isplitl [Hzs]; · iexact Hzs
  isplitl [Hxr]; · iexact Hxr
  iexact Hzr

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun i : CIx => iprop(∃ κ : ℕ, cellInv ER (agRd m) κ (kcell (c, i))))
          ∗ (bigSep Finset.univ fun i : CIx => iprop(atPos ER (kcell (c, i)) 0 ∅ 0 ∗ reached ER (kcell (c, i)) 0)) ∗ toks c) : sProp 𝕄)
      ⊢ bigSep Finset.univ (G' m) := by
  rw [bigSep_sep', bigSep_sep', ← bigSep_univ_prod (fun ck : Dev nD × CIx => iprop(∃ κ : ℕ, cellInv ER (agRd m) κ (kcell ck))),
    bigSep_congr (s := Finset.univ) (fun (c : Dev nD) _ => bigSep_sep' Finset.univ (fun i : CIx => (atPos ER (kcell (c, i)) 0 ∅ 0 : sProp 𝕄)) (fun i => reached ER (kcell (c, i)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER (agRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun i : CIx => (atPos ER (kcell (c, i)) 0 ∅ 0 : sProp 𝕄)) payToks).symm).trans
      (bigSep_mono fun c _ => show _ ⊢ iprop(poss c ∗ payToks c) from Entails.of_eq (by unfold poss; rw [bigSep_CIx]; rfl)))
    isplitl [Hat]; · iexact Hat
    iexact Htk

omit [FloatOps F] in
/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
theorem owedX_sum (d : Dev nD) : owedX d allK = ∑ k : Fin 16, (tallyAt (xrCell (xp d) k) () NC : CellTallies nD τ sig Unit) := by
  unfold owedX; rw [Fin.sum_univ_def]; rfl
omit [FloatOps F] in
theorem owedZ_sum (d : Dev nD) : owedZ d allK = ∑ k : Fin 16, (tallyAt (zrCell (zp d) k) () NC : CellTallies nD τ sig Unit) := by
  unfold owedZ; rw [Fin.sum_univ_def]; rfl

omit [FloatOps F] in
/-- What every device owes at launch, as one function of the device: the forwarded chunks, the first chunks, the unit
    to the partner across the last axis, the unit to the partner across the first. -/
theorem O₀_eq : (O₀ : Dev nD → CellTallies nD τ sig Unit) = fun d =>
    (((∑ k : Fin 16, (tallyAt (zrCell (zp d) k) () NC : CellTallies nD τ sig Unit)) + ∑ k : Fin 16, (tallyAt (xrCell (xp d) k) () NC : CellTallies nD τ sig Unit))
      + tallyAt (barCell (zp d)) () 1) + tallyAt (barCell (xp d)) () 1 :=
  funext fun d => by unfold O₀ O₁ O₂; rw [owedX_sum, owedZ_sum]

omit [FloatOps F] in
/-- Each partner map being a bijection of the devices, the units owed to the partners' cells come back as each device's
    own credit: two units on its barrier cell, a chunk's credit on each receive cell. -/
theorem creds_intro (c : Dev nD) : (Pipeline.launchCred O₀ c : sProp 𝕄) ⊢ creds c := by
  rw [O₀_eq, Pipeline.launchCred_add, Pipeline.launchCred_add, Pipeline.launchCred_add,
    Pipeline.launchCred_sum Finset.univ (fun (k : Fin 16) (d : Dev nD) => (tallyAt (zrCell (zp d) k) () NC : CellTallies nD τ sig Unit)) c,
    Pipeline.launchCred_sum Finset.univ (fun (k : Fin 16) (d : Dev nD) => (tallyAt (xrCell (xp d) k) () NC : CellTallies nD τ sig Unit)) c]
  unfold creds
  iintro ⟨⟨⟨HZ, HX⟩, HbZ⟩, HbX⟩
  ihave H1 := (Pipeline.launchCred_tallyAt (.reg barS) zp zp zp_zp zp_zp () 1 c) $$ HbZ
  ihave H2 := (Pipeline.launchCred_tallyAt (.reg barS) xp xp xp_xp xp_xp () 1 c) $$ HbX
  isplitl [H1 H2]
  · rw [← tallyAt_add (barCell c) () 1 1]
    iapply (cred_add _ _).2
    isplitl [H1] <;> iassumption
  isplitl [HX]
  · iapply (show (bigSep Finset.univ fun k : Fin 16 => Pipeline.launchCred (fun d => (tallyAt (xrCell (xp d) k) () NC : CellTallies nD τ sig Unit)) c : sProp 𝕄)
        ⊢ bigSep Finset.univ fun k : Fin 16 => cred (tallyAt (xrCell c k) () NC) from
      bigSep_mono fun (k : Fin 16) _ => Pipeline.launchCred_tallyAt (.dma (xrS k)) xp xp xp_xp xp_xp () NC c)
    iexact HX
  · iapply (show (bigSep Finset.univ fun k : Fin 16 => Pipeline.launchCred (fun d => (tallyAt (zrCell (zp d) k) () NC : CellTallies nD τ sig Unit)) c : sProp 𝕄)
        ⊢ bigSep Finset.univ fun k : Fin 16 => cred (tallyAt (zrCell c k) () NC) from
      bigSep_mono fun (k : Fin 16) _ => Pipeline.launchCred_tallyAt (.dma (zrS k)) zp zp zp_zp zp_zp () NC c)
    iexact HZ

/-! ### The theorem's side conditions -/

omit [FloatOps F] in
theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, -⟩
  iexact Hs

omit [FloatOps F] in
/-- The kernel's own cells at zero, family by family. -/
theorem ownSems0_eq (c : Dev nD) : (Pipeline.ownSems0 (Ix := Unit) (Name := ℕ) (U := UU) (Lvl := ℕ) (Val := Elt F) (τ := τ) osem c : sProp 𝕄)
    = iprop(semVal (cpCell c) 0 ∗ (bigSep Finset.univ fun k : Fin 16 => semVal (xsCell c k) 0) ∗ (bigSep Finset.univ fun k : Fin 16 => semVal (xrCell c k) 0)
      ∗ (bigSep Finset.univ fun k : Fin 16 => semVal (zsCell c k) 0) ∗ (bigSep Finset.univ fun k : Fin 16 => semVal (zrCell c k) 0)) := by
  unfold Pipeline.ownSems0
  rw [bigSep_sum', bigSep_univ_of_subsingleton (), bigSep_univ_prod, bigSep_univ_eq_bigSepL [(0 : Fin 4), 1, 2, 3] (by decide) (by decide)]
  rfl

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro H
  isplitr; · iempintro
  isplitl
  · iexact H
  · iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

set_option maxRecDepth 8000 in
/-- At the compiled mesh of eight devices, from any memory with zero counters: every weakly fair execution of @main
    terminates, and every final state has each windowed array at what the proof data compute for it. -/
theorem run_main (ρ : Dev nD → PrngReg)
    (hbody : ∀ c : Dev nD, BodyObligation (dats (F := F) m 0 c) (defs₀ (F := F)) 𝒱₀ () Set.univ) :
    θ_run (defs (F := F)) (onTc (τ := τ) (main (F := F))) ⟨m, fun _ => 0, ρ⟩
      (fun r => ∀ c : Dev nD, ∀ w : Fin cfg0.W,
        r.2.mem ((cfg0.win w).arr.view.loc (c : Thread nD τ)) = (dats m 0 c).arrAt w cfg0.N) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ag m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.KernelIdeal.AG.run_main' depends on axioms: [propext, Classical.choice, Quot.sound] -/
#guard_msgs in #print axioms run_main

end Cert.KernelIdeal.AG

end
-- ==== Proof.KernelIdeal.Final.lean ====
import proofs.«900660_g7700000000000661_dist_ag_v7x_xyz2x2x2_x_m1024_n512_f32_1_alg».proof.Proof.KernelIdeal.Ghost
import Idealize.ShloMosaic.Lib.Layout
import Idealize.ShloMosaic.Lib.Pipeline.Value

/-!
# The arrays after the run

The input array is a staged input window: it ends as it began. The result array is the one output window, flushed
whole at the one grid point: it ends holding what the body left in its staging buffer, `outAt m c`. When every device's
input is its block of ONE whole array `X` — block `c / 4` of two along the rows — every row `r` of `outAt m c` is row
`r % 1024` of block `r / 1024` of `X`, that is row `r` of `X`: the result is `X` on every device.
-/

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The input array after the run holds what it held. -/
theorem final_x (c : Dev nD) :
    (dats (F := F) m 0 c).arrAt (0 : Fin 2) cfg0.N = m ((cfg0.win (0 : Fin 2)).arr.view.loc (c : Thread nD τ)) :=
  (dats (F := F) m 0 c).arrAt_in (0 : Fin 2) rfl _

/-- The result array after the run holds the body's result. -/
theorem final_o (c : Dev nD) :
    (dats (F := F) m 0 c).arrAt (1 : Fin 2) cfg0.N = (outAt m c : Buf (Elt F) ((cfg0.win (1 : Fin 2)).arr.view.loc (c : Thread nD τ))) := by
  -- the one point's block of the result array starts at row 0, column 0: it is the whole array
  have hz : (fun a => win0_1.index t₀ a * main_v1.ty.shape.size a) = fun _ => 0 := funext fun a => by fin_cases a <;> decide
  have hr := fun f => Memref.read_access_unit_zero (Elt F) main_v1 hz (fun a => by rw [congrFun hz a]; simp) f
  -- the one point writes its block back
  have h := (dats (F := F) m 0 c).arrAt_succ (1 : Fin 2) t₀
  rw [show (cfg0.win (1 : Fin 2)).flush t₀ = true from by decide, if_pos rfl] at h
  have hN : cfg0.N = t₀.val + 1 := cfg0_N
  refine (congrArg ((dats (F := F) m 0 c).arrAt (1 : Fin 2)) hN).trans (h.trans ?_)
  -- an array read through its whole-array block is itself; the block written everywhere reads back as written
  refine (hr _).symm.trans ?_
  exact View.read_write_univ _ _

/-! ## The result against one whole array -/

/-- A device's block coordinate along the rows is its first mesh coordinate. -/
theorem meshLin_row (d : Dev nD) : Layout.meshLin [2, 2, 2] d.val [0] = d.val / 4 := by revert d; decide
theorem xp_row (c : Dev nD) : (xp c).val / 4 = 1 - c.val / 4 := by revert c; decide
theorem xpzp_row (c : Dev nD) : (xp (zp c)).val / 4 = 1 - c.val / 4 := by revert c; decide

/-- The device that supplies row `r` holds the block that row is in. -/
theorem srcDev_row (c : Dev nD) (r : ℕ) (hr : r < 2048) : (srcDev c r).val / 4 = r / 1024 := by
  have hc : c.val < 8 := c.isLt
  unfold srcDev
  split
  · omega
  · split
    · rw [xp_row]; omega
    · rw [xpzp_row]; omega

/-- If every device's input is its block of one whole array, every device's result is that array. -/
theorem outAt_whole (X : (⟨2, ![2048, 512]⟩ : Shape).Idx → Elt F .f32)
    (hblk : ∀ c : Dev nD, m ((c.tc : Thread nD τ).loc main_arg0)
      = Layout.blockN ⟨2, ![1024, 512]⟩ ⟨2, ![2048, 512]⟩ (Layout.meshBlock [2, 2, 2] ![[0], []] c) X)
    (c : Dev nD) : (outAt m c : S2048x512.Idx → Elt F .f32) = X := by
  -- the input window's one block starts at row 0, column 0: read through it, the input array is itself
  have hz : (fun a => win0_0.index t₀ a * main_arg0.ty.shape.size a) = fun _ => 0 := funext fun a => by fin_cases a <;> decide
  have hr := fun f => Memref.read_access_unit_zero (Elt F) main_arg0 hz (fun a => by rw [congrFun hz a]; simp) f
  have hx : ∀ d : Dev nD, (xstg m d : S1024x512.Idx → Elt F .f32)
      = Layout.blockN ⟨2, ![1024, 512]⟩ ⟨2, ![2048, 512]⟩ (Layout.meshBlock [2, 2, 2] ![[0], []] d) X := fun d => by
    rw [← hblk d]; exact hr _
  funext i
  have hi : (i 0).val < 2048 := (i 0).isLt
  show (xstg m (srcDev c (i 0).val) : S1024x512.Idx → Elt F .f32) (blkIdx i) = X i
  rw [hx, Layout.blockN_apply]
  congr 1
  funext a
  apply Fin.ext
  rw [Layout.TilesN.idx_val, Layout.meshBlock_val]
  match a with
  | ⟨0, _⟩ =>
    show Layout.meshLin [2, 2, 2] (srcDev c (i 0).val).val [0] * 1024 + (i 0).val % 1024 = (i 0).val
    rw [meshLin_row, srcDev_row c _ hi]; omega
  | ⟨1, _⟩ =>
    show 0 * 512 + (i 1).val = (i 1).val
    omega

/-! ## Axioms -/

/-- info: 'Cert.KernelIdeal.AG.final_x' depends on axioms: [propext, Classical.choice, Quot.sound] -/
#guard_msgs in #print axioms final_x
/-- info: 'Cert.KernelIdeal.AG.final_o' depends on axioms: [propext, Classical.choice, Quot.sound] -/
#guard_msgs in #print axioms final_o
/-- info: 'Cert.KernelIdeal.AG.outAt_whole' depends on axioms: [propext, Classical.choice, Quot.sound] -/
#guard_msgs in #print axioms outAt_whole

end Cert.KernelIdeal.AG

end
-- ==== Proof.Kernel.Prog.lean ====
import proofs.«900660_g7700000000000661_dist_ag_v7x_xyz2x2x2_x_m1024_n512_f32_1_alg».proof.Proof.Gen.Kernel

/-!
# The kernel's body as a structured program

The printed body unrolls sixteen chunks of thirty-two rows. Read chunk by chunk it is: the entry handshake on the
barrier semaphore (a unit to the neighbour across the first mesh axis, a unit to the neighbour across the last, a wait
for two); sixteen sends of this device's half-block to the first neighbour's result buffer; one local copy of the whole
block into this device's own result buffer; sixteen times "wait for the first neighbour's chunk to land, forward it to
the second neighbour"; sixteen waits for the second neighbour's forwarded chunks; sixteen times the two send
completions; the local copy's completion. Here that reading is a program of its own, over lists of chunk numbers,
and the printed body is shown equal to it by unfolding.
-/

noncomputable section

namespace Cert.Kernel.AG

open Cert.Kernel Cert.Kernel.Gen
open Idealize.ShloMosaic Idealize.SL.Sem

variable {F : FTy → Type} [FloatOps F]

/-- Chunk numbers, in program order. -/
def allK : List (Fin 16) := [0, 1, 2, 3, 4, 5, 6, 7, 8, 9, 10, 11, 12, 13, 14, 15]

theorem inbS (k : Fin 16) : ∀ a, (![k.val] : Fin 1 → Nat) a + S1.size a ≤ S16.size a := by
  intro a; fin_cases a; show k.val + 1 ≤ 16; omega

/-- Semaphore `k` of an array of sixteen. -/
abbrev semAt (a : DmaSems sig S16) (k : Fin 16) : DmaSems sig S_ :=
  (a.slice (Rect.unit (s := S16) ![k.val] S1.size (inbS k))).squeeze S_ squeezes_S1_S_

/-- The word `32·k`. -/
abbrev wordK (k : Fin 16) : BitVec 32 := BitVec.ofNat 32 (32 * k.val)

/-- Rows `[1024·x + 512·z + 32·k, +32)` of a result buffer: where this device's chunk `k` lands on the first neighbour. -/
abbrev outX (arg1 : Memref sig .tc .vmem S2048x512 .f32) (d0 : Dev nD) (k : Fin 16) : Memref sig .tc .vmem S32x512 .f32 :=
  arg1.slice (Rect.unit (s := S2048x512) (k0_off1 d0 (wordK k)) S32x512.size (k0_off1_inb d0 k)) (fun _ => rfl)
/-- Rows `[512·z + 32·k, +32)` of this device's block: chunk `k` of the half it sends. -/
abbrev srcX (arg0 : Memref sig .tc .vmem S1024x512 .f32) (d0 : Dev nD) (k : Fin 16) : Memref sig .tc .vmem S32x512 .f32 :=
  arg0.slice (Rect.unit (s := S1024x512) (k0_off2 d0 (wordK k)) S32x512.size (k0_off2_inb d0 k)) (fun _ => rfl)
/-- Rows `[1024·(1−x) + 512·z + 32·k, +32)` of a result buffer: where the first neighbour's chunk `k` lands here, and where it is forwarded to on the second neighbour. -/
abbrev outZ (arg1 : Memref sig .tc .vmem S2048x512 .f32) (d0 : Dev nD) (k : Fin 16) : Memref sig .tc .vmem S32x512 .f32 :=
  arg1.slice (Rect.unit (s := S2048x512) (k0_off4 d0 (wordK k)) S32x512.size (k0_off4_inb d0 k)) (fun _ => rfl)
/-- Rows `[1024·x, +1024)` of this device's result buffer: its own block. -/
abbrev outL (arg1 : Memref sig .tc .vmem S2048x512 .f32) (d0 : Dev nD) : Memref sig .tc .vmem S1024x512 .f32 :=
  arg1.slice (Rect.unit (s := S2048x512) (k0_off3 d0) S1024x512.size (k0_off3_inb d0)) (fun _ => rfl)

/-- The device chunk `k`'s first send addresses, as the kernel computes it (one printed chain per chunk). -/
def devX (d0 : Dev nD) (k : Fin 16) : Dev nD := (![⟨k0_dev3 d0, k0_dev3_lt d0⟩, ⟨k0_dev4 d0, k0_dev4_lt d0⟩, ⟨k0_dev5 d0, k0_dev5_lt d0⟩, ⟨k0_dev6 d0, k0_dev6_lt d0⟩, ⟨k0_dev7 d0, k0_dev7_lt d0⟩, ⟨k0_dev8 d0, k0_dev8_lt d0⟩, ⟨k0_dev9 d0, k0_dev9_lt d0⟩, ⟨k0_dev10 d0, k0_dev10_lt d0⟩, ⟨k0_dev11 d0, k0_dev11_lt d0⟩, ⟨k0_dev12 d0, k0_dev12_lt d0⟩, ⟨k0_dev13 d0, k0_dev13_lt d0⟩, ⟨k0_dev14 d0, k0_dev14_lt d0⟩, ⟨k0_dev15 d0, k0_dev15_lt d0⟩, ⟨k0_dev16 d0, k0_dev16_lt d0⟩, ⟨k0_dev17 d0, k0_dev17_lt d0⟩, ⟨k0_dev18 d0, k0_dev18_lt d0⟩] : Fin 16 → Dev nD) k
/-- The device chunk `k`'s forwarding send addresses. -/
def devZ (d0 : Dev nD) (k : Fin 16) : Dev nD := (![⟨k0_dev19 d0, k0_dev19_lt d0⟩, ⟨k0_dev20 d0, k0_dev20_lt d0⟩, ⟨k0_dev21 d0, k0_dev21_lt d0⟩, ⟨k0_dev22 d0, k0_dev22_lt d0⟩, ⟨k0_dev23 d0, k0_dev23_lt d0⟩, ⟨k0_dev24 d0, k0_dev24_lt d0⟩, ⟨k0_dev25 d0, k0_dev25_lt d0⟩, ⟨k0_dev26 d0, k0_dev26_lt d0⟩, ⟨k0_dev27 d0, k0_dev27_lt d0⟩, ⟨k0_dev28 d0, k0_dev28_lt d0⟩, ⟨k0_dev29 d0, k0_dev29_lt d0⟩, ⟨k0_dev30 d0, k0_dev30_lt d0⟩, ⟨k0_dev31 d0, k0_dev31_lt d0⟩, ⟨k0_dev32 d0, k0_dev32_lt d0⟩, ⟨k0_dev33 d0, k0_dev33_lt d0⟩, ⟨k0_dev34 d0, k0_dev34_lt d0⟩] : Fin 16 → Dev nD) k

abbrev P := Prog (TpuEff nD τ sig (Elt F) Λ₀ .tc) PUnit

/-- The sends of this device's half-block, chunk by chunk. -/
def xsends (arg0 : Memref sig .tc .vmem S1024x512 .f32) (arg1 : Memref sig .tc .vmem S2048x512 .f32) (arg3 arg4 : DmaSems sig S16) (d0 : Dev nD) :
    List (Fin 16) → P (F := F)
  | [] => pure ⟨⟩
  | k :: ks => do
    Prog.lift (.enqueueDma (srcX arg0 d0 k) (.remote (Dev.tc (devX d0 k)) (outX arg1 d0 k) (.dma (semAt arg3 k).sem)) (.dma (semAt arg4 k).sem) (View.wordExact_bits rfl) (View.wordExact_bits rfl) ⟨⟨rfl, Or.inl rfl⟩, trivial⟩)
    xsends arg0 arg1 arg3 arg4 d0 ks

/-- Per chunk: wait for the first neighbour's chunk, forward it to the second neighbour. -/
def forwards (arg0 : Memref sig .tc .vmem S1024x512 .f32) (arg1 : Memref sig .tc .vmem S2048x512 .f32) (arg4 arg5 arg6 : DmaSems sig S16) (d0 : Dev nD) :
    List (Fin 16) → P (F := F)
  | [] => pure ⟨⟩
  | k :: ks => do
    Prog.lift (.waitDma2 (semAt arg4 k).sem (srcX arg0 d0 k) (outX arg1 d0 k) (View.wordExact_bits rfl) (View.wordExact_bits rfl))
    Prog.lift (.enqueueDma (outZ arg1 d0 k) (.remote (Dev.tc (devZ d0 k)) (outZ arg1 d0 k) (.dma (semAt arg5 k).sem)) (.dma (semAt arg6 k).sem) (View.wordExact_bits rfl) (View.wordExact_bits rfl) ⟨⟨rfl, Or.inl rfl⟩, trivial⟩)
    forwards arg0 arg1 arg4 arg5 arg6 d0 ks

/-- The waits for the second neighbour's forwarded chunks. -/
def zwaits (arg1 : Memref sig .tc .vmem S2048x512 .f32) (arg6 : DmaSems sig S16) (d0 : Dev nD) :
    List (Fin 16) → P (F := F)
  | [] => pure ⟨⟩
  | k :: ks => do
    Prog.lift (.waitDma2 (semAt arg6 k).sem (outZ arg1 d0 k) (outZ arg1 d0 k) (View.wordExact_bits rfl) (View.wordExact_bits rfl))
    zwaits arg1 arg6 d0 ks

/-- Per chunk, the two send completions. -/
def swaits (arg0 : Memref sig .tc .vmem S1024x512 .f32) (arg1 : Memref sig .tc .vmem S2048x512 .f32) (arg3 arg5 : DmaSems sig S16) (d0 : Dev nD) :
    List (Fin 16) → P (F := F)
  | [] => pure ⟨⟩
  | k :: ks => do
    Prog.lift (.waitDma2 (semAt arg3 k).sem (outX arg1 d0 k) (srcX arg0 d0 k) (View.wordExact_bits rfl) (View.wordExact_bits rfl))
    Prog.lift (.waitDma2 (semAt arg5 k).sem (outZ arg1 d0 k) (outZ arg1 d0 k) (View.wordExact_bits rfl) (View.wordExact_bits rfl))
    swaits arg0 arg1 arg3 arg5 d0 ks

/-- The body, chunk by chunk. -/
def bodyS (arg0 : Memref sig .tc .vmem S1024x512 .f32) (harg0 : arg0.IsWhole) (arg1 : Memref sig .tc .vmem S2048x512 .f32) (harg1 : arg1.IsWhole)
    (arg2 : DmaSems sig S_) (arg3 arg4 arg5 arg6 : DmaSems sig S16) : P (F := F) := do
  let d0 : Dev nD ← Prog.lift .deviceId
  let bar : Sems sig S_ := SemArray.scalar (sig.barrier 0 rfl)
  semSignalWord (⟨k0_dev1 d0, k0_dev1_lt d0⟩ : Dev nD) bar.sem 1#32 hamt_1
  semSignalWord (⟨k0_dev2 d0, k0_dev2_lt d0⟩ : Dev nD) bar.sem 1#32 hamt_1
  semWaitWord bar.sem 2#32 hamt_2
  xsends arg0 arg1 arg3 arg4 d0 allK
  Prog.lift (.enqueueDma arg0 (.here (outL arg1 d0)) (.dma arg2.sem) harg0.wordExact (View.wordExact_bits rfl) ⟨Or.inl rfl, trivial⟩)
  forwards arg0 arg1 arg4 arg5 arg6 d0 allK
  zwaits arg1 arg6 d0 allK
  swaits arg0 arg1 arg3 arg5 d0 allK
  Prog.lift (.waitDma2 arg2.sem arg0 (outL arg1 d0) harg0.wordExact (View.wordExact_bits rfl))
  pure ⟨⟩

set_option maxRecDepth 200000 in
/-- The printed body is the chunk-by-chunk program, by unfolding. -/
theorem body_eq (arg0 : Memref sig .tc .vmem S1024x512 .f32) (harg0 : arg0.IsWhole) (arg1 : Memref sig .tc .vmem S2048x512 .f32) (harg1 : arg1.IsWhole)
    (arg2 : DmaSems sig S_) (arg3 arg4 arg5 arg6 : DmaSems sig S16) :
    cc0_body (F := F) arg0 harg0 arg1 harg1 arg2 arg3 arg4 arg5 arg6 = bodyS arg0 harg0 arg1 harg1 arg2 arg3 arg4 arg5 arg6 := rfl

end Cert.Kernel.AG

end
-- ==== Proof.Kernel.Cells.lean ====
import proofs.«900660_g7700000000000661_dist_ag_v7x_xyz2x2x2_x_m1024_n512_f32_1_alg».proof.Proof.Kernel.Prog
import proofs.«900660_g7700000000000661_dist_ag_v7x_xyz2x2x2_x_m1024_n512_f32_1_alg».proof.Proof.Gen.Kernel.Launch
import Idealize.ShloMosaic.Lib.Pipeline.Launch
import Idealize.ShloMosaic.Lib.Pipeline.Kit
import Idealize.ShloMosaic.Lib.Tactic

/-!
# The all-gather's protocol: neighbours, cells, contents, schedule

Device `c` sits at mesh coordinates `(x, y, z) = (c / 4, c / 2 % 2, c % 2)`. Its two partners are `xp c` (the other
`x`) and `zp c` (the other `z`); both maps are involutions and they commute. Whole `x` has 2048 rows; device `c`
holds rows `[1024·x, +1024)`. The result buffer of `c` is filled from three sources:

* rows `[1024·x, +1024)`: its own block, by one local copy;
* rows `[1024·(1−x) + 512·z, +512)`: the `z`-th half of `xp c`'s block, sent by `xp c` in sixteen chunks;
* rows `[1024·(1−x) + 512·(1−z), +512)`: the other half of that block, which `zp c` received from `xp (zp c)` and
  forwards, chunk by chunk.

Every semaphore has one payer. The barrier semaphore of `c` gets one unit from `xp c` and one from `zp c`; with its
unit each partner hands `c` the part of ITS result buffer that `c` is going to write.
-/

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The two partners -/

/-- The device with the other first coordinate. -/
def xp (c : Dev nD) : Dev nD := ⟨(c.val + 4) % 8, Nat.mod_lt _ (by decide)⟩
/-- The device with the other last coordinate. -/
def zp (c : Dev nD) : Dev nD := ⟨c.val + 1 - 2 * (c.val % 2), by have : c.val < 8 := c.isLt; show c.val + 1 - 2 * (c.val % 2) < 8; omega⟩

theorem xp_xp (c : Dev nD) : xp (xp c) = c := by revert c; decide
theorem zp_zp (c : Dev nD) : zp (zp c) = c := by revert c; decide
theorem xp_zp (c : Dev nD) : xp (zp c) = zp (xp c) := by revert c; decide
theorem xp_ne (c : Dev nD) : xp c ≠ c := by revert c; decide
theorem zp_ne (c : Dev nD) : zp c ≠ c := by revert c; decide
theorem xp_ne_zp (c : Dev nD) : xp c ≠ zp c := by revert c; decide

def xpE : Dev nD ≃ Dev nD := ⟨xp, xp, xp_xp, xp_xp⟩
def zpE : Dev nD ≃ Dev nD := ⟨zp, zp, zp_zp, zp_zp⟩

/-- The kernel's device chains: the first signal and every first send name `xp c`, the second signal and every
    forwarding send `zp c`. -/
theorem dev1_eq (c : Dev nD) : (⟨k0_dev1 c, k0_dev1_lt c⟩ : Dev nD) = xp c := by revert c; decide +kernel
theorem dev2_eq (c : Dev nD) : (⟨k0_dev2 c, k0_dev2_lt c⟩ : Dev nD) = zp c := by revert c; decide +kernel
theorem devX_eq (c : Dev nD) (k : Fin 16) : devX c k = xp c := by revert c k; decide +kernel
theorem devZ_eq (c : Dev nD) (k : Fin 16) : devZ c k = zp c := by revert c k; decide +kernel

/-! ## Memrefs, semaphores, cells -/

abbrev xM : Memref sig .tc .vmem S1024x512 .f32 := Memref.whole cc0_stg0_0
abbrev oM : Memref sig .tc .vmem S2048x512 .f32 := Memref.whole cc0_stg1_0

abbrev barS : Sem sig := (SemArray.scalar (sig.barrier 0 rfl) : Sems sig S_).sem
abbrev cpS : DmaSem sig := cc0_scratch0.sem
abbrev xsS (k : Fin 16) : DmaSem sig := (semAt cc0_scratch1 k).sem
abbrev xrS (k : Fin 16) : DmaSem sig := (semAt cc0_scratch2 k).sem
abbrev zsS (k : Fin 16) : DmaSem sig := (semAt cc0_scratch3 k).sem
abbrev zrS (k : Fin 16) : DmaSem sig := (semAt cc0_scratch4 k).sem

theorem cpS_val : (cpS : DmaSem sig).val = 2 := by decide
theorem xsS_val (k : Fin 16) : (xsS k).val = 3 + k.val := by revert k; decide
theorem xrS_val (k : Fin 16) : (xrS k).val = 19 + k.val := by revert k; decide
theorem zsS_val (k : Fin 16) : (zsS k).val = 35 + k.val := by revert k; decide
theorem zrS_val (k : Fin 16) : (zrS k).val = 51 + k.val := by revert k; decide

abbrev barCell (c : Dev nD) : GSem nD τ sig := ((c : Thread nD τ), .reg barS)
abbrev cpCell (c : Dev nD) : GSem nD τ sig := ((c : Thread nD τ), .dma cpS)
abbrev xsCell (c : Dev nD) (k : Fin 16) : GSem nD τ sig := ((c : Thread nD τ), .dma (xsS k))
abbrev xrCell (c : Dev nD) (k : Fin 16) : GSem nD τ sig := ((c : Thread nD τ), .dma (xrS k))
abbrev zsCell (c : Dev nD) (k : Fin 16) : GSem nD τ sig := ((c : Thread nD τ), .dma (zsS k))
abbrev zrCell (c : Dev nD) (k : Fin 16) : GSem nD τ sig := ((c : Thread nD τ), .dma (zrS k))

/-- The credit of a 32-row chunk and of a 1024-row block. -/
abbrev NC : ℕ := (outZ oM (0 : Dev nD) 0).view.dmaCredit
abbrev NL : ℕ := (outL oM (0 : Dev nD)).view.dmaCredit
theorem NC_pos : 0 < NC := View.dmaCredit_pos _ (by decide)
theorem NL_pos : 0 < NL := View.dmaCredit_pos _ (by decide)

/-! ## Contents -/

/-- Device `c`'s block of `x`, as its input staging buffer holds it. -/
def xstg (c : Dev nD) : (cc0_stg0_0 : Ref sig .tc).ty.Contents (Elt F) :=
  (win0_0.blk (0 : Fin 1)).view.read (Elt F) (m ((c : Thread nD τ).loc main_arg0))

/-- The device whose block supplies row `r` of `c`'s result. -/
def srcDev (c : Dev nD) (r : ℕ) : Dev nD :=
  if r / 1024 = c.val / 4 then c else if r % 1024 / 512 = c.val % 2 then xp c else xp (zp c)

/-- The row of a block that row `r` of the result is. -/
def blkIdx (i : S2048x512.Idx) : S1024x512.Idx :=
  fun a => match a with
    | ⟨0, _⟩ => ⟨(i 0).val % 1024, Nat.mod_lt _ (by decide)⟩
    | ⟨1, _⟩ => ⟨(i 1).val, (i 1).isLt⟩

/-- What the kernel leaves in device `c`'s result buffer: row `r` is row `r % 1024` of the block of `srcDev c r`. -/
def outAt (c : Dev nD) : (cc0_stg1_0 : Ref sig .tc).ty.Contents (Elt F) :=
  fun i => (xstg m (srcDev c (i 0).val) : S1024x512.Idx → Elt F .f32) (blkIdx i)

end Cert.Kernel.AG

end
-- ==== Proof.Kernel.Sched.lean ====
import proofs.«900660_g7700000000000661_dist_ag_v7x_xyz2x2x2_x_m1024_n512_f32_1_alg».proof.Proof.Kernel.Cells

/-!
# The schedule of the all-gather's cells

One round per cell. A barrier cell has two duties of one unit: `false`, paid by `xp c`, which hands over the
sixteen chunks of `xp c`'s result buffer that `c` will write; `true`, paid by `zp c`, likewise for the chunks
`c` forwards into. Every DMA cell has the one duty `false`: a receive cell's landing hands its owner the chunk at its
final contents, a send cell's completion hands the sender its source back, the local copy's both.
-/

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The elements a view places on device `c`, held at share `q` with contents `f`. -/
def vpts {s : Shape} (c : Dev nD) (v : Memref sig .tc .vmem s .f32) (q : PosShare TreeShare)
    (f : Buf (Elt F) (v.view.loc (c : Thread nD τ))) : sProp 𝕄 :=
  v.view.loc (c : Thread nD τ) ↦[v.view.set]{q} f

/-! ## Payloads -/

/-- With its unit on `c`'s barrier, `xp c` hands over the chunks of its own result buffer that `c` sends into. -/
def barPayX (c : Dev nD) : sProp 𝕄 := bigSep Finset.univ fun k : Fin 16 => iprop(∃ f, vpts (xp c) (outZ oM (xp c) k) fullShare f)
/-- With its unit, `zp c` hands over the chunks of its own result buffer that `c` forwards into. -/
def barPayZ (c : Dev nD) : sProp 𝕄 := bigSep Finset.univ fun k : Fin 16 => iprop(∃ f, vpts (zp c) (outZ oM c k) fullShare f)
/-- The local copy done: the own block in place, and the share of the input it read. -/
def cpPay (c : Dev nD) : sProp 𝕄 := iprop(vpts c (outL oM c) fullShare (outAt m c) ∗ vpts c xM fullShare.left (xstg m c))
/-- A first send read out: the share of the input chunk it read. -/
def xsPay (c : Dev nD) (k : Fin 16) : sProp 𝕄 := vpts c (srcX xM c k) fullShare.right (xstg m c)
/-- `xp c`'s chunk `k` landed. -/
def xrPay (c : Dev nD) (k : Fin 16) : sProp 𝕄 := vpts c (outZ oM c k) fullShare (outAt m c)
/-- The forwarding send read out: the chunk it forwarded, back. -/
def zsPay (c : Dev nD) (k : Fin 16) : sProp 𝕄 := vpts c (outZ oM c k) fullShare (outAt m c)
/-- `zp c`'s forwarded chunk `k` landed. -/
def zrPay (c : Dev nD) (k : Fin 16) : sProp 𝕄 := vpts c (outZ oM (zp c) k) fullShare (outAt m c)

/-- The chunk number of a DMA semaphore of one of the four arrays of sixteen. -/
def kOf (q : DmaSem sig) : Fin 16 := ⟨(q.val + 13) % 16, Nat.mod_lt _ (by decide)⟩
theorem kOf_xs (k : Fin 16) : kOf (xsS k) = k := by revert k; decide
theorem kOf_xr (k : Fin 16) : kOf (xrS k) = k := by revert k; decide
theorem kOf_zs (k : Fin 16) : kOf (zsS k) = k := by revert k; decide
theorem kOf_zr (k : Fin 16) : kOf (zrS k) = k := by revert k; decide

/-! ## The schedule -/

def agRd : Rounds.Schedule (GSem nD τ sig) Bool 𝕄 where
  duties g r := if r = 0 ∧ g.1.2 = .tc then
      (match g.2 with
        | .reg s => if s = barS then Finset.univ else ∅
        | .dma q => if 2 ≤ q.val then {false} else ∅)
    else ∅
  unitless _ := False
  amount g _ _ := match g.2 with
    | .reg _ => 1
    | .dma q => if q.val = 2 then NL else NC
  payload g _ d := match g.2 with
    | .reg _ => if d then barPayZ g.1.1 else barPayX g.1.1
    | .dma q => if q.val = 2 then cpPay m g.1.1 else if q.val < 19 then xsPay m g.1.1 (kOf q)
        else if q.val < 35 then xrPay m g.1.1 (kOf q) else if q.val < 51 then zsPay m g.1.1 (kOf q) else zrPay m g.1.1 (kOf q)
  amount_pos g _ _ _ := by
    rcases g with ⟨t, sm⟩
    cases sm with
    | reg s => exact Nat.one_pos
    | dma q => dsimp only; split
               · exact NL_pos
               · exact NC_pos

instance agRd_payload_storable (g : GSem nD τ sig) (r : ℕ) (d : Bool) :
    BI.Storable (upEmb : UEmb _ 𝕄) ((agRd (F := F) m).payload g r d) := by
  rcases g with ⟨t, sm⟩
  cases sm with
  | reg s => dsimp only [agRd]; unfold barPayZ barPayX vpts; split <;> infer_instance
  | dma q => dsimp only [agRd]; unfold cpPay xsPay xrPay zsPay zrPay vpts; (repeat' split) <;> infer_instance

omit [FloatOps F] in
/-- A cell whose round `0` has the one duty `false` expects that duty's amount. Stated at a variable cell, so that
    checking an instance compares types and evaluates nothing. -/
theorem expect_of_single (g : GSem nD τ sig) (N : ℕ) (hd : (agRd (F := F) m).duties g 0 = {false})
    (ha : (agRd (F := F) m).amount g 0 false = N) : (agRd (F := F) m).expect g 0 = N :=
  (show (agRd (F := F) m).expect g 0 = ∑ d ∈ (agRd (F := F) m).duties g 0, (agRd (F := F) m).amount g 0 d from rfl).trans
    ((congrArg (fun B : Finset Bool => ∑ d ∈ B, (agRd (F := F) m).amount g 0 d) hd).trans ((Finset.sum_singleton _ _).trans ha))

omit [FloatOps F] in
/-- The rest of such a cell's round, no duty taken, is that duty's payload. -/
theorem rest_of_single (g : GSem nD τ sig) (P : sProp 𝕄) (hd : (agRd (F := F) m).duties g 0 = {false})
    (hp : (agRd (F := F) m).payload g 0 false = P) :
    bigSep ((agRd (F := F) m).duties g 0 \ ∅) (fun d => (agRd (F := F) m).payload g 0 d) = P := by
  rw [Finset.sdiff_empty, hd, bigSep_singleton, hp]

section Tables
variable (c : Dev nD) (k : Fin 16)

omit [FloatOps F] in
theorem duties_bar : (agRd (F := F) m).duties (barCell c) 0 = Finset.univ := by
  dsimp only [agRd]; rw [if_pos ⟨rfl, rfl⟩]; exact if_pos rfl
omit [FloatOps F] in
theorem duties_cp : (agRd (F := F) m).duties (cpCell c) 0 = {false} := by
  dsimp only [agRd]; rw [if_pos ⟨rfl, rfl⟩]; exact if_pos (by decide)
omit [FloatOps F] in
theorem duties_xs : (agRd (F := F) m).duties (xsCell c k) 0 = {false} := by
  dsimp only [agRd]; rw [if_pos ⟨rfl, rfl⟩]; exact if_pos (by rw [xsS_val]; omega)
omit [FloatOps F] in
theorem duties_xr : (agRd (F := F) m).duties (xrCell c k) 0 = {false} := by
  dsimp only [agRd]; rw [if_pos ⟨rfl, rfl⟩]; exact if_pos (by rw [xrS_val]; omega)
omit [FloatOps F] in
theorem duties_zs : (agRd (F := F) m).duties (zsCell c k) 0 = {false} := by
  dsimp only [agRd]; rw [if_pos ⟨rfl, rfl⟩]; exact if_pos (by rw [zsS_val]; omega)
omit [FloatOps F] in
theorem duties_zr : (agRd (F := F) m).duties (zrCell c k) 0 = {false} := by
  dsimp only [agRd]; rw [if_pos ⟨rfl, rfl⟩]; exact if_pos (by rw [zrS_val]; omega)
omit [FloatOps F] in
theorem duties_later (g : GSem nD τ sig) : ∀ r, 1 ≤ r → (agRd (F := F) m).duties g r = ∅ :=
  fun r hr => by dsimp only [agRd]; rw [if_neg fun h => by omega]

omit [FloatOps F] in
theorem amount_bar (d : Bool) : (agRd (F := F) m).amount (barCell c) 0 d = 1 := rfl
omit [FloatOps F] in
theorem amount_cp (d : Bool) : (agRd (F := F) m).amount (cpCell c) 0 d = NL := by dsimp only [agRd]; exact if_pos cpS_val
omit [FloatOps F] in
theorem amount_xs (d : Bool) : (agRd (F := F) m).amount (xsCell c k) 0 d = NC := by
  dsimp only [agRd]; exact if_neg (by rw [xsS_val]; omega)
omit [FloatOps F] in
theorem amount_xr (d : Bool) : (agRd (F := F) m).amount (xrCell c k) 0 d = NC := by
  dsimp only [agRd]; exact if_neg (by rw [xrS_val]; omega)
omit [FloatOps F] in
theorem amount_zs (d : Bool) : (agRd (F := F) m).amount (zsCell c k) 0 d = NC := by
  dsimp only [agRd]; exact if_neg (by rw [zsS_val]; omega)
omit [FloatOps F] in
theorem amount_zr (d : Bool) : (agRd (F := F) m).amount (zrCell c k) 0 d = NC := by
  dsimp only [agRd]; exact if_neg (by rw [zrS_val]; omega)

omit [FloatOps F] in
theorem expect_bar : (agRd (F := F) m).expect (barCell c) 0 = 2 := by
  unfold Schedule.expect Schedule.amountOf
  rw [duties_bar, Finset.sum_congr rfl fun d _ => amount_bar m c d, Finset.sum_const, Finset.card_univ, Fintype.card_bool, smul_eq_mul]
omit [FloatOps F] in
theorem expect_cp : (agRd (F := F) m).expect (cpCell c) 0 = NL :=
  expect_of_single m (cpCell c) NL (duties_cp m c) (amount_cp m c false)
omit [FloatOps F] in
theorem expect_xs : (agRd (F := F) m).expect (xsCell c k) 0 = NC :=
  expect_of_single m (xsCell c k) NC (duties_xs m c k) (amount_xs m c k false)
omit [FloatOps F] in
theorem expect_xr : (agRd (F := F) m).expect (xrCell c k) 0 = NC :=
  expect_of_single m (xrCell c k) NC (duties_xr m c k) (amount_xr m c k false)
omit [FloatOps F] in
theorem expect_zs : (agRd (F := F) m).expect (zsCell c k) 0 = NC :=
  expect_of_single m (zsCell c k) NC (duties_zs m c k) (amount_zs m c k false)
omit [FloatOps F] in
theorem expect_zr : (agRd (F := F) m).expect (zrCell c k) 0 = NC :=
  expect_of_single m (zrCell c k) NC (duties_zr m c k) (amount_zr m c k false)

omit [FloatOps F] in
theorem payload_bar_false : (agRd (F := F) m).payload (barCell c) 0 false = barPayX c := by
  dsimp only [agRd]; exact if_neg Bool.false_ne_true
omit [FloatOps F] in
theorem payload_bar_true : (agRd (F := F) m).payload (barCell c) 0 true = barPayZ c := by
  dsimp only [agRd]; exact if_pos rfl
omit [FloatOps F] in
theorem payload_cp (d : Bool) : (agRd (F := F) m).payload (cpCell c) 0 d = cpPay m c := by
  dsimp only [agRd]; exact if_pos cpS_val
omit [FloatOps F] in
theorem payload_xs (d : Bool) : (agRd (F := F) m).payload (xsCell c k) 0 d = xsPay m c k := by
  dsimp only [agRd]; rw [if_neg (by rw [xsS_val]; omega), if_pos (by rw [xsS_val]; omega), kOf_xs]
omit [FloatOps F] in
theorem payload_xr (d : Bool) : (agRd (F := F) m).payload (xrCell c k) 0 d = xrPay m c k := by
  dsimp only [agRd]; rw [if_neg (by rw [xrS_val]; omega), if_neg (by rw [xrS_val]; omega), if_pos (by rw [xrS_val]; omega), kOf_xr]
omit [FloatOps F] in
theorem payload_zs (d : Bool) : (agRd (F := F) m).payload (zsCell c k) 0 d = zsPay m c k := by
  dsimp only [agRd]
  rw [if_neg (by rw [zsS_val]; omega), if_neg (by rw [zsS_val]; omega), if_neg (by rw [zsS_val]; omega), if_pos (by rw [zsS_val]; omega), kOf_zs]
omit [FloatOps F] in
theorem payload_zr (d : Bool) : (agRd (F := F) m).payload (zrCell c k) 0 d = zrPay m c k := by
  dsimp only [agRd]
  rw [if_neg (by rw [zrS_val]; omega), if_neg (by rw [zrS_val]; omega), if_neg (by rw [zrS_val]; omega), if_neg (by rw [zrS_val]; omega), kOf_zr]

omit [FloatOps F] in
/-- The rest of a barrier cell's round, no duty taken: both partners' chunks. -/
theorem rest_bar : bigSep ((agRd (F := F) m).duties (barCell c) 0 \ ∅) (fun d => (agRd (F := F) m).payload (barCell c) 0 d) = iprop(barPayX c ∗ barPayZ c) := by
  rw [Finset.sdiff_empty, duties_bar, bigSep_univ_eq_bigSepL [false, true] (by decide) (by decide), bigSepL_cons_cons, bigSepL_singleton,
    payload_bar_false, payload_bar_true]
  rfl
omit [FloatOps F] in
theorem rest_cp : bigSep ((agRd (F := F) m).duties (cpCell c) 0 \ ∅) (fun d => (agRd (F := F) m).payload (cpCell c) 0 d) = cpPay m c :=
  rest_of_single m (cpCell c) (cpPay m c) (duties_cp m c) (payload_cp m c false)
omit [FloatOps F] in
theorem rest_xs : bigSep ((agRd (F := F) m).duties (xsCell c k) 0 \ ∅) (fun d => (agRd (F := F) m).payload (xsCell c k) 0 d) = xsPay m c k :=
  rest_of_single m (xsCell c k) (xsPay m c k) (duties_xs m c k) (payload_xs m c k false)
omit [FloatOps F] in
theorem rest_xr : bigSep ((agRd (F := F) m).duties (xrCell c k) 0 \ ∅) (fun d => (agRd (F := F) m).payload (xrCell c k) 0 d) = xrPay m c k :=
  rest_of_single m (xrCell c k) (xrPay m c k) (duties_xr m c k) (payload_xr m c k false)
omit [FloatOps F] in
theorem rest_zs : bigSep ((agRd (F := F) m).duties (zsCell c k) 0 \ ∅) (fun d => (agRd (F := F) m).payload (zsCell c k) 0 d) = zsPay m c k :=
  rest_of_single m (zsCell c k) (zsPay m c k) (duties_zs m c k) (payload_zs m c k false)
omit [FloatOps F] in
theorem rest_zr : bigSep ((agRd (F := F) m).duties (zrCell c k) 0 \ ∅) (fun d => (agRd (F := F) m).payload (zrCell c k) 0 d) = zrPay m c k :=
  rest_of_single m (zrCell c k) (zrPay m c k) (duties_zr m c k) (payload_zr m c k false)

end Tables

/-! ## What each device owes at launch; the levels -/

/-- The receive credit still owed for the chunks `ks` of the first sends, and of the forwarding sends. -/
def owedX (c : Dev nD) (ks : List (Fin 16)) : CellTallies nD τ sig Unit := (ks.map fun k => tallyAt (xrCell (xp c) k) () NC).sum
def owedZ (c : Dev nD) (ks : List (Fin 16)) : CellTallies nD τ sig Unit := (ks.map fun k => tallyAt (zrCell (zp c) k) () NC).sum

/-- All transfers; with the second signal; with the first too (the first signal peels the last summand). -/
def O₂ (c : Dev nD) : CellTallies nD τ sig Unit := owedZ c allK + owedX c allK
def O₁ (c : Dev nD) : CellTallies nD τ sig Unit := O₂ c + tallyAt (barCell (zp c)) () 1
def O₀ (c : Dev nD) : CellTallies nD τ sig Unit := O₁ c + tallyAt (barCell (xp c)) () 1

theorem owedX_cons (c : Dev nD) (k : Fin 16) (ks : List (Fin 16)) : owedX c (k :: ks) = owedX c ks + tallyAt (xrCell (xp c) k) () NC := by
  unfold owedX; rw [List.map_cons, List.sum_cons, add_comm]
theorem owedZ_cons (c : Dev nD) (k : Fin 16) (ks : List (Fin 16)) : owedZ c (k :: ks) = owedZ c ks + tallyAt (zrCell (zp c) k) () NC := by
  unfold owedZ; rw [List.map_cons, List.sum_cons, add_comm]
theorem owedX_nil (c : Dev nD) : owedX c [] = 0 := rfl
theorem owedZ_nil (c : Dev nD) : owedZ c [] = 0 := rfl

def L (g : GSem nD τ sig) : Finset Unit := if g.1.2 = .tc then {()} else ∅
/-- Barrier cells at 1, first-receive cells at 2, forwarded-receive cells at 3, the rest at 0: a device waits on its
    barrier owing all its transfers, and on a first-receive cell owing forwarding transfers. -/
def lv (g : GSem nD τ sig) (_ : Unit) : ℕ := match g.2 with
  | .reg _ => 1
  | .dma q => if 19 ≤ q.val ∧ q.val < 35 then 2 else if 51 ≤ q.val then 3 else 0

theorem L_of_ne (g : GSem nD τ sig) (h : g.1.2 ≠ .tc) : L g = ∅ := if_neg h
theorem L_tc (c : Dev nD) (sm : SemLoc sig) : L ((c : Thread nD τ), sm) = {()} := if_pos rfl

end Cert.Kernel.AG

end
-- ==== Proof.Kernel.Ghost.lean ====
import proofs.«900660_g7700000000000661_dist_ag_v7x_xyz2x2x2_x_m1024_n512_f32_1_alg».proof.Proof.Kernel.Sched

/-!
# What a device starts from, and the pipeline's proof data

The launch allocates one invariant per cell, under names `K`. Device `c` opens the invariants of its own cells, of its
two partners' barrier cells (its signals) and of the partners' receive cells its transfers credit. It holds its own
cells' positions, the tokens of the duties IT pays, and the marks that each cell it pays has reached round `0`.
-/

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Cell indices -/

/-- A device's own DMA cells: the local copy's, then array × chunk. -/
abbrev KIx : Type := Unit ⊕ (Fin 4 × Fin 16)
/-- All of a device's cells: its barrier cell, then its own DMA cells. -/
abbrev CIx : Type := Unit ⊕ KIx

def famS (j : Fin 4) (k : Fin 16) : DmaSem sig := (![xsS, xrS, zsS, zrS] : Fin 4 → Fin 16 → DmaSem sig) j k
def dsem : KIx → DmaSem sig
  | .inl _ => cpS
  | .inr (j, k) => famS j k
abbrev osem : KIx → SemLoc sig := fun i => .dma (dsem i)
def csem : CIx → SemLoc sig
  | .inl _ => .reg barS
  | .inr i => osem i
abbrev kcell (ck : Dev nD × CIx) : GSem nD τ sig := ((ck.1 : Thread nD τ), csem ck.2)

abbrev iBar : CIx := .inl ()
abbrev iCp : CIx := .inr (.inl ())
abbrev iF (j : Fin 4) (k : Fin 16) : CIx := .inr (.inr (j, k))

theorem kcell_bar (c : Dev nD) : kcell (c, iBar) = barCell c := rfl
theorem kcell_cp (c : Dev nD) : kcell (c, iCp) = cpCell c := rfl
theorem kcell_xs (c : Dev nD) (k : Fin 16) : kcell (c, iF 0 k) = xsCell c k := rfl
theorem kcell_xr (c : Dev nD) (k : Fin 16) : kcell (c, iF 1 k) = xrCell c k := rfl
theorem kcell_zs (c : Dev nD) (k : Fin 16) : kcell (c, iF 2 k) = zsCell c k := rfl
theorem kcell_zr (c : Dev nD) (k : Fin 16) : kcell (c, iF 3 k) = zrCell c k := rfl

/-! ## Ghost state -/

section Ghost
variable (K : Dev nD × CIx → ℕ) (c : Dev nD)

/-- The invariants device `c`'s body opens. -/
def invs : sProp 𝕄 :=
  iprop(cellInv ER (agRd m) (K (c, iBar)) (barCell c) ∗ cellInv ER (agRd m) (K (xp c, iBar)) (barCell (xp c)) ∗ cellInv ER (agRd m) (K (zp c, iBar)) (barCell (zp c))
    ∗ cellInv ER (agRd m) (K (c, iCp)) (cpCell c)
    ∗ (bigSep Finset.univ fun k : Fin 16 => cellInv ER (agRd m) (K (c, iF 0 k)) (xsCell c k))
    ∗ (bigSep Finset.univ fun k : Fin 16 => cellInv ER (agRd m) (K (c, iF 1 k)) (xrCell c k))
    ∗ (bigSep Finset.univ fun k : Fin 16 => cellInv ER (agRd m) (K (c, iF 2 k)) (zsCell c k))
    ∗ (bigSep Finset.univ fun k : Fin 16 => cellInv ER (agRd m) (K (c, iF 3 k)) (zrCell c k))
    ∗ (bigSep Finset.univ fun k : Fin 16 => cellInv ER (agRd m) (K (xp c, iF 1 k)) (xrCell (xp c) k))
    ∗ (bigSep Finset.univ fun k : Fin 16 => cellInv ER (agRd m) (K (zp c, iF 3 k)) (zrCell (zp c) k)))

instance invs_persistent : BI.Persistent (invs m K c) := by unfold invs; infer_instance

/-- Round `0` reached, of every cell device `c` pays. -/
def reachs : sProp 𝕄 :=
  iprop(reached ER (barCell (xp c)) 0 ∗ reached ER (barCell (zp c)) 0 ∗ reached ER (cpCell c) 0
    ∗ (bigSep Finset.univ fun k : Fin 16 => reached ER (xsCell c k) 0)
    ∗ (bigSep Finset.univ fun k : Fin 16 => reached ER (zsCell c k) 0)
    ∗ (bigSep Finset.univ fun k : Fin 16 => reached ER (xrCell (xp c) k) 0)
    ∗ (bigSep Finset.univ fun k : Fin 16 => reached ER (zrCell (zp c) k) 0))

instance reachs_persistent : BI.Persistent (reachs (F := F) c) := by unfold reachs; infer_instance

/-- Device `c`'s positions: round `0`, nothing taken, of each of its own cells. -/
def poss : sProp 𝕄 :=
  iprop(atPos ER (barCell c) 0 ∅ 0 ∗ atPos ER (cpCell c) 0 ∅ 0
    ∗ (bigSep Finset.univ fun k : Fin 16 => atPos ER (xsCell c k) 0 ∅ 0)
    ∗ (bigSep Finset.univ fun k : Fin 16 => atPos ER (xrCell c k) 0 ∅ 0)
    ∗ (bigSep Finset.univ fun k : Fin 16 => atPos ER (zsCell c k) 0 ∅ 0)
    ∗ (bigSep Finset.univ fun k : Fin 16 => atPos ER (zrCell c k) 0 ∅ 0))

/-- The tokens of the duties device `c` pays: `xp c`'s barrier duty `false`, `zp c`'s barrier duty `true`, its own
    copy's and sends', and the partners' receive duties its transfers land on. -/
def payToks : sProp 𝕄 :=
  iprop(dutyTok ER (barCell (xp c)) 0 false ∗ dutyTok ER (barCell (zp c)) 0 true ∗ dutyTok ER (cpCell c) 0 false
    ∗ (bigSep Finset.univ fun k : Fin 16 => dutyTok ER (xsCell c k) 0 false)
    ∗ (bigSep Finset.univ fun k : Fin 16 => dutyTok ER (zsCell c k) 0 false)
    ∗ (bigSep Finset.univ fun k : Fin 16 => dutyTok ER (xrCell (xp c) k) 0 false)
    ∗ (bigSep Finset.univ fun k : Fin 16 => dutyTok ER (zrCell (zp c) k) 0 false))

def ghost : sProp 𝕄 := iprop(invs m K c ∗ reachs c ∗ poss c ∗ payToks c)

end Ghost

/-- The credit the launch deals device `c` for the units others owe its cells. -/
def creds (c : Dev nD) : sProp 𝕄 :=
  iprop(cred (tallyAt (barCell c) () 2)
    ∗ (bigSep Finset.univ fun k : Fin 16 => cred (tallyAt (xrCell c k) () NC))
    ∗ (bigSep Finset.univ fun k : Fin 16 => cred (tallyAt (zrCell c k) () NC)))

/-- What device `c`'s body starts from. -/
def start (c : Dev nD) : sProp 𝕄 := iprop((∃ K, ghost m K c) ∗ creds c ∗ levAts L lv)

def Φ₀ (c : Dev nD) : sProp 𝕄 := start m c
/-- After the point: every own cell closed, its counter at zero. -/
def Φ₁ (c : Dev nD) : sProp 𝕄 :=
  iprop(semVal (cpCell c) 0
    ∗ (bigSep Finset.univ fun k : Fin 16 => semVal (xsCell c k) 0)
    ∗ (bigSep Finset.univ fun k : Fin 16 => semVal (xrCell c k) 0)
    ∗ (bigSep Finset.univ fun k : Fin 16 => semVal (zsCell c k) 0)
    ∗ (bigSep Finset.univ fun k : Fin 16 => semVal (zrCell c k) 0))

/-! ## The pipeline's proof data -/

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- A whole buffer of device `c` at contents `X`, as the pipeline hands a staging buffer to the body. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is entered with, and what it leaves. -/
def bodyPre (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xstg m c) ∗ stg c cc0_stg1_0 (outAt m c))

end Cert.Kernel.AG

end
-- ==== Proof.Kernel.Lands.lean ====
import proofs.«900660_g7700000000000661_dist_ag_v7x_xyz2x2x2_x_m1024_n512_f32_1_alg».proof.Proof.Kernel.Ghost
import Idealize.ShloMosaic.Lib.Pipeline.Value

/-!
# What each landing leaves

A transfer writes its destination rows with its source rows as they stand. Row `r` of device `c`'s result is to hold
row `r % 1024` of the block of `srcDev c r`; each of the three kinds of transfer lands exactly that on the rows it
writes: a first send from `c` lands rows of `c`'s block on `xp c`, whose source device for those rows is `c`; a
forwarding send lands rows `c` itself received from `xp c` on `zp c`, whose source device for them is `xp c = xp (zp (zp c))`;
the local copy lands the own block.
-/

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Where device `c`'s first send of chunk `k` lands is `xp c`'s chunk `k` of the rows it forwards. -/
theorem outX_eq (c : Dev nD) (k : Fin 16) : outX oM c k = outZ oM (xp c) k := by
  have e : k0_off1 c (wordK k) = k0_off4 (xp c) (wordK k) := by revert c k; decide +kernel
  show oM.slice (Rect.unit (s := S2048x512) (k0_off1 c (wordK k)) S32x512.size (k0_off1_inb c k)) (fun _ => rfl)
     = oM.slice (Rect.unit (s := S2048x512) (k0_off4 (xp c) (wordK k)) S32x512.size (k0_off4_inb (xp c) k)) (fun _ => rfl)
  generalize k0_off1_inb c k = h1
  generalize k0_off4_inb (xp c) k = h4
  revert h1 h4
  rw [e]
  intro h1 h4
  rfl

/-! ## Mesh coordinates of the partners -/

theorem xp_div (c : Dev nD) : (xp c).val / 4 = 1 - c.val / 4 := by revert c; decide
theorem xp_mod (c : Dev nD) : (xp c).val % 2 = c.val % 2 := by revert c; decide
theorem zp_div (c : Dev nD) : (zp c).val / 4 = c.val / 4 := by revert c; decide
theorem zp_mod (c : Dev nD) : (zp c).val % 2 = 1 - c.val % 2 := by revert c; decide

/-! ## The rows and columns a view's index is placed at -/

theorem rowX (c : Dev nD) (k : Fin 16) (y : S32x512.Idx) :
    (((outX oM c k).view.emb y) 0).val = 1024 * (c.val / 4) + 512 * (c.val % 2) + 32 * k.val + (y 0).val := by
  show (k0_off1 c (wordK k)) 0 + 1 * (y 0).val = _
  rw [k0_off1_eq c k]
  simp

theorem colX (c : Dev nD) (k : Fin 16) (y : S32x512.Idx) :
    (((outX oM c k).view.emb y) 1).val = (y 1).val := by
  show (k0_off1 c (wordK k)) 1 + 1 * (y 1).val = _
  rw [k0_off1_eq c k]
  simp

theorem rowS (c : Dev nD) (k : Fin 16) (y : S32x512.Idx) :
    (((srcX xM c k).view.emb y) 0).val = 512 * (c.val % 2) + 32 * k.val + (y 0).val := by
  show (k0_off2 c (wordK k)) 0 + 1 * (y 0).val = _
  rw [k0_off2_eq c k]
  simp

theorem colS (c : Dev nD) (k : Fin 16) (y : S32x512.Idx) :
    (((srcX xM c k).view.emb y) 1).val = (y 1).val := by
  show (k0_off2 c (wordK k)) 1 + 1 * (y 1).val = _
  rw [k0_off2_eq c k]
  simp

theorem rowZ (c : Dev nD) (k : Fin 16) (y : S32x512.Idx) :
    (((outZ oM c k).view.emb y) 0).val = (512 * (c.val % 2) + 32 * k.val + 1024) - 1024 * (c.val / 4) + (y 0).val := by
  show (k0_off4 c (wordK k)) 0 + 1 * (y 0).val = _
  rw [k0_off4_eq c k]
  simp

theorem colZ (c : Dev nD) (k : Fin 16) (y : S32x512.Idx) :
    (((outZ oM c k).view.emb y) 1).val = (y 1).val := by
  show (k0_off4 c (wordK k)) 1 + 1 * (y 1).val = _
  rw [k0_off4_eq c k]
  simp

theorem rowL (c : Dev nD) (y : S1024x512.Idx) :
    (((outL oM c).view.emb y) 0).val = 1024 * (c.val / 4) + (y 0).val := by
  show (k0_off3 c) 0 + 1 * (y 0).val = _
  rw [k0_off3_eq c]
  simp

theorem colL (c : Dev nD) (y : S1024x512.Idx) :
    (((outL oM c).view.emb y) 1).val = (y 1).val := by
  show (k0_off3 c) 1 + 1 * (y 1).val = _
  rw [k0_off3_eq c]
  simp

/-! ## What each landing leaves -/

/-- Device `c`'s chunk `k` landed on `xp c`: there the rows hold what `xp c`'s result is to hold. -/
theorem land_x (c : Dev nD) (k : Fin 16) (fd : Buf (Elt F) ((outX oM c k).view.loc (xp c : Thread nD τ))) :
    ∀ i ∈ (outX oM c k).view.set,
      (outX oM c k).view.write (Elt F) fd ((srcX xM c k).view.read (Elt F) (xstg m c)) Finset.univ i = outAt m (xp c) i := by
  intro i hi
  obtain ⟨y, rfl⟩ := View.exists_emb_of_mem_set _ hi
  clear hi
  rw [View.write_emb_of_mem _ _ (Finset.mem_univ y), View.read_apply]
  show (xstg m c : S1024x512.Idx → Elt F .f32) ((srcX xM c k).view.emb y)
     = (xstg m (srcDev (xp c) (((outX oM c k).view.emb y) 0).val) : S1024x512.Idx → Elt F .f32) (blkIdx ((outX oM c k).view.emb y))
  have hr := rowX c k y
  have hc := colX c k y
  have hrs := rowS c k y
  have hcs := colS c k y
  have hy : (y 0).val < 32 := (y 0).isLt
  have hk := k.isLt
  have hcl : c.val < 8 := c.isLt
  have h1 := xp_div c
  have h2 := xp_mod c
  have hd : srcDev (xp c) (((outX oM c k).view.emb y) 0).val = c := by
    rw [hr]; unfold srcDev
    rw [if_neg (by omega), if_pos (by omega), xp_xp]
  rw [hd]
  congr 1
  funext a
  fin_cases a
  · apply Fin.ext
    show (((srcX xM c k).view.emb y) 0).val = (((outX oM c k).view.emb y) 0).val % 1024
    omega
  · apply Fin.ext
    show (((srcX xM c k).view.emb y) 1).val = (((outX oM c k).view.emb y) 1).val
    omega

/-- Device `c`'s forwarded chunk `k` landed on `zp c`. -/
theorem land_z (c : Dev nD) (k : Fin 16) (fd : Buf (Elt F) ((outZ oM c k).view.loc (zp c : Thread nD τ))) :
    ∀ i ∈ (outZ oM c k).view.set,
      (outZ oM c k).view.write (Elt F) fd ((outZ oM c k).view.read (Elt F) (outAt m c)) Finset.univ i = outAt m (zp c) i := by
  intro i hi
  obtain ⟨y, rfl⟩ := View.exists_emb_of_mem_set _ hi
  clear hi
  rw [View.write_emb_of_mem _ _ (Finset.mem_univ y), View.read_apply]
  show (xstg m (srcDev c (((outZ oM c k).view.emb y) 0).val) : S1024x512.Idx → Elt F .f32) (blkIdx ((outZ oM c k).view.emb y))
     = (xstg m (srcDev (zp c) (((outZ oM c k).view.emb y) 0).val) : S1024x512.Idx → Elt F .f32) (blkIdx ((outZ oM c k).view.emb y))
  have hr := rowZ c k y
  have hy : (y 0).val < 32 := (y 0).isLt
  have hk := k.isLt
  have hcl : c.val < 8 := c.isLt
  have h1 := zp_div c
  have h2 := zp_mod c
  have hd : srcDev c (((outZ oM c k).view.emb y) 0).val = xp c := by
    rw [hr]; unfold srcDev
    rw [if_neg (by omega), if_pos (by omega)]
  have hd' : srcDev (zp c) (((outZ oM c k).view.emb y) 0).val = xp c := by
    rw [hr]; unfold srcDev
    rw [if_neg (by omega), if_neg (by omega), zp_zp]
  rw [hd, hd']

/-- The local copy landed. -/
theorem land_l (c : Dev nD) (fd : Buf (Elt F) ((outL oM c).view.loc (c : Thread nD τ))) :
    ∀ i ∈ (outL oM c).view.set,
      (outL oM c).view.write (Elt F) fd ((xM : Memref sig .tc .vmem S1024x512 .f32).view.read (Elt F) (xstg m c)) Finset.univ i = outAt m c i := by
  intro i hi
  obtain ⟨y, rfl⟩ := View.exists_emb_of_mem_set _ hi
  clear hi
  rw [View.write_emb_of_mem _ _ (Finset.mem_univ y), View.read_apply]
  show (xstg m c : S1024x512.Idx → Elt F .f32) y
     = (xstg m (srcDev c (((outL oM c).view.emb y) 0).val) : S1024x512.Idx → Elt F .f32) (blkIdx ((outL oM c).view.emb y))
  have hr := rowL c y
  have hc := colL c y
  have hy : (y 0).val < 1024 := (y 0).isLt
  have hcl : c.val < 8 := c.isLt
  have hd : srcDev c (((outL oM c).view.emb y) 0).val = c := by
    rw [hr]; unfold srcDev
    rw [if_pos (by omega)]
  rw [hd]
  congr 1
  funext a
  fin_cases a
  · apply Fin.ext
    show (y 0).val = (((outL oM c).view.emb y) 0).val % 1024
    omega
  · apply Fin.ext
    show (y 1).val = (((outL oM c).view.emb y) 1).val
    omega

/-- info: 'Cert.Kernel.AG.outX_eq' depends on axioms: [propext, Classical.choice, Quot.sound] -/
#guard_msgs in #print axioms outX_eq
/-- info: 'Cert.Kernel.AG.land_x' depends on axioms: [propext, Classical.choice, Quot.sound] -/
#guard_msgs in #print axioms land_x
/-- info: 'Cert.Kernel.AG.land_z' depends on axioms: [propext, Classical.choice, Quot.sound] -/
#guard_msgs in #print axioms land_z
/-- info: 'Cert.Kernel.AG.land_l' depends on axioms: [propext, Classical.choice, Quot.sound] -/
#guard_msgs in #print axioms land_l

end Cert.Kernel.AG

end
-- ==== Proof.Kernel.Levels.lean ====
import proofs.«900660_g7700000000000661_dist_ag_v7x_xyz2x2x2_x_m1024_n512_f32_1_alg».proof.Proof.Kernel.Ghost

/-!
# Wait evidence from the levels

A wait is allowed at a level below everything the waiter still owes. Barrier cells sit at 1, the cells the first
sends land on at 2, the cells the forwarding sends land on at 3, every other cell at 0.
-/

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Levels of the cells a device can owe on -/

theorem lv_bar (c : Dev nD) : lv (barCell c) () = 1 := rfl
theorem lv_xr (c : Dev nD) (k : Fin 16) : lv (xrCell c k) () = 2 := by
  dsimp only [lv]; rw [if_pos (by rw [xrS_val]; omega)]
theorem lv_zr (c : Dev nD) (k : Fin 16) : lv (zrCell c k) () = 3 := by
  dsimp only [lv]; rw [if_neg (by rw [zrS_val]; omega), if_pos (by rw [zrS_val]; omega)]

/-! ## Where a positive tally sits -/

/-- A positive tally of the forwarding transfers still owed is at a forwarded-receive cell of `zp c`. -/
theorem owedZ_pos {c : Dev nD} {ks : List (Fin 16)} {g : GSem nD τ sig} {u : Unit} (h : 0 < owedZ c ks g u) :
    ∃ k, g = zrCell (zp c) k := by
  induction ks with
  | nil => rw [owedZ_nil, Pi.zero_apply, Finsupp.coe_zero, Pi.zero_apply] at h; exact absurd h (Nat.lt_irrefl 0)
  | cons k ks ih =>
    rw [owedZ_cons, Pi.add_apply, Finsupp.add_apply, tallyAt_apply] at h
    by_cases hk : g = zrCell (zp c) k ∧ u = ()
    · exact ⟨k, hk.1⟩
    · rw [if_neg hk, add_zero] at h; exact ih h

/-- A positive tally of the first sends still owed is at a first-receive cell of `xp c`. -/
theorem owedX_pos {c : Dev nD} {ks : List (Fin 16)} {g : GSem nD τ sig} {u : Unit} (h : 0 < owedX c ks g u) :
    ∃ k, g = xrCell (xp c) k := by
  induction ks with
  | nil => rw [owedX_nil, Pi.zero_apply, Finsupp.coe_zero, Pi.zero_apply] at h; exact absurd h (Nat.lt_irrefl 0)
  | cons k ks ih =>
    rw [owedX_cons, Pi.add_apply, Finsupp.add_apply, tallyAt_apply] at h
    by_cases hk : g = xrCell (xp c) k ∧ u = ()
    · exact ⟨k, hk.1⟩
    · rw [if_neg hk, add_zero] at h; exact ih h

/-- A positive tally of all the transfers is at one of the two partners' receive cells. -/
theorem O₂_pos {c : Dev nD} {g : GSem nD τ sig} {u : Unit} (h : 0 < O₂ c g u) :
    (∃ k, g = zrCell (zp c) k) ∨ ∃ k, g = xrCell (xp c) k := by
  unfold O₂ at h
  rw [Pi.add_apply, Finsupp.add_apply] at h
  rcases Nat.add_pos_iff_pos_or_pos.mp h with h | h
  · exact Or.inl (owedZ_pos h)
  · exact Or.inr (owedX_pos h)

/-- A positive tally of everything owed at launch: a receive cell or a barrier cell of a partner. -/
theorem O₀_pos {c : Dev nD} {g : GSem nD τ sig} {u : Unit} (h : 0 < O₀ c g u) :
    (∃ k, g = zrCell (zp c) k) ∨ (∃ k, g = xrCell (xp c) k) ∨ g = barCell (zp c) ∨ g = barCell (xp c) := by
  unfold O₀ O₁ at h
  rw [Pi.add_apply, Finsupp.add_apply, Pi.add_apply, Finsupp.add_apply, tallyAt_apply, tallyAt_apply] at h
  by_cases h1 : g = barCell (xp c) ∧ u = ()
  · exact Or.inr (Or.inr (Or.inr h1.1))
  by_cases h2 : g = barCell (zp c) ∧ u = ()
  · exact Or.inr (Or.inr (Or.inl h2.1))
  rw [if_neg h1, if_neg h2, add_zero, add_zero] at h
  rcases O₂_pos h with h | h
  · exact Or.inl h
  · exact Or.inr (Or.inl h)

/-- Everything owed at launch is owed on a TensorCore cell, at level one or more. -/
theorem O₀_mem {c : Dev nD} {g : GSem nD τ sig} {u : Unit} (h : 0 < O₀ c g u) : u ∈ L g := by
  rcases O₀_pos h with ⟨k, rfl⟩ | ⟨k, rfl⟩ | rfl | rfl <;> (rw [L_tc]; exact Finset.mem_singleton_self _)
theorem O₀_lv {c : Dev nD} {g : GSem nD τ sig} {u : Unit} (h : 0 < O₀ c g u) : 0 < lv g u := by
  rcases O₀_pos h with ⟨k, rfl⟩ | ⟨k, rfl⟩ | rfl | rfl
  · rw [show u = () from rfl, lv_zr]; decide
  · rw [show u = () from rfl, lv_xr]; decide
  · rw [show u = () from rfl, lv_bar]; decide
  · rw [show u = () from rfl, lv_bar]; decide

/-- The transfers are owed on TensorCore cells, at level two or more. -/
theorem O₂_mem {c : Dev nD} {g : GSem nD τ sig} {u : Unit} (h : 0 < O₂ c g u) : u ∈ L g := by
  rcases O₂_pos h with ⟨k, rfl⟩ | ⟨k, rfl⟩ <;> (rw [L_tc]; exact Finset.mem_singleton_self _)
theorem O₂_lv {c : Dev nD} {g : GSem nD τ sig} {u : Unit} (h : 0 < O₂ c g u) : 1 < lv g u := by
  rcases O₂_pos h with ⟨k, rfl⟩ | ⟨k, rfl⟩
  · rw [show u = () from rfl, lv_zr]; decide
  · rw [show u = () from rfl, lv_xr]; decide

/-! ## The three waits -/

omit [FloatOps F] in
/-- A staging cell's wait (level 0), owing everything or nothing. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => O₀_mem hg)
      (fun p hp => by
        rw [Finset.mem_singleton.mp hp]; dsimp only [lv]
        rw [if_neg (fun h => by omega), if_neg (fun h => by omega)])
      (fun g u hg => O₀_lv hg)
  · rw [MayWait_zero]; iintro -; iempintro

omit [FloatOps F] in
/-- At its barrier wait a device owes its thirty-two transfers: receive cells, above its barrier cell. -/
theorem mayWait_bar (c : Dev nD) :
    (levAts L lv : sProp 𝕄) ⊢ MayWait (c : Thread nD τ) (.reg barS) () (O₂ c) :=
  MayOwe.of_cut (L := L) (lev := lv) 1
    (fun p hp => by rw [Finset.mem_singleton.mp hp, L_tc]; exact Finset.mem_singleton_self _)
    (fun g u hg => O₂_mem hg)
    (fun p hp => by rw [Finset.mem_singleton.mp hp]; exact le_of_eq (lv_bar c))
    (fun g u hg => O₂_lv hg)

omit [FloatOps F] in
/-- Waiting for a first-send chunk a device owes forwarding transfers only: cells one level up. -/
theorem mayWait_xr (c : Dev nD) (k : Fin 16) (ks : List (Fin 16)) :
    (levAts L lv : sProp 𝕄) ⊢ MayWait (c : Thread nD τ) (.dma (xrS k)) () (owedZ c ks) :=
  MayOwe.of_cut (L := L) (lev := lv) 2
    (fun p hp => by rw [Finset.mem_singleton.mp hp, L_tc]; exact Finset.mem_singleton_self _)
    (fun g u hg => by obtain ⟨j, rfl⟩ := owedZ_pos hg; rw [L_tc]; exact Finset.mem_singleton_self _)
    (fun p hp => by rw [Finset.mem_singleton.mp hp]; exact le_of_eq (lv_xr c k))
    (fun g u hg => by obtain ⟨j, rfl⟩ := owedZ_pos hg; rw [show u = () from rfl, lv_zr]; decide)

/-! ## Axioms -/

/-- info: 'Cert.Kernel.AG.mayWait_stage' depends on axioms: [propext, Classical.choice, Quot.sound] -/
#guard_msgs in #print axioms mayWait_stage
/-- info: 'Cert.Kernel.AG.mayWait_bar' depends on axioms: [propext, Classical.choice, Quot.sound] -/
#guard_msgs in #print axioms mayWait_bar
/-- info: 'Cert.Kernel.AG.mayWait_xr' depends on axioms: [propext, Classical.choice, Quot.sound] -/
#guard_msgs in #print axioms mayWait_xr

end Cert.Kernel.AG

end
-- ==== Proof.Kernel.Steps.lean ====
import proofs.«900660_g7700000000000661_dist_ag_v7x_xyz2x2x2_x_m1024_n512_f32_1_alg».proof.Proof.Kernel.Lands
import proofs.«900660_g7700000000000661_dist_ag_v7x_xyz2x2x2_x_m1024_n512_f32_1_alg».proof.Proof.Kernel.Levels

/-!
# One rule per kind of operation, at a symbolic device and chunk

Each transfer pays two duties: its send cell's (the source comes back when it is read out) and the receive cell's on
the partner (the chunk at its final contents). Each wait is for the whole of its cell's one round; the cell is closed
right after, its counter back at zero.
-/

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Two spellings of one view hold the same elements. -/
theorem vpts_of_eq {s : Shape} (c : Dev nD) {v v' : Memref sig .tc .vmem s .f32} (h : v = v') (q : PosShare TreeShare)
    (f : Buf (Elt F) (v.view.loc (c : Thread nD τ))) (f' : Buf (Elt F) (v'.view.loc (c : Thread nD τ))) (hf : HEq f f') :
    (vpts c v q f : sProp 𝕄) = vpts c v' q f' := by
  subst h; cases hf; rfl

section Steps
variable (K : Dev nD × CIx → ℕ) (c : Dev nD) (k : Fin 16)

/-- The first send of chunk `k`, addressed to `n = xp c`. -/
theorem step_xsend {α : Type} {Q : α → sProp 𝕄} {kont : PUnit → Prog (TpuEff nD τ sig (Elt F) Λ₀ .tc) α}
    (n : Dev nD) (hn : n = xp c)
    {hsc : ((outX oM c k : Memref sig (Dev.tc n : Thread nD τ).2.kind .vmem S32x512 .f32)).view.ref.isScScratch = false}
    {hsrc : (srcX xM c k).view.WordExact} {hdst : (outX oM c k).view.WordExact}
    {hsem : DmaTarget.Typed .vmem (.dma (xrS k)) (.remote (Dev.tc n : Thread nD τ) (outX oM c k) (.dma (xsS k)) hsc)}
    (O : CellTallies nD τ sig Unit) (W : Waits sig Unit) :
    iprop(cellInv ER (agRd m) (K (c, iF 0 k)) (xsCell c k) ∗ cellInv ER (agRd m) (K (xp c, iF 1 k)) (xrCell (xp c) k)
        ∗ reached ER (xsCell c k) 0 ∗ reached ER (xrCell (xp c) k) 0
        ∗ vpts c (srcX xM c k) fullShare.right (xstg m c) ∗ (∃ f, vpts (xp c) (outZ oM (xp c) k) fullShare f)
        ∗ dutyTok ER (xsCell c k) 0 false ∗ dutyTok ER (xrCell (xp c) k) 0 false
        ∗ owes (c : Thread nD τ) (O + tallyAt (xrCell (xp c) k) () NC) W)
      ⊢ iprop(((cred (tallyAt (xsCell c k) () NC) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (srcX xM c k) (.remote (Dev.tc n : Thread nD τ) (outX oM c k) (.dma (xsS k)) hsc) (.dma (xrS k)) hsrc hdst hsem) kont) Q) := by
  subst hn
  iintro ⟨HI1, HI2, Hr1, Hr2, Hsrc, ⟨%f, Hdst⟩, Ht1, Ht2, HO⟩ Hk
  -- the destination rows on `xp c`, spelt as the rows this device's send writes
  ihave Hdst := (Entails.of_eq (vpts_of_eq (xp c) (outX_eq c k).symm fullShare f f HEq.rfl)) $$ Hdst
  unfold vpts
  iapply (Rounds.wp_send_pointsTo 𝒱₀ ER (agRd m) (c : Thread nD τ) none (c' := (xp c : Thread nD τ))
      (src := srcX xM c k) (dst := outX oM c k) (q := fullShare.right) (fs := xstg m c) (fd := f)
      (κ₁ := K (c, iF 0 k)) (κ₂ := K (xp c, iF 1 k)) (r₁ := 0) (r₂ := 0) (d₁ := false) (d₂ := false)
      (by rw [duties_xs]; exact Finset.mem_singleton_self _) (by rw [duties_xr]; exact Finset.mem_singleton_self _)
      () () NC rfl (amount_xs m c k false) (amount_xr m (xp c) k false) O rfl (W := W)
      (by rw [payload_xs]; unfold xsPay vpts; exact BI.Entails.refl _)
      (by rw [payload_xr]; unfold xrPay
          -- on the rows written, the landed contents are what `xp c`'s result is to hold
          rw [pointsTo_congr (land_x m c k f)]
          exact Entails.of_eq (vpts_of_eq (xp c) (outX_eq c k) fullShare (outAt m (xp c)) (outAt m (xp c)) HEq.rfl))) $$ [HI1 HI2 Hsrc Hdst HO Ht1 Hr1 Ht2 Hr2]
  · isplitl [HI1]; · iexact HI1
    isplitl [HI2]; · iexact HI2
    isplitl [Hsrc]; · iexact Hsrc
    isplitl [Hdst]; · iexact Hdst
    isplitl [HO]; · iexact HO
    isplitl [Ht1]; · iexact Ht1
    isplitl [Hr1]; · iexact Hr1
    isplitl [Ht2]; · iexact Ht2
    iexact Hr2
  iexact Hk

/-- The forwarding send of chunk `k`, addressed to `n = zp c`. -/
theorem step_zsend {α : Type} {Q : α → sProp 𝕄} {kont : PUnit → Prog (TpuEff nD τ sig (Elt F) Λ₀ .tc) α}
    (n : Dev nD) (hn : n = zp c)
    {hsc : ((outZ oM c k : Memref sig (Dev.tc n : Thread nD τ).2.kind .vmem S32x512 .f32)).view.ref.isScScratch = false}
    {hsrc : (outZ oM c k).view.WordExact} {hdst : (outZ oM c k).view.WordExact}
    {hsem : DmaTarget.Typed .vmem (.dma (zrS k)) (.remote (Dev.tc n : Thread nD τ) (outZ oM c k) (.dma (zsS k)) hsc)}
    (O : CellTallies nD τ sig Unit) (W : Waits sig Unit) :
    iprop(cellInv ER (agRd m) (K (c, iF 2 k)) (zsCell c k) ∗ cellInv ER (agRd m) (K (zp c, iF 3 k)) (zrCell (zp c) k)
        ∗ reached ER (zsCell c k) 0 ∗ reached ER (zrCell (zp c) k) 0
        ∗ vpts c (outZ oM c k) fullShare (outAt m c) ∗ (∃ f, vpts (zp c) (outZ oM c k) fullShare f)
        ∗ dutyTok ER (zsCell c k) 0 false ∗ dutyTok ER (zrCell (zp c) k) 0 false
        ∗ owes (c : Thread nD τ) (O + tallyAt (zrCell (zp c) k) () NC) W)
      ⊢ iprop(((cred (tallyAt (zsCell c k) () NC) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (outZ oM c k) (.remote (Dev.tc n : Thread nD τ) (outZ oM c k) (.dma (zsS k)) hsc) (.dma (zrS k)) hsrc hdst hsem) kont) Q) := by
  subst hn
  iintro ⟨HI1, HI2, Hr1, Hr2, Hsrc, ⟨%f, Hdst⟩, Ht1, Ht2, HO⟩ Hk
  unfold vpts
  iapply (Rounds.wp_send_pointsTo 𝒱₀ ER (agRd m) (c : Thread nD τ) none (c' := (zp c : Thread nD τ))
      (src := outZ oM c k) (dst := outZ oM c k) (q := fullShare) (fs := outAt m c) (fd := f)
      (κ₁ := K (c, iF 2 k)) (κ₂ := K (zp c, iF 3 k)) (r₁ := 0) (r₂ := 0) (d₁ := false) (d₂ := false)
      (by rw [duties_zs]; exact Finset.mem_singleton_self _) (by rw [duties_zr]; exact Finset.mem_singleton_self _)
      () () NC rfl (amount_zs m c k false) (amount_zr m (zp c) k false) O rfl (W := W)
      (by rw [payload_zs]; unfold zsPay vpts; exact BI.Entails.refl _)
      (by rw [payload_zr]; unfold zrPay
          -- on the rows written, the landed contents are what `zp c`'s result is to hold
          rw [pointsTo_congr (land_z m c k f), zp_zp]
          unfold vpts; exact BI.Entails.refl _)) $$ [HI1 HI2 Hsrc Hdst HO Ht1 Hr1 Ht2 Hr2]
  · isplitl [HI1]; · iexact HI1
    isplitl [HI2]; · iexact HI2
    isplitl [Hsrc]; · iexact Hsrc
    isplitl [Hdst]; · iexact Hdst
    isplitl [HO]; · iexact HO
    isplitl [Ht1]; · iexact Ht1
    isplitl [Hr1]; · iexact Hr1
    isplitl [Ht2]; · iexact Ht2
    iexact Hr2
  iexact Hk

/-- The local copy of the whole block. -/
theorem step_copy {α : Type} {Q : α → sProp 𝕄} {kont : PUnit → Prog (TpuEff nD τ sig (Elt F) Λ₀ .tc) α}
    {hsrc : (xM : Memref sig .tc .vmem S1024x512 .f32).view.WordExact} {hdst : (outL oM c).view.WordExact}
    {hsem : DmaTarget.Typed (nD := nD) .vmem (.dma cpS) (DmaTarget.here (outL oM c) : DmaTarget nD τ sig (c : Thread nD τ).2 .vmem S1024x512 .f32)} :
    iprop(cellInv ER (agRd m) (K (c, iCp)) (cpCell c) ∗ reached ER (cpCell c) 0
        ∗ vpts c xM fullShare.left (xstg m c) ∗ (∃ f, vpts c (outL oM c) fullShare f) ∗ dutyTok ER (cpCell c) 0 false)
      ⊢ iprop((cred (tallyAt (cpCell c) () NL) -∗ wp frame (wpE (defs₀ (F := F)) 𝒱₀ (c : Thread nD τ) none) Set.univ (kont ⟨⟩) Q)
          -∗ wp frame (wpE (defs₀ (F := F)) 𝒱₀ (c : Thread nD τ) none) Set.univ (.op (.enqueueDma xM (DmaTarget.here (outL oM c) : DmaTarget nD τ sig (c : Thread nD τ).2 .vmem S1024x512 .f32) (.dma cpS) hsrc hdst hsem) kont) Q) := by
  iintro ⟨HI, Hr, Hsrc, ⟨%f, Hdst⟩, Ht⟩ Hk
  unfold vpts
  iapply (Rounds.wp_copy_pointsTo 𝒱₀ ER (agRd m) (c : Thread nD τ) none
      (src := xM) (dst := outL oM c) (q := fullShare.left) (fs := xstg m c) (fd := f) (κ := K (c, iCp)) (r := 0) (d := false)
      (by rw [duties_cp]; exact Finset.mem_singleton_self _) () NL rfl (amount_cp m c false)
      (by rw [payload_cp]; unfold cpPay vpts
          -- on the rows written, the landed contents are the own block
          rw [pointsTo_congr (land_l m c f)])) $$ [HI Hsrc Hdst Ht Hr]
  · isplitl [HI]; · iexact HI
    isplitl [Hsrc]; · iexact Hsrc
    isplitl [Hdst]; · iexact Hdst
    isplitl [Ht]; · iexact Ht
    iexact Hr
  iexact Hk

/-- A wait for the whole round of one of the device's own DMA cells `(c, .dma q)`, then the cell closed: the general
    form of the five waits below. `N` is the cell's expected amount, `P` its one duty's payload. -/
theorem step_wait_close {α : Type} {Q : α → sProp 𝕄} {kont : PUnit → Prog (TpuEff nD τ sig (Elt F) Λ₀ .tc) α}
    (q : DmaSem sig) (κ : ℕ) (N : ℕ) (P : sProp 𝕄)
    (hexp : (agRd (F := F) m).expect ((c : Thread nD τ), .dma q) 0 = N)
    (hrest : bigSep ((agRd (F := F) m).duties ((c : Thread nD τ), .dma q) 0 \ ∅) (fun d => (agRd (F := F) m).payload ((c : Thread nD τ), .dma q) 0 d) = P)
    {sp sp' : Space} {s s' : Shape} {e e' : EltTy} {src : Memref sig .tc sp' s' e'} {dst : Memref sig .tc sp s e}
    {hsrc : src.view.WordExact} {hdst : dst.view.WordExact} (hN : dst.view.dmaCredit = N)
    (O : CellTallies nD τ sig Unit) (W : Waits sig Unit) :
    iprop(cellInv ER (agRd m) κ ((c : Thread nD τ), .dma q) ∗ cred (tallyAt ((c : Thread nD τ), .dma q) () N)
        ∗ atPos ER ((c : Thread nD τ), .dma q) 0 ∅ 0 ∗ MayWait (c : Thread nD τ) (.dma q) () O ∗ owes (c : Thread nD τ) O W)
      ⊢ iprop((((∃ W', owes (c : Thread nD τ) O W') ∗ P ∗ semVal ((c : Thread nD τ), .dma q) 0) -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 q src dst hsrc hdst) kont) Q) := by
  subst hN
  iintro ⟨#HI, Hc, Hat, Hmw, HO⟩ Hk
  -- the wait takes the whole of the cell's one round
  iapply (Rounds.wp_wait_rest_token 𝒱₀ ER (agRd m) (c : Thread nD τ) none (κ := κ)
      (wpE_waitDma2_eq 𝒱₀ (c : Thread nD τ) none Set.univ) (Set.mem_univ _) () (O := O) (W := W) (R := 0) (m := 0) (T := ∅)
      (by rw [Nat.zero_add, hexp])) $$ [Hc HO Hmw Hat]
  · isplitr; · iexact HI
    isplitl [Hc]; · iexact Hc
    isplitl [HO]; · iexact HO
    isplitl [Hmw]; · iexact Hmw
    iexact Hat
  iintro ⟨HO, Hat, -, Hpay⟩
  ihave HP := (Entails.of_eq hrest) $$ Hpay
  -- no later round has a duty: the cell closes, its counter at zero
  imod (Rounds.cell_close ER (agRd m) (Set.mem_univ κ) (fun h => h) (R := 0 + 1) (duties_later m _)) $$ [Hat] with Hz
  · isplitr; · iexact HI
    iexact Hat
  iapply Hk
  isplitl [HO]; · iexists _; iexact HO
  isplitl [HP]; · iexact HP
  iexact Hz

end Steps

end Cert.Kernel.AG

end
-- ==== Proof.Kernel.Loops.lean ====
import proofs.«900660_g7700000000000661_dist_ag_v7x_xyz2x2x2_x_m1024_n512_f32_1_alg».proof.Proof.Kernel.Steps

/-!
# The four chunk loops

Each loop of the body runs one or two rules per chunk, and the chunks' resources are independent: a loop over a list
of chunks takes the list's resources, item by item, and returns the list's results. What links the items is only what
the device still owes, which each transfer pays a summand off.
-/

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
/-- A list's chain with its head split off. -/
theorem bigSepL_cons' {I : Type} (i : I) (l : List I) (Φ : I → sProp 𝕄) : bigSepL (i :: l) Φ = iprop(Φ i ∗ bigSepL l Φ) :=
  bigSepL_cons i l Φ

section Pick
variable (K : Dev nD × CIx → ℕ) (c : Dev nD) (k : Fin 16)

omit [FloatOps F] in
theorem inv_bar : invs m K c ⊢ cellInv ER (agRd m) (K (c, iBar)) (barCell c) := by
  unfold invs; iintro ⟨H, -⟩; iexact H
omit [FloatOps F] in
theorem inv_barX : invs m K c ⊢ cellInv ER (agRd m) (K (xp c, iBar)) (barCell (xp c)) := by
  unfold invs; iintro ⟨-, H, -⟩; iexact H
omit [FloatOps F] in
theorem inv_barZ : invs m K c ⊢ cellInv ER (agRd m) (K (zp c, iBar)) (barCell (zp c)) := by
  unfold invs; iintro ⟨-, -, H, -⟩; iexact H
omit [FloatOps F] in
theorem inv_cp : invs m K c ⊢ cellInv ER (agRd m) (K (c, iCp)) (cpCell c) := by
  unfold invs; iintro ⟨-, -, -, H, -⟩; iexact H
omit [FloatOps F] in
theorem reach_barX : (reachs c : sProp 𝕄) ⊢ reached ER (barCell (xp c)) 0 := by
  unfold reachs; iintro ⟨H, -⟩; iexact H
omit [FloatOps F] in
theorem reach_barZ : (reachs c : sProp 𝕄) ⊢ reached ER (barCell (zp c)) 0 := by
  unfold reachs; iintro ⟨-, H, -⟩; iexact H
omit [FloatOps F] in
theorem reach_cp : (reachs c : sProp 𝕄) ⊢ reached ER (cpCell c) 0 := by
  unfold reachs; iintro ⟨-, -, H, -⟩; iexact H
omit [FloatOps F] in
theorem inv_xs : invs m K c ⊢ cellInv ER (agRd m) (K (c, iF 0 k)) (xsCell c k) := by
  have h : invs m K c ⊢ bigSep Finset.univ (fun k : Fin 16 => cellInv ER (agRd m) (K (c, iF 0 k)) (xsCell c k)) := by
    unfold invs; iintro ⟨-, -, -, -, H, -⟩; iexact H
  exact h.trans (bigSep_elim (Finset.mem_univ k))
omit [FloatOps F] in
theorem inv_xr : invs m K c ⊢ cellInv ER (agRd m) (K (c, iF 1 k)) (xrCell c k) := by
  have h : invs m K c ⊢ bigSep Finset.univ (fun k : Fin 16 => cellInv ER (agRd m) (K (c, iF 1 k)) (xrCell c k)) := by
    unfold invs; iintro ⟨-, -, -, -, -, H, -⟩; iexact H
  exact h.trans (bigSep_elim (Finset.mem_univ k))
omit [FloatOps F] in
theorem inv_zs : invs m K c ⊢ cellInv ER (agRd m) (K (c, iF 2 k)) (zsCell c k) := by
  have h : invs m K c ⊢ bigSep Finset.univ (fun k : Fin 16 => cellInv ER (agRd m) (K (c, iF 2 k)) (zsCell c k)) := by
    unfold invs; iintro ⟨-, -, -, -, -, -, H, -⟩; iexact H
  exact h.trans (bigSep_elim (Finset.mem_univ k))
omit [FloatOps F] in
theorem inv_zr : invs m K c ⊢ cellInv ER (agRd m) (K (c, iF 3 k)) (zrCell c k) := by
  have h : invs m K c ⊢ bigSep Finset.univ (fun k : Fin 16 => cellInv ER (agRd m) (K (c, iF 3 k)) (zrCell c k)) := by
    unfold invs; iintro ⟨-, -, -, -, -, -, -, H, -⟩; iexact H
  exact h.trans (bigSep_elim (Finset.mem_univ k))
omit [FloatOps F] in
theorem inv_xrP : invs m K c ⊢ cellInv ER (agRd m) (K (xp c, iF 1 k)) (xrCell (xp c) k) := by
  have h : invs m K c ⊢ bigSep Finset.univ (fun k : Fin 16 => cellInv ER (agRd m) (K (xp c, iF 1 k)) (xrCell (xp c) k)) := by
    unfold invs; iintro ⟨-, -, -, -, -, -, -, -, H, -⟩; iexact H
  exact h.trans (bigSep_elim (Finset.mem_univ k))
omit [FloatOps F] in
theorem inv_zrP : invs m K c ⊢ cellInv ER (agRd m) (K (zp c, iF 3 k)) (zrCell (zp c) k) := by
  have h : invs m K c ⊢ bigSep Finset.univ (fun k : Fin 16 => cellInv ER (agRd m) (K (zp c, iF 3 k)) (zrCell (zp c) k)) := by
    unfold invs; iintro ⟨-, -, -, -, -, -, -, -, -, H⟩; iexact H
  exact h.trans (bigSep_elim (Finset.mem_univ k))
omit [FloatOps F] in
theorem reach_xs : (reachs c : sProp 𝕄) ⊢ reached ER (xsCell c k) 0 := by
  have h : (reachs c : sProp 𝕄) ⊢ bigSep Finset.univ (fun k : Fin 16 => reached ER (xsCell c k) 0) := by
    unfold reachs; iintro ⟨-, -, -, H, -⟩; iexact H
  exact h.trans (bigSep_elim (Finset.mem_univ k))
omit [FloatOps F] in
theorem reach_zs : (reachs c : sProp 𝕄) ⊢ reached ER (zsCell c k) 0 := by
  have h : (reachs c : sProp 𝕄) ⊢ bigSep Finset.univ (fun k : Fin 16 => reached ER (zsCell c k) 0) := by
    unfold reachs; iintro ⟨-, -, -, -, H, -⟩; iexact H
  exact h.trans (bigSep_elim (Finset.mem_univ k))
omit [FloatOps F] in
theorem reach_xrP : (reachs c : sProp 𝕄) ⊢ reached ER (xrCell (xp c) k) 0 := by
  have h : (reachs c : sProp 𝕄) ⊢ bigSep Finset.univ (fun k : Fin 16 => reached ER (xrCell (xp c) k) 0) := by
    unfold reachs; iintro ⟨-, -, -, -, -, H, -⟩; iexact H
  exact h.trans (bigSep_elim (Finset.mem_univ k))
omit [FloatOps F] in
theorem reach_zrP : (reachs c : sProp 𝕄) ⊢ reached ER (zrCell (zp c) k) 0 := by
  have h : (reachs c : sProp 𝕄) ⊢ bigSep Finset.univ (fun k : Fin 16 => reached ER (zrCell (zp c) k) 0) := by
    unfold reachs; iintro ⟨-, -, -, -, -, -, H⟩; iexact H
  exact h.trans (bigSep_elim (Finset.mem_univ k))

end Pick

/-! The credit of a view depends on its shape and element type only. -/
omit [FloatOps F] in
theorem credX (c : Dev nD) (k : Fin 16) : (outX oM c k).view.dmaCredit = NC := rfl
omit [FloatOps F] in
theorem credZ (c : Dev nD) (k : Fin 16) : (outZ oM c k).view.dmaCredit = NC := rfl
omit [FloatOps F] in
theorem credS (c : Dev nD) (k : Fin 16) : (srcX xM c k).view.dmaCredit = NC := rfl
omit [FloatOps F] in
theorem credL (c : Dev nD) : (outL oM c).view.dmaCredit = NL := rfl

section Loops
variable (K : Dev nD × CIx → ℕ) (c : Dev nD)

/-- The first sends of the chunks `ks`: each pays its receive credit off what the device owes and leaves the credit to
    wait for its own completion. -/
theorem xsends_run (ks : List (Fin 16)) : ∀ (O : CellTallies nD τ sig Unit) (W : Waits sig Unit),
    iprop(invs m K c ∗ reachs c
        ∗ bigSepL ks (fun k => vpts c (srcX xM c k) fullShare.right (xstg m c))
        ∗ bigSepL ks (fun k => iprop(∃ f, vpts (xp c) (outZ oM (xp c) k) fullShare f))
        ∗ bigSepL ks (fun k => dutyTok ER (xsCell c k) 0 false)
        ∗ bigSepL ks (fun k => dutyTok ER (xrCell (xp c) k) 0 false)
        ∗ owes (c : Thread nD τ) (O + owedX c ks) W)
      ⊢ wp frame (wpE (defs₀ (F := F)) 𝒱₀ (c : Thread nD τ) none) Set.univ (xsends xM oM cc0_scratch1 cc0_scratch2 c ks)
          (fun _ => iprop(bigSepL ks (fun k => cred (tallyAt (xsCell c k) () NC)) ∗ owes (c : Thread nD τ) O W)) := by
  induction ks with
  | nil =>
    intro O W
    rw [owedX_nil, add_zero]
    iintro ⟨-, -, -, -, -, -, HO⟩
    simp only [xsends, Prog.pure_eq_ret, wp_ret]
    imodintro
    isplitr
    · rw [bigSepL_nil]; iempintro
    · iexact HO
  | cons k ks ih =>
    intro O W
    rw [bigSepL_cons', bigSepL_cons', bigSepL_cons', bigSepL_cons', bigSepL_cons', owedX_cons, ← add_assoc]
    iintro ⟨#HI, #HR, ⟨Hs, Hss⟩, ⟨Hd, Hds⟩, ⟨Ht, Hts⟩, ⟨Hu, Hus⟩, HO⟩
    simp only [xsends, Prog.lift, Prog.bind_op, Prog.bind_ret]
    iapply (step_xsend m K c k (devX c k) (devX_eq c k) (O + owedX c ks) W) $$ [Hs Hd Ht Hu HO]
    · isplitr; · iapply (inv_xs m K c k); iexact HI
      isplitr; · iapply (inv_xrP m K c k); iexact HI
      isplitr; · iapply (reach_xs c k); iexact HR
      isplitr; · iapply (reach_xrP c k); iexact HR
      isplitl [Hs]; · iexact Hs
      isplitl [Hd]; · iexact Hd
      isplitl [Ht]; · iexact Ht
      isplitl [Hu]; · iexact Hu
      iexact HO
    iintro ⟨Hc, HO⟩
    iapply (wp_wand_r frame (wpE (defs₀ (F := F)) 𝒱₀ (c : Thread nD τ) none) Set.univ (Q := fun _ => iprop(bigSepL ks (fun k => cred (tallyAt (xsCell c k) () NC)) ∗ owes (c : Thread nD τ) O W)))
    isplitr [Hc]
    · iapply (ih O W)
      isplitr; · iexact HI
      isplitr; · iexact HR
      isplitl [Hss]; · iexact Hss
      isplitl [Hds]; · iexact Hds
      isplitl [Hts]; · iexact Hts
      isplitl [Hus]; · iexact Hus
      iexact HO
    · iintro %_ ⟨Hcs, HO⟩
      isplitr [HO]
      · isplitl [Hc]; · iexact Hc
        iexact Hcs
      · iexact HO

/-- Per chunk: the first partner's chunk has landed (its cell is closed), and it is forwarded to the second partner. -/
theorem forwards_run (ks : List (Fin 16)) : ∀ (W : Waits sig Unit),
    iprop(invs m K c ∗ reachs c ∗ levAts L lv
        ∗ bigSepL ks (fun k => cred (tallyAt (xrCell c k) () NC))
        ∗ bigSepL ks (fun k => atPos ER (xrCell c k) 0 ∅ 0)
        ∗ bigSepL ks (fun k => iprop(∃ f, vpts (zp c) (outZ oM c k) fullShare f))
        ∗ bigSepL ks (fun k => dutyTok ER (zsCell c k) 0 false)
        ∗ bigSepL ks (fun k => dutyTok ER (zrCell (zp c) k) 0 false)
        ∗ owes (c : Thread nD τ) (owedZ c ks) W)
      ⊢ wp frame (wpE (defs₀ (F := F)) 𝒱₀ (c : Thread nD τ) none) Set.univ (forwards xM oM cc0_scratch2 cc0_scratch3 cc0_scratch4 c ks)
          (fun _ => iprop(bigSepL ks (fun k => semVal (xrCell c k) 0) ∗ bigSepL ks (fun k => cred (tallyAt (zsCell c k) () NC))
            ∗ ∃ W', owes (c : Thread nD τ) 0 W')) := by
  induction ks with
  | nil =>
    intro W
    rw [owedZ_nil]
    iintro ⟨-, -, -, -, -, -, -, -, HO⟩
    simp only [forwards, Prog.pure_eq_ret, wp_ret]
    imodintro
    isplitr; · rw [bigSepL_nil]; iempintro
    isplitr; · rw [bigSepL_nil]; iempintro
    iexists W; iexact HO
  | cons k ks ih =>
    intro W
    rw [bigSepL_cons', bigSepL_cons', bigSepL_cons', bigSepL_cons', bigSepL_cons', bigSepL_cons', bigSepL_cons']
    iintro ⟨#HI, #HR, #Hlev, ⟨Hc, Hcs⟩, ⟨Ha, Has⟩, ⟨Hd, Hds⟩, ⟨Ht, Hts⟩, ⟨Hu, Hus⟩, HO⟩
    simp only [forwards, Prog.lift, Prog.bind_op, Prog.bind_ret]
    iapply (step_wait_close m c (xrS k) (K (c, iF 1 k)) NC (xrPay m c k) (expect_xr m c k) (rest_xr m c k) (src := srcX xM c k) (dst := outX oM c k) (credX c k) (owedZ c (k :: ks)) W) $$ [Hc Ha HO]
    · isplitr; · iapply (inv_xr m K c k); iexact HI
      isplitl [Hc]; · iexact Hc
      isplitl [Ha]; · iexact Ha
      isplitr; · iapply (mayWait_xr c k (k :: ks)); iexact Hlev
      iexact HO
    iintro ⟨⟨%W1, HO⟩, Hpay, Hz⟩
    rw [owedZ_cons]
    iapply (step_zsend m K c k (devZ c k) (devZ_eq c k) (owedZ c ks) W1) $$ [Hpay Hd Ht Hu HO]
    · isplitr; · iapply (inv_zs m K c k); iexact HI
      isplitr; · iapply (inv_zrP m K c k); iexact HI
      isplitr; · iapply (reach_zs c k); iexact HR
      isplitr; · iapply (reach_zrP c k); iexact HR
      isplitl [Hpay]; · unfold xrPay; iexact Hpay
      isplitl [Hd]; · iexact Hd
      isplitl [Ht]; · iexact Ht
      isplitl [Hu]; · iexact Hu
      iexact HO
    iintro ⟨Hcz, HO⟩
    iapply (wp_wand_r frame (wpE (defs₀ (F := F)) 𝒱₀ (c : Thread nD τ) none) Set.univ (Q := fun _ => iprop(bigSepL ks (fun k => semVal (xrCell c k) 0) ∗ bigSepL ks (fun k => cred (tallyAt (zsCell c k) () NC))
            ∗ ∃ W', owes (c : Thread nD τ) 0 W')))
    isplitr [Hz Hcz]
    · iapply (ih W1)
      isplitr; · iexact HI
      isplitr; · iexact HR
      isplitr; · iexact Hlev
      isplitl [Hcs]; · iexact Hcs
      isplitl [Has]; · iexact Has
      isplitl [Hds]; · iexact Hds
      isplitl [Hts]; · iexact Hts
      isplitl [Hus]; · iexact Hus
      iexact HO
    · iintro %_ ⟨Hzs, Hczs, HO⟩
      isplitl [Hz Hzs]
      · isplitl [Hz]; · iexact Hz
        iexact Hzs
      isplitl [Hcz Hczs]
      · isplitl [Hcz]; · iexact Hcz
        iexact Hczs
      iexact HO

/-- The waits for the second partner's forwarded chunks: each lands at its final contents, its cell is closed. -/
theorem zwaits_run (ks : List (Fin 16)) : ∀ (W : Waits sig Unit),
    iprop(invs m K c
        ∗ bigSepL ks (fun k => cred (tallyAt (zrCell c k) () NC))
        ∗ bigSepL ks (fun k => atPos ER (zrCell c k) 0 ∅ 0)
        ∗ owes (c : Thread nD τ) 0 W)
      ⊢ wp frame (wpE (defs₀ (F := F)) 𝒱₀ (c : Thread nD τ) none) Set.univ (zwaits oM cc0_scratch4 c ks)
          (fun _ => iprop(bigSepL ks (fun k => zrPay m c k) ∗ bigSepL ks (fun k => semVal (zrCell c k) 0)
            ∗ ∃ W', owes (c : Thread nD τ) 0 W')) := by
  induction ks with
  | nil =>
    intro W
    iintro ⟨-, -, -, HO⟩
    simp only [zwaits, Prog.pure_eq_ret, wp_ret]
    imodintro
    isplitr; · rw [bigSepL_nil]; iempintro
    isplitr; · rw [bigSepL_nil]; iempintro
    iexists W; iexact HO
  | cons k ks ih =>
    intro W
    rw [bigSepL_cons', bigSepL_cons', bigSepL_cons', bigSepL_cons']
    iintro ⟨#HI, ⟨Hc, Hcs⟩, ⟨Ha, Has⟩, HO⟩
    simp only [zwaits, Prog.lift, Prog.bind_op, Prog.bind_ret]
    iapply (step_wait_close m c (zrS k) (K (c, iF 3 k)) NC (zrPay m c k) (expect_zr m c k) (rest_zr m c k) (src := outZ oM c k) (dst := outZ oM c k) (credZ c k) 0 W) $$ [Hc Ha HO]
    · isplitr; · iapply (inv_zr m K c k); iexact HI
      isplitl [Hc]; · iexact Hc
      isplitl [Ha]; · iexact Ha
      isplitr; · rw [MayWait_zero]; iempintro
      iexact HO
    iintro ⟨⟨%W1, HO⟩, Hpay, Hz⟩
    iapply (wp_wand_r frame (wpE (defs₀ (F := F)) 𝒱₀ (c : Thread nD τ) none) Set.univ (Q := fun _ => iprop(bigSepL ks (fun k => zrPay m c k) ∗ bigSepL ks (fun k => semVal (zrCell c k) 0)
            ∗ ∃ W', owes (c : Thread nD τ) 0 W')))
    isplitr [Hpay Hz]
    · iapply (ih W1)
      isplitr; · iexact HI
      isplitl [Hcs]; · iexact Hcs
      isplitl [Has]; · iexact Has
      iexact HO
    · iintro %_ ⟨Hps, Hzs, HO⟩
      isplitl [Hpay Hps]
      · isplitl [Hpay]; · iexact Hpay
        iexact Hps
      isplitl [Hz Hzs]
      · isplitl [Hz]; · iexact Hz
        iexact Hzs
      iexact HO

/-- Per chunk, the two send completions: the sources come back, the two send cells are closed. -/
theorem swaits_run (ks : List (Fin 16)) : ∀ (W : Waits sig Unit),
    iprop(invs m K c
        ∗ bigSepL ks (fun k => cred (tallyAt (xsCell c k) () NC))
        ∗ bigSepL ks (fun k => atPos ER (xsCell c k) 0 ∅ 0)
        ∗ bigSepL ks (fun k => cred (tallyAt (zsCell c k) () NC))
        ∗ bigSepL ks (fun k => atPos ER (zsCell c k) 0 ∅ 0)
        ∗ owes (c : Thread nD τ) 0 W)
      ⊢ wp frame (wpE (defs₀ (F := F)) 𝒱₀ (c : Thread nD τ) none) Set.univ (swaits xM oM cc0_scratch1 cc0_scratch3 c ks)
          (fun _ => iprop(bigSepL ks (fun k => xsPay m c k) ∗ bigSepL ks (fun k => semVal (xsCell c k) 0)
            ∗ bigSepL ks (fun k => zsPay m c k) ∗ bigSepL ks (fun k => semVal (zsCell c k) 0)
            ∗ ∃ W', owes (c : Thread nD τ) 0 W')) := by
  induction ks with
  | nil =>
    intro W
    iintro ⟨-, -, -, -, -, HO⟩
    simp only [swaits, Prog.pure_eq_ret, wp_ret]
    imodintro
    isplitr; · rw [bigSepL_nil]; iempintro
    isplitr; · rw [bigSepL_nil]; iempintro
    isplitr; · rw [bigSepL_nil]; iempintro
    isplitr; · rw [bigSepL_nil]; iempintro
    iexists W; iexact HO
  | cons k ks ih =>
    intro W
    rw [bigSepL_cons', bigSepL_cons', bigSepL_cons', bigSepL_cons', bigSepL_cons', bigSepL_cons', bigSepL_cons', bigSepL_cons']
    iintro ⟨#HI, ⟨Hc, Hcs⟩, ⟨Ha, Has⟩, ⟨Hd, Hds⟩, ⟨Hb, Hbs⟩, HO⟩
    simp only [swaits, Prog.lift, Prog.bind_op, Prog.bind_ret]
    iapply (step_wait_close m c (xsS k) (K (c, iF 0 k)) NC (xsPay m c k) (expect_xs m c k) (rest_xs m c k) (src := outX oM c k) (dst := srcX xM c k) (credS c k) 0 W) $$ [Hc Ha HO]
    · isplitr; · iapply (inv_xs m K c k); iexact HI
      isplitl [Hc]; · iexact Hc
      isplitl [Ha]; · iexact Ha
      isplitr; · rw [MayWait_zero]; iempintro
      iexact HO
    iintro ⟨⟨%W1, HO⟩, Hp1, Hz1⟩
    iapply (step_wait_close m c (zsS k) (K (c, iF 2 k)) NC (zsPay m c k) (expect_zs m c k) (rest_zs m c k) (src := outZ oM c k) (dst := outZ oM c k) (credZ c k) 0 W1) $$ [Hd Hb HO]
    · isplitr; · iapply (inv_zs m K c k); iexact HI
      isplitl [Hd]; · iexact Hd
      isplitl [Hb]; · iexact Hb
      isplitr; · rw [MayWait_zero]; iempintro
      iexact HO
    iintro ⟨⟨%W2, HO⟩, Hp2, Hz2⟩
    iapply (wp_wand_r frame (wpE (defs₀ (F := F)) 𝒱₀ (c : Thread nD τ) none) Set.univ (Q := fun _ => iprop(bigSepL ks (fun k => xsPay m c k) ∗ bigSepL ks (fun k => semVal (xsCell c k) 0)
            ∗ bigSepL ks (fun k => zsPay m c k) ∗ bigSepL ks (fun k => semVal (zsCell c k) 0)
            ∗ ∃ W', owes (c : Thread nD τ) 0 W')))
    isplitr [Hp1 Hz1 Hp2 Hz2]
    · iapply (ih W2)
      isplitr; · iexact HI
      isplitl [Hcs]; · iexact Hcs
      isplitl [Has]; · iexact Has
      isplitl [Hds]; · iexact Hds
      isplitl [Hbs]; · iexact Hbs
      iexact HO
    · iintro %_ ⟨Hp1s, Hz1s, Hp2s, Hz2s, HO⟩
      isplitl [Hp1 Hp1s]
      · isplitl [Hp1]; · iexact Hp1
        iexact Hp1s
      isplitl [Hz1 Hz1s]
      · isplitl [Hz1]; · iexact Hz1
        iexact Hz1s
      isplitl [Hp2 Hp2s]
      · isplitl [Hp2]; · iexact Hp2
        iexact Hp2s
      isplitl [Hz2 Hz2s]
      · isplitl [Hz2]; · iexact Hz2
        iexact Hz2s
      iexact HO

end Loops

end Cert.Kernel.AG

end
-- ==== Proof.Kernel.Regions.lean ====
import proofs.«900660_g7700000000000661_dist_ag_v7x_xyz2x2x2_x_m1024_n512_f32_1_alg».proof.Proof.Kernel.Ghost
import Idealize.ShloMosaic.Lib.Pipeline.Value

/-!
# The two staging buffers cut into the pieces the transfers use, and what each landing leaves

The result buffer of device `c` is the disjoint union of its own block's rows (`outL oM c`), the sixteen chunks
`xp c` sends into (`outZ oM c k`) and the sixteen chunks `zp c` forwards into (`outZ oM (zp c) k`). The input buffer
is read whole by the local copy and, in its `z`-th half, chunk by chunk by the first sends: it is held in two half
shares, the right one cut into those chunks and a rest.
-/

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev xLoc (c : Dev nD) : Loc nD τ sig := (c : Thread nD τ).loc cc0_stg0_0
abbrev oLoc (c : Dev nD) : Loc nD τ sig := (c : Thread nD τ).loc cc0_stg1_0

/-- The part of the input buffer no first send reads. -/
def xRestSet (c : Dev nD) : Finset (Idx (xLoc c)) :=
  ((xM : Memref sig .tc .vmem S1024x512 .f32).view.set : Finset (Idx (xLoc c))) \ (Finset.univ.biUnion fun k : Fin 16 => ((srcX xM c k).view.set : Finset (Idx (xLoc c))))

namespace Regions

/-! ## Coordinates of the second neighbour, and membership in the pieces by the row coordinate

Every piece is a band of rows over all 512 columns, so membership is a statement about the row coordinate alone;
the bands' offsets are the printed offset chains in their closed forms. -/

/-- The second neighbour has the other last coordinate, -/
theorem zp_mod (c : Dev nD) : (zp c).val % 2 = 1 - c.val % 2 := by revert c; decide
/-- and the same first coordinate. -/
theorem zp_div (c : Dev nD) : (zp c).val / 4 = c.val / 4 := by revert c; decide

/-- The own block's rows: `[1024·x, +1024)`. -/
theorem mem_outL (c : Dev nD) (i : Idx (oLoc c)) :
    i ∈ ((outL oM c).view.set : Finset (Idx (oLoc c))) ↔ 1024 * (c.val / 4) ≤ (i 0).val ∧ (i 0).val < 1024 * (c.val / 4) + 1024 := by
  have h : ((outL oM c).view.set : Finset (Idx (oLoc c)))
      = (Rect.unit (s := S2048x512) (k0_off3 c) S1024x512.size (k0_off3_inb c)).set := View.set_slice_whole _ _
  rw [h, Rect.mem_set_unit, Gen.k0_off3_eq]
  constructor
  · intro h; exact h 0
  · intro h a; fin_cases a
    · exact h
    · have h1 : (i 1).val < 512 := (i 1).isLt; show 0 ≤ (i 1).val ∧ (i 1).val < 0 + 512; omega

/-- Chunk `k` as device `d` places it: rows `[1024·(1−x_d) + 512·z_d + 32·k, +32)`, read in any device's result buffer. -/
theorem mem_outZ (c d : Dev nD) (k : Fin 16) (i : Idx (oLoc c)) :
    i ∈ ((outZ oM d k).view.set : Finset (Idx (oLoc c))) ↔
      (512 * (d.val % 2) + 32 * k.val + 1024) - 1024 * (d.val / 4) ≤ (i 0).val ∧ (i 0).val < (512 * (d.val % 2) + 32 * k.val + 1024) - 1024 * (d.val / 4) + 32 := by
  have h : ((outZ oM d k).view.set : Finset (Idx (oLoc c)))
      = (Rect.unit (s := S2048x512) (k0_off4 d (wordK k)) S32x512.size (k0_off4_inb d k)).set := View.set_slice_whole _ _
  rw [h, Rect.mem_set_unit, Gen.k0_off4_eq]
  constructor
  · intro h; exact h 0
  · intro h a; fin_cases a
    · exact h
    · have h1 : (i 1).val < 512 := (i 1).isLt; show 0 ≤ (i 1).val ∧ (i 1).val < 0 + 512; omega

/-- Chunk `k` of the half-block that is sent: rows `[512·z + 32·k, +32)`. -/
theorem mem_srcX (c : Dev nD) (k : Fin 16) (i : Idx (xLoc c)) :
    i ∈ ((srcX xM c k).view.set : Finset (Idx (xLoc c))) ↔
      512 * (c.val % 2) + 32 * k.val ≤ (i 0).val ∧ (i 0).val < 512 * (c.val % 2) + 32 * k.val + 32 := by
  have h : ((srcX xM c k).view.set : Finset (Idx (xLoc c)))
      = (Rect.unit (s := S1024x512) (k0_off2 c (wordK k)) S32x512.size (k0_off2_inb c k)).set := View.set_slice_whole _ _
  rw [h, Rect.mem_set_unit, Gen.k0_off2_eq]
  constructor
  · intro h; exact h 0
  · intro h a; fin_cases a
    · exact h
    · have h1 : (i 1).val < 512 := (i 1).isLt; show 0 ≤ (i 1).val ∧ (i 1).val < 0 + 512; omega

/-! ## The result buffer -/

/-- Every row is in the own block, or in the other block's `z`-th half (chunk `r % 512 / 32`), or in its other half. -/
theorem out_cover (c : Dev nD) :
    (Finset.univ : Finset (Idx (oLoc c))) = ((outL oM c).view.set : Finset (Idx (oLoc c)))
      ∪ ((Finset.univ.biUnion fun k : Fin 16 => ((outZ oM c k).view.set : Finset (Idx (oLoc c))))
        ∪ (Finset.univ.biUnion fun k : Fin 16 => ((outZ oM (zp c) k).view.set : Finset (Idx (oLoc c))))) := by
  ext i
  rw [Finset.mem_union, Finset.mem_union, Finset.mem_biUnion, Finset.mem_biUnion]
  refine ⟨fun _ => ?_, fun _ => Finset.mem_univ i⟩
  have hc : c.val < 8 := c.isLt
  have hr : (i 0).val < 2048 := (i 0).isLt
  obtain ⟨k, hk⟩ : ∃ k : Fin 16, k.val = (i 0).val % 512 / 32 := ⟨⟨(i 0).val % 512 / 32, by omega⟩, rfl⟩
  by_cases h1 : 1024 * (c.val / 4) ≤ (i 0).val ∧ (i 0).val < 1024 * (c.val / 4) + 1024
  · exact Or.inl ((mem_outL c i).mpr h1)
  · by_cases h2 : (i 0).val % 1024 / 512 = c.val % 2
    · refine Or.inr (Or.inl ⟨k, Finset.mem_univ _, (mem_outZ c c k i).mpr ?_⟩)
      omega
    · refine Or.inr (Or.inr ⟨k, Finset.mem_univ _, (mem_outZ c (zp c) k i).mpr ?_⟩)
      rw [zp_mod, zp_div]; omega

/-- The own block meets no chunk of the other block. -/
theorem out_disj_L (c : Dev nD) :
    Disjoint ((outL oM c).view.set : Finset (Idx (oLoc c)))
      ((Finset.univ.biUnion fun k : Fin 16 => ((outZ oM c k).view.set : Finset (Idx (oLoc c))))
        ∪ (Finset.univ.biUnion fun k : Fin 16 => ((outZ oM (zp c) k).view.set : Finset (Idx (oLoc c))))) := by
  rw [Finset.disjoint_left]
  intro i hi hj
  rw [mem_outL] at hi
  rw [Finset.mem_union, Finset.mem_biUnion, Finset.mem_biUnion] at hj
  have hc : c.val < 8 := c.isLt
  rcases hj with ⟨k, -, hk⟩ | ⟨k, -, hk⟩
  · rw [mem_outZ] at hk; have := k.isLt; omega
  · rw [mem_outZ, zp_mod, zp_div] at hk; have := k.isLt; omega

/-- The two halves of the other block are apart. -/
theorem out_disj_Z (c : Dev nD) :
    Disjoint (α := Finset (Idx (oLoc c))) (Finset.univ.biUnion fun k : Fin 16 => ((outZ oM c k).view.set : Finset (Idx (oLoc c))))
      (Finset.univ.biUnion fun k : Fin 16 => ((outZ oM (zp c) k).view.set : Finset (Idx (oLoc c)))) := by
  rw [Finset.disjoint_left]
  intro i hi hj
  rw [Finset.mem_biUnion] at hi hj
  have hc : c.val < 8 := c.isLt
  obtain ⟨k, -, hk⟩ := hi
  obtain ⟨k', -, hk'⟩ := hj
  rw [mem_outZ] at hk
  rw [mem_outZ, zp_mod, zp_div] at hk'
  have := k.isLt; have := k'.isLt; omega

/-- Chunks of one half are apart. -/
theorem outZ_pairwise (c d : Dev nD) :
    ∀ k ∈ (Finset.univ : Finset (Fin 16)), ∀ k' ∈ (Finset.univ : Finset (Fin 16)), k ≠ k' →
      Disjoint ((outZ oM d k).view.set : Finset (Idx (oLoc c))) ((outZ oM d k').view.set : Finset (Idx (oLoc c))) := by
  intro k _ k' _ hne
  rw [Finset.disjoint_left]
  intro i hi hj
  rw [mem_outZ c d] at hi hj
  have hv : k.val ≠ k'.val := fun e => hne (Fin.ext e)
  have hd : d.val < 8 := d.isLt
  omega

omit [FloatOps F] in
/-- A points-to along two disjoint element sets, as an equation. -/
theorem pts_union_eq {ℓ : Loc nD τ sig} {I J : Finset (Idx ℓ)} {q : PosShare TreeShare} {f : Buf (Elt F) ℓ} (h : Disjoint I J) :
    (ℓ ↦[I ∪ J]{q} f : sProp 𝕄) = iprop((ℓ ↦[I]{q} f) ∗ ℓ ↦[J]{q} f) :=
  BI.equiv_iff.mp ⟨(pointsTo_union h).1, (pointsTo_union h).2⟩

omit [FloatOps F] in
/-- The whole result buffer is its own block, the sixteen chunks the first neighbour sends into and the sixteen the second
    neighbour forwards into. -/
theorem out_eq (c : Dev nD) (f : Buf (Elt F) (oLoc c)) :
    (oLoc c ↦{fullShare} f : sProp 𝕄)
      = iprop(vpts c (outL oM c) fullShare f ∗ (bigSep Finset.univ fun k : Fin 16 => vpts c (outZ oM c k) fullShare f)
          ∗ (bigSep Finset.univ fun k : Fin 16 => vpts c (outZ oM (zp c) k) fullShare f)) := by
  unfold vpts
  have e : (oLoc c ↦{fullShare} f : sProp 𝕄) = (oLoc c ↦[((outL oM c).view.set : Finset (Idx (oLoc c)))
      ∪ ((Finset.univ.biUnion fun k : Fin 16 => ((outZ oM c k).view.set : Finset (Idx (oLoc c))))
        ∪ (Finset.univ.biUnion fun k : Fin 16 => ((outZ oM (zp c) k).view.set : Finset (Idx (oLoc c)))))]{fullShare} f) := by
    rw [← out_cover c]
  rw [e, pts_union_eq (out_disj_L c), pts_union_eq (out_disj_Z c),
    pointsTo_biUnion _ _ (outZ_pairwise c c), pointsTo_biUnion _ _ (outZ_pairwise c (zp c))]

/-! ## The input buffer -/

/-- The sent chunks are apart. -/
theorem srcX_pairwise (c : Dev nD) :
    ∀ k ∈ (Finset.univ : Finset (Fin 16)), ∀ k' ∈ (Finset.univ : Finset (Fin 16)), k ≠ k' →
      Disjoint ((srcX xM c k).view.set : Finset (Idx (xLoc c))) ((srcX xM c k').view.set : Finset (Idx (xLoc c))) := by
  intro k _ k' _ hne
  rw [Finset.disjoint_left]
  intro i hi hj
  rw [mem_srcX c] at hi hj
  have hv : k.val ≠ k'.val := fun e => hne (Fin.ext e)
  omega

/-- Each sent chunk lies in the buffer. -/
theorem srcX_subset (c : Dev nD) :
    (Finset.univ.biUnion fun k : Fin 16 => ((srcX xM c k).view.set : Finset (Idx (xLoc c))))
      ⊆ ((xM : Memref sig .tc .vmem S1024x512 .f32).view.set : Finset (Idx (xLoc c))) :=
  Finset.biUnion_subset.mpr fun k _ => View.set_slice_subset _ _

omit [FloatOps F] in
/-- A full-share points-to is its left half share and its right half share, as an equation. -/
theorem pts_halves_eq {ℓ : Loc nD τ sig} {I : Finset (Idx ℓ)} {f : Buf (Elt F) ℓ} :
    (ℓ ↦[I]{fullShare} f : sProp 𝕄) = iprop((ℓ ↦[I]{fullShare.left} f) ∗ ℓ ↦[I]{fullShare.right} f) :=
  BI.equiv_iff.mp ⟨(pointsTo_share (PosShare.mem_left_op_right fullShare)).1, (pointsTo_share (PosShare.mem_left_op_right fullShare)).2⟩

omit [FloatOps F] in
/-- Carving a subset out of a points-to, as an equation. -/
theorem pts_subset_eq {ℓ : Loc nD τ sig} {I S : Finset (Idx ℓ)} {q : PosShare TreeShare} {f : Buf (Elt F) ℓ} (h : I ⊆ S) :
    (ℓ ↦[S]{q} f : sProp 𝕄) = iprop((ℓ ↦[I]{q} f) ∗ ℓ ↦[S \ I]{q} f) :=
  BI.equiv_iff.mp ⟨(pointsTo_split_subset h).1, (pointsTo_split_subset h).2⟩

omit [FloatOps F] in
/-- The whole input buffer is a left half share of everything and a right half share of the sixteen sent chunks and
    of the rest. -/
theorem x_eq (c : Dev nD) (f : Buf (Elt F) (xLoc c)) :
    (xLoc c ↦{fullShare} f : sProp 𝕄)
      = iprop(vpts c xM fullShare.left f ∗ (bigSep Finset.univ fun k : Fin 16 => vpts c (srcX xM c k) fullShare.right f)
          ∗ (xLoc c ↦[xRestSet c]{fullShare.right} f)) := by
  unfold vpts xRestSet
  have hw : ((xM : Memref sig .tc .vmem S1024x512 .f32).view.set : Finset (Idx (xLoc c))) = Finset.univ := View.set_whole _
  rw [pts_halves_eq]
  conv_lhs => rw [← hw]
  rw [pts_subset_eq (q := fullShare.right) (srcX_subset c), pointsTo_biUnion _ _ (srcX_pairwise c)]

end Regions

open Regions

omit [FloatOps F] in
theorem out_split (c : Dev nD) (f : Buf (Elt F) (oLoc c)) :
    (oLoc c ↦{fullShare} f : sProp 𝕄)
      ⊢ iprop(vpts c (outL oM c) fullShare f ∗ (bigSep Finset.univ fun k : Fin 16 => vpts c (outZ oM c k) fullShare f)
          ∗ (bigSep Finset.univ fun k : Fin 16 => vpts c (outZ oM (zp c) k) fullShare f)) :=
  Entails.of_eq (out_eq c f)

theorem out_join (c : Dev nD) :
    iprop(vpts c (outL oM c) fullShare (outAt m c) ∗ (bigSep Finset.univ fun k : Fin 16 => vpts c (outZ oM c k) fullShare (outAt m c))
        ∗ (bigSep Finset.univ fun k : Fin 16 => vpts c (outZ oM (zp c) k) fullShare (outAt m c)))
      ⊢ (oLoc c ↦{fullShare} outAt m c : sProp 𝕄) :=
  Entails.of_eq (out_eq c (outAt m c)).symm

omit [FloatOps F] in
theorem x_split (c : Dev nD) (f : Buf (Elt F) (xLoc c)) :
    (xLoc c ↦{fullShare} f : sProp 𝕄)
      ⊢ iprop(vpts c xM fullShare.left f ∗ (bigSep Finset.univ fun k : Fin 16 => vpts c (srcX xM c k) fullShare.right f)
          ∗ (xLoc c ↦[xRestSet c]{fullShare.right} f)) :=
  Entails.of_eq (x_eq c f)

omit [FloatOps F] in
theorem x_join (c : Dev nD) (f : Buf (Elt F) (xLoc c)) :
    iprop(vpts c xM fullShare.left f ∗ (bigSep Finset.univ fun k : Fin 16 => vpts c (srcX xM c k) fullShare.right f)
        ∗ (xLoc c ↦[xRestSet c]{fullShare.right} f))
      ⊢ (xLoc c ↦{fullShare} f : sProp 𝕄) :=
  Entails.of_eq (x_eq c f).symm

/-- info: 'Cert.Kernel.AG.out_split' depends on axioms: [propext, Classical.choice, Quot.sound] -/
#guard_msgs in #print axioms out_split

/-- info: 'Cert.Kernel.AG.out_join' depends on axioms: [propext, Classical.choice, Quot.sound] -/
#guard_msgs in #print axioms out_join

/-- info: 'Cert.Kernel.AG.x_split' depends on axioms: [propext, Classical.choice, Quot.sound] -/
#guard_msgs in #print axioms x_split

/-- info: 'Cert.Kernel.AG.x_join' depends on axioms: [propext, Classical.choice, Quot.sound] -/
#guard_msgs in #print axioms x_join

end Cert.Kernel.AG

end
-- ==== Proof.Kernel.Body.lean ====
import proofs.«900660_g7700000000000661_dist_ag_v7x_xyz2x2x2_x_m1024_n512_f32_1_alg».proof.Proof.Kernel.Loops
import proofs.«900660_g7700000000000661_dist_ag_v7x_xyz2x2x2_x_m1024_n512_f32_1_alg».proof.Proof.Kernel.Regions

/-!
# One device's body

From what the pipeline hands over — the input block in its staging buffer, the result staging buffer at any contents —
and the device's ghost state: the two buffers are cut into the pieces the transfers use; the handshake hands each
partner the chunks of this device's result buffer it will write, and brings back the partners' chunks this device
writes; then the sends, the local copy, the forwarding loop, and the completions, after which every piece of the result
buffer is back at its final contents, the input buffer is whole again, and every own cell is closed.
-/

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem allK_univ : (Finset.univ : Finset (Fin 16)) = allK.toFinset := by decide
omit [FloatOps F] in
theorem allK_nodup : allK.Nodup := by decide
omit [FloatOps F] in
/-- All sixteen chunks, listed. -/
theorem bigSep_allK (Φ : Fin 16 → sProp 𝕄) : bigSep Finset.univ Φ = bigSepL allK Φ := bigSep_univ_eq_bigSepL allK allK_univ allK_nodup Φ

omit [FloatOps F] in
theorem bigSep_ex_intro (c d : Dev nD) (f : Buf (Elt F) ((c : Thread nD τ).loc cc0_stg1_0)) :
    (bigSep Finset.univ fun k : Fin 16 => vpts c (outZ oM d k) fullShare f : sProp 𝕄)
      ⊢ bigSep Finset.univ fun k : Fin 16 => iprop(∃ f, vpts c (outZ oM d k) fullShare f) :=
  bigSep_mono fun k _ =>
    show (vpts c (outZ oM d k) fullShare f : sProp 𝕄) ⊢ iprop(∃ f, vpts c (outZ oM d k) fullShare f) from by
      iintro H; iexists f; iexact H

set_option maxHeartbeats 800000 in
/-- The body, from what the pipeline hands over to what it takes back. -/
theorem sound_body (c : Dev nD) :
    bodyPre m c ⊢ wp frame (wpE (defs₀ (F := F)) 𝒱₀ (c : Thread nD τ) none) Set.univ
      (bodyS xM (Memref.isWhole_whole _) oM (Memref.isWhole_whole _) cc0_scratch0 cc0_scratch1 cc0_scratch2 cc0_scratch3 cc0_scratch4)
      (fun _ => bodyPost m c) := by
  unfold bodyPre Φ₀ start
  iintro ⟨⟨⟨%K, Hg⟩, Hcr, #Hlev⟩, Ho, ⟨%d0, %g0, %hg0, Hx⟩, ⟨%d1, %g1, %hg1, Hout⟩⟩
  have hx : g0 = xstg m c := by rw [hg0]; unfold Dat.before; rw [if_pos (fetch_0 t₀)]; rfl
  subst hx
  unfold ghost
  icases Hg with ⟨#HI, #HR, Hpos, Htok⟩
  unfold Dat.owesAt Pipeline.owesWithin
  icases Ho with ⟨%W, %hW, HO⟩
  rw [show (dats m 0 c).owed t₀.castSucc = O₀ c from rfl]
  -- the two staging buffers cut into the transfers' pieces
  ihave Hx3 := (x_split c (xstg m c)) $$ Hx
  icases Hx3 with ⟨HxL, HxR, HxRest⟩
  ihave Ho3 := (out_split c g1) $$ Hout
  icases Ho3 with ⟨HoL, HoX, HoZ⟩
  unfold poss payToks creds
  icases Hpos with ⟨HaB, HaC, HaXS, HaXR, HaZS, HaZR⟩
  icases Htok with ⟨HtBX, HtBZ, HtC, HtXS, HtZS, HtXR, HtZR⟩
  icases Hcr with ⟨HcB, HcXR, HcZR⟩
  -- the program, operation by operation and loop by loop
  unfold bodyS
  simp only [semSignalWord, semWaitWord, Prog.lift, Prog.bind_op, Prog.bind_ret, Prog.pure_eq_ret, wp_deviceId, wp_bind]
  simp only [dev1_eq c, dev2_eq c]
  -- the first signal, to `xp c`'s barrier: with it the chunks of this device's result buffer that `xp c` writes
  iapply (Rounds.wp_signal 𝒱₀ ER (agRd m) (c : Thread nD τ) none (dst := (xp c : Thread nD τ)) (κ := K (xp c, iBar))
      (d := false) (by rw [duties_bar]; exact Finset.mem_univ _) ((amount_bar m (xp c) false).trans (by decide)) () (O₁ c) rfl)
    $$ [HO HtBX HoX]
  · isplitr; · iapply (inv_barX m K c); iexact HI
    isplitl [HO]; · iexact HO
    isplitl [HtBX]; · iexact HtBX
    isplitl [HoX]
    · rw [payload_bar_false]; unfold barPayX; rw [xp_xp]
      iapply (bigSep_ex_intro c c g1); iexact HoX
    · iapply (reach_barX c); iexact HR
  iintro HO
  -- the second, to `zp c`'s barrier: with it the chunks `zp c` forwards into
  unfold O₁
  iapply (Rounds.wp_signal 𝒱₀ ER (agRd m) (c : Thread nD τ) none (dst := (zp c : Thread nD τ)) (κ := K (zp c, iBar))
      (d := true) (by rw [duties_bar]; exact Finset.mem_univ _) ((amount_bar m (zp c) true).trans (by decide)) () (O₂ c) rfl)
    $$ [HO HtBZ HoZ]
  · isplitr; · iapply (inv_barZ m K c); iexact HI
    isplitl [HO]; · iexact HO
    isplitl [HtBZ]; · iexact HtBZ
    isplitl [HoZ]
    · rw [payload_bar_true]; unfold barPayZ; rw [zp_zp]
      iapply (bigSep_ex_intro c (zp c) g1); iexact HoZ
    · iapply (reach_barZ c); iexact HR
  iintro HO
  -- the wait for both partners: their chunks of THEIR result buffers come with it
  iapply (Rounds.wp_wait_rest_token 𝒱₀ ER (agRd m) (c : Thread nD τ) none (κ := K (c, iBar))
      (wpE_semWait_eq 𝒱₀ (c : Thread nD τ) none Set.univ) (Set.mem_univ _) () (O := O₂ c) (W := W) (R := 0) (m := 0) (T := ∅)
      (by rw [expect_bar]; decide)) $$ [HcB HO HaB]
  · isplitr; · iapply (inv_bar m K c); iexact HI
    isplitl [HcB]; · iexact HcB
    isplitl [HO]; · iexact HO
    isplitr; · iapply (mayWait_bar c); iexact Hlev
    iexact HaB
  iintro ⟨HO, -, -, Hpay⟩
  ihave Hp := (Entails.of_eq (rest_bar m c)) $$ Hpay
  unfold barPayX barPayZ
  icases Hp with ⟨HpX, HpZ⟩
  simp only [bigSep_allK]
  simp only [wp_bind]
  -- the sixteen first sends
  unfold O₂
  iapply (wp_wand_r frame (wpE (defs₀ (F := F)) 𝒱₀ (c : Thread nD τ) none) Set.univ (Q := fun _ => iprop(bigSepL allK (fun k => cred (tallyAt (xsCell c k) () NC))
      ∗ owes (c : Thread nD τ) (owedZ c allK) (insert (SemLoc.reg barS, ()) W))))
  isplitl [HxR HpX HtXS HtXR HO]
  · iapply (xsends_run m K c allK (owedZ c allK) (insert (SemLoc.reg barS, ()) W))
    isplitr; · iexact HI
    isplitr; · iexact HR
    isplitl [HxR]; · iexact HxR
    isplitl [HpX]; · iexact HpX
    isplitl [HtXS]; · iexact HtXS
    isplitl [HtXR]; · iexact HtXR
    iexact HO
  iintro %_ ⟨HcXS, HO⟩
  -- the local copy
  iapply (step_copy m K c) $$ [HxL HoL HtC]
  · isplitr; · iapply (inv_cp m K c); iexact HI
    isplitr; · iapply (reach_cp c); iexact HR
    isplitl [HxL]; · iexact HxL
    isplitl [HoL]; · iexists g1; iexact HoL
    iexact HtC
  iintro HcC
  simp only [wp_bind]
  -- per chunk: the first partner's chunk landed, forwarded to the second
  iapply (wp_wand_r frame (wpE (defs₀ (F := F)) 𝒱₀ (c : Thread nD τ) none) Set.univ (Q := fun _ => iprop(bigSepL allK (fun k => semVal (xrCell c k) 0) ∗ bigSepL allK (fun k => cred (tallyAt (zsCell c k) () NC))
      ∗ ∃ W', owes (c : Thread nD τ) 0 W')))
  isplitl [HcXR HaXR HpZ HtZS HtZR HO]
  · iapply (forwards_run m K c allK (insert (SemLoc.reg barS, ()) W))
    isplitr; · iexact HI
    isplitr; · iexact HR
    isplitr; · iexact Hlev
    isplitl [HcXR]; · iexact HcXR
    isplitl [HaXR]; · iexact HaXR
    isplitl [HpZ]; · iexact HpZ
    isplitl [HtZS]; · iexact HtZS
    isplitl [HtZR]; · iexact HtZR
    iexact HO
  iintro %_ ⟨HzXR, HcZS, ⟨%W2, HO⟩⟩
  -- the second partner's forwarded chunks landed
  iapply (wp_wand_r frame (wpE (defs₀ (F := F)) 𝒱₀ (c : Thread nD τ) none) Set.univ (Q := fun _ => iprop(bigSepL allK (fun k => zrPay m c k) ∗ bigSepL allK (fun k => semVal (zrCell c k) 0)
      ∗ ∃ W', owes (c : Thread nD τ) 0 W')))
  isplitl [HcZR HaZR HO]
  · iapply (zwaits_run m K c allK W2)
    isplitr; · iexact HI
    isplitl [HcZR]; · iexact HcZR
    isplitl [HaZR]; · iexact HaZR
    iexact HO
  iintro %_ ⟨HpZR, HzZR, ⟨%W3, HO⟩⟩
  -- the sends read out
  iapply (wp_wand_r frame (wpE (defs₀ (F := F)) 𝒱₀ (c : Thread nD τ) none) Set.univ (Q := fun _ => iprop(bigSepL allK (fun k => xsPay m c k) ∗ bigSepL allK (fun k => semVal (xsCell c k) 0)
      ∗ bigSepL allK (fun k => zsPay m c k) ∗ bigSepL allK (fun k => semVal (zsCell c k) 0)
      ∗ ∃ W', owes (c : Thread nD τ) 0 W')))
  isplitl [HcXS HaXS HcZS HaZS HO]
  · iapply (swaits_run m K c allK W3)
    isplitr; · iexact HI
    isplitl [HcXS]; · iexact HcXS
    isplitl [HaXS]; · iexact HaXS
    isplitl [HcZS]; · iexact HcZS
    isplitl [HaZS]; · iexact HaZS
    iexact HO
  iintro %_ ⟨HpXS, HzXS, HpZS, HzZS, ⟨%W4, HO⟩⟩
  -- the local copy done
  iapply (step_wait_close m c cpS (K (c, iCp)) NL (cpPay m c) (expect_cp m c) (rest_cp m c) (src := xM) (dst := outL oM c) (credL c) 0 W4)
    $$ [HcC HaC HO]
  · isplitr; · iapply (inv_cp m K c); iexact HI
    isplitl [HcC]; · iexact HcC
    isplitl [HaC]; · iexact HaC
    isplitr; · rw [MayWait_zero]; iempintro
    iexact HO
  iintro ⟨⟨%W5, HO⟩, HpC, HzC⟩
  rw [wp_ret]; imodintro
  -- every piece is back: the buffers whole again, the own cells closed
  unfold cpPay
  icases HpC with ⟨HoL, HxL⟩
  unfold bodyPost Φ₁ Dat.owesAt Pipeline.owesWithin
  rw [show (dats m 0 c).owed t₀.succ = 0 from rfl]
  simp only [bigSep_allK]
  isplitl [HzC HzXS HzXR HzZS HzZR]
  · isplitl [HzC]; · iexact HzC
    isplitl [HzXS]; · iexact HzXS
    isplitl [HzXR]; · iexact HzXR
    isplitl [HzZS]; · iexact HzZS
    iexact HzZR
  isplitl [HO]
  · iexists W5; isplitr; · ipureintro; exact fun _ _ => Or.inl trivial
    iexact HO
  isplitl [HxL HpXS HxRest]
  · iexists (xstg m c); isplitr; · (ipureintro; rfl)
    iapply (x_join c (xstg m c))
    simp only [bigSep_allK]
    isplitl [HxL]; · iexact HxL
    isplitl [HpXS]; · unfold xsPay; iexact HpXS
    iexact HxRest
  · iexists (outAt m c); isplitr; · (ipureintro; rfl)
    iapply (out_join m c)
    simp only [bigSep_allK]
    isplitl [HoL]; · iexact HoL
    isplitl [HpZS]; · unfold zsPay; iexact HpZS
    unfold zrPay; iexact HpZR

/-- The library's body obligation on device `c`. -/
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre m c ⊢ wp frame (wpE (defs₀ (F := F)) 𝒱₀ (c : Thread nD τ) none) Set.univ
    (cc0_body (Memref.whole cc0_stg0_0) (Memref.isWhole_whole _) (Memref.whole cc0_stg1_0) (Memref.isWhole_whole _)
      cc0_scratch0 cc0_scratch1 cc0_scratch2 cc0_scratch3 cc0_scratch4) (fun _ => bodyPost m c)
  rw [body_eq]
  exact sound_body m c

end Cert.Kernel.AG

end
-- ==== Proof.Kernel.Launch.lean ====
import proofs.«900660_g7700000000000661_dist_ag_v7x_xyz2x2x2_x_m1024_n512_f32_1_alg».proof.Proof.Kernel.Levels

/-!
# The launch

Every device's body proved (`hbody`), the program runs: the protocol's ghost state is allocated for all devices at
once (the barrier cells are shared by three devices each), every device is dealt the invariants it opens, its
positions, the tokens of the duties it pays and the credit for the units others owe its cells, and the pipeline's
launch theorem for devices that owe at launch does the rest.
-/

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The kernel's own semaphores; the cells and the tokens -/

theorem ownSemFacts : Pipeline.OwnSemFacts cfg0.spec osem := by decide +kernel

omit [FloatOps F] in
theorem share_eq (c : Dev nD) (w : Fin cfg0.W) : (dats m 0 c).share w = fullShare := by unfold Dat.share; split <;> rfl

/-- A barrier cell is no DMA cell, and the DMA cells are told apart by their semaphores. -/
theorem csem_injective : Function.Injective csem := by
  intro i i' h
  rcases i with _ | i <;> rcases i' with _ | i'
  · rfl
  · exact absurd h (fun h => by cases h)
  · exact absurd h (fun h => by cases h)
  · exact congrArg Sum.inr (ownSemFacts.inj h)

theorem kcell_injective : Function.Injective (kcell : Dev nD × CIx → GSem nD τ sig) := by
  rintro ⟨c, i⟩ ⟨c', i'⟩ h
  have h1 : c = c' := congrArg (fun g : GSem nD τ sig => g.1.1) h
  subst h1
  have h2 : csem i = csem i' := congrArg Prod.snd h
  rw [csem_injective h2]

/-- Every cell of the protocol. -/
def agCells : Finset (GSem nD τ sig) := Finset.univ.map ⟨kcell, kcell_injective⟩

/-- The duties of a device's own cells: its barrier's `true`, and the `false` of every cell. -/
abbrev TIx : Type := Unit ⊕ CIx
def tokOf (cj : Dev nD × TIx) : GSem nD τ sig × ℕ × Bool := match cj.2 with
  | .inl _ => (barCell cj.1, 0, true)
  | .inr i => (kcell (cj.1, i), 0, false)
theorem tokOf_injective : Function.Injective tokOf := by
  rintro ⟨c, j⟩ ⟨c', j'⟩ h
  rcases j with _ | i <;> rcases j' with _ | i'
  · have h1 : c = c' := congrArg (fun x : GSem nD τ sig × ℕ × Bool => x.1.1.1) h
    subst h1; rfl
  · have h' : true = false := congrArg (fun x : GSem nD τ sig × ℕ × Bool => x.2.2) h
    cases h'
  · have h' : false = true := congrArg (fun x : GSem nD τ sig × ℕ × Bool => x.2.2) h
    cases h'
  · have h1 : (c, i) = (c', i') := kcell_injective (congrArg (fun x : GSem nD τ sig × ℕ × Bool => x.1) h)
    cases h1; rfl
def agToks : Finset (GSem nD τ sig × ℕ × Bool) := Finset.univ.map ⟨tokOf, tokOf_injective⟩

def u₀ : UU :=
  (initOf (Pipeline.cells cfgs cellOf_inj) (Pipeline.launchToks cfgs cellOf_inj), initOf agCells agToks)

/-- The duty tokens of device `c`'s own cells. -/
def toks (c : Dev nD) : sProp 𝕄 :=
  iprop(dutyTok ER (barCell c) 0 true ∗ bigSep Finset.univ fun i : CIx => dutyTok ER (kcell (c, i)) 0 false)

/-- What the launch element deals device `c`. -/
def G (c : Dev nD) : sProp 𝕄 :=
  iprop((bigSep Finset.univ fun i : CIx => roundState ER (agRd m) (kcell (c, i)) 0)
    ∗ (bigSep Finset.univ fun i : CIx => iprop(atPos ER (kcell (c, i)) 0 ∅ 0 ∗ reached ER (kcell (c, i)) 0)) ∗ toks c)

/-- What the global step makes of it. -/
def G' (c : Dev nD) : sProp 𝕄 := iprop(∃ K, ghost m K c)

omit [FloatOps F] in
/-- A conjunction over a device's cells, family by family. -/
theorem bigSep_CIx (Φ : CIx → sProp 𝕄) :
    bigSep Finset.univ Φ = iprop(Φ iBar ∗ Φ iCp ∗ (bigSep Finset.univ fun k : Fin 16 => Φ (iF 0 k)) ∗ (bigSep Finset.univ fun k : Fin 16 => Φ (iF 1 k))
      ∗ (bigSep Finset.univ fun k : Fin 16 => Φ (iF 2 k)) ∗ (bigSep Finset.univ fun k : Fin 16 => Φ (iF 3 k))) := by
  rw [bigSep_univ_sum, bigSep_univ_sum, bigSep_univ_of_subsingleton (), bigSep_univ_of_subsingleton (), bigSep_univ_prod,
    bigSep_univ_eq_bigSepL [(0 : Fin 4), 1, 2, 3] (by decide) (by decide)]
  rfl

omit [FloatOps F] in
/-- A conjunction over a sum of index types, with the proof mode's `∗`. -/
theorem bigSep_sum' {A B : Type} [Fintype A] [Fintype B] (Φ : A ⊕ B → sProp 𝕄) :
    bigSep Finset.univ Φ = iprop((bigSep Finset.univ fun a => Φ (.inl a)) ∗ bigSep Finset.univ fun b => Φ (.inr b)) := bigSep_univ_sum Φ

omit [FloatOps F] in
/-- A conjunction over the devices, re-indexed along either partner map. -/
theorem bigSep_xp (Φ : Dev nD → sProp 𝕄) : bigSep Finset.univ Φ = bigSep Finset.univ fun c => Φ (xp c) := bigSep_univ_equiv xpE Φ
omit [FloatOps F] in
theorem bigSep_zp (Φ : Dev nD → sProp 𝕄) : bigSep Finset.univ Φ = bigSep Finset.univ fun c => Φ (zp c) := bigSep_univ_equiv zpE Φ

omit [FloatOps F] in
theorem fund_ag : BI.own (ER (initOf agCells agToks)) ⊢ (|==> bigSep Finset.univ (G m) : sProp 𝕄) := by
  have hX (Φ : GSem nD τ sig → sProp 𝕄) : bigSep agCells Φ = bigSep Finset.univ fun c : Dev nD => bigSep Finset.univ fun i : CIx => Φ (kcell (c, i)) := by
    unfold agCells; rw [bigSep_map, bigSep_univ_prod]; rfl
  have hT : bigSep agToks (fun x => (dutyTok ER x.1 x.2.1 x.2.2 : sProp 𝕄)) = bigSep Finset.univ fun c : Dev nD => toks c := by
    unfold agToks; rw [bigSep_map, bigSep_univ_prod]
    exact bigSep_congr fun c _ => by unfold toks; rw [bigSep_sum', bigSep_univ_of_subsingleton ()]; rfl
  iintro HX
  imod (Rounds.fund ER (agRd m) agCells agToks) $$ HX with ⟨Hst, Hr, Hat, Htok⟩
  imodintro
  ihave Hst' := (Entails.of_eq (hX fun g => roundState ER (agRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### The global step -/

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CIx => semVal (kcell (c, i)) 0 : sProp 𝕄) := by
  rw [unscopedSems0_eq, bigSep_sum', bigSep_univ_of_subsingleton ()]
  unfold Pipeline.ownSems0
  iintro ⟨HS, HB⟩
  isplitl [HB]; · iexact HB
  iexact HS

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CIx => iprop(∃ κ : ℕ, cellInv ER (agRd m) κ (kcell (c, i))))
          ∗ (bigSep Finset.univ fun i : CIx => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : CIx => semVal (kcell (c, i)) 0) ∗ bigSep Finset.univ fun i : CIx => roundState ER (agRd m) (kcell (c, i)) 0)
      ⊢ (|={Set.univ}=> bigSep Finset.univ fun i : CIx => iprop(∃ κ : ℕ, cellInv ER (agRd m) κ (kcell (c, i))) : sProp 𝕄) from by
        rw [← bigSep_sep']
        exact (bigSep_mono fun i _ => (Rounds.body_intro ER (agRd m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- The persistent records of all devices: every cell's invariant, and that its round `0` is reached. -/
def records (K : Dev nD × CIx → ℕ) : sProp 𝕄 :=
  iprop((bigSep Finset.univ fun ck : Dev nD × CIx => cellInv ER (agRd m) (K ck) (kcell ck))
    ∗ bigSep Finset.univ fun ck : Dev nD × CIx => reached ER (kcell ck) 0)

instance records_persistent (K : Dev nD × CIx → ℕ) : BI.Persistent (records m K) := by unfold records; infer_instance

omit [FloatOps F] in
theorem inv_at (K : Dev nD × CIx → ℕ) (ck : Dev nD × CIx) : records m K ⊢ cellInv ER (agRd m) (K ck) (kcell ck) :=
  (show records m K ⊢ bigSep Finset.univ fun ck : Dev nD × CIx => cellInv ER (agRd m) (K ck) (kcell ck) from by
    unfold records; iintro ⟨#HI, -⟩; iexact HI).trans (bigSep_elim (Finset.mem_univ ck))
omit [FloatOps F] in
theorem reached_at (K : Dev nD × CIx → ℕ) (ck : Dev nD × CIx) : records m K ⊢ reached ER (kcell ck) 0 :=
  (show records m K ⊢ bigSep Finset.univ fun ck : Dev nD × CIx => reached ER (kcell ck) 0 from by
    unfold records; iintro ⟨-, #HR⟩; iexact HR).trans (bigSep_elim (Finset.mem_univ ck))

omit [FloatOps F] in
theorem inv_fam (K : Dev nD × CIx → ℕ) (d : Dev nD) (j : Fin 4) :
    records m K ⊢ bigSep Finset.univ fun k : Fin 16 => cellInv ER (agRd m) (K (d, iF j k)) (kcell (d, iF j k)) :=
  bigSep_intro_persistent fun k _ => inv_at m K (d, iF j k)
omit [FloatOps F] in
theorem reached_fam (K : Dev nD × CIx → ℕ) (d : Dev nD) (j : Fin 4) :
    records m K ⊢ bigSep Finset.univ fun k : Fin 16 => reached ER (kcell (d, iF j k)) 0 :=
  bigSep_intro_persistent fun k _ => reached_at m K (d, iF j k)

omit [FloatOps F] in
theorem invs_intro (K : Dev nD × CIx → ℕ) (c : Dev nD) : records m K ⊢ invs m K c := by
  unfold invs
  iintro #HR
  isplitr; · iapply (show records m K ⊢ cellInv ER (agRd m) (K (c, iBar)) (barCell c) from inv_at m K (c, iBar)); iexact HR
  isplitr; · iapply (show records m K ⊢ cellInv ER (agRd m) (K (xp c, iBar)) (barCell (xp c)) from inv_at m K (xp c, iBar)); iexact HR
  isplitr; · iapply (show records m K ⊢ cellInv ER (agRd m) (K (zp c, iBar)) (barCell (zp c)) from inv_at m K (zp c, iBar)); iexact HR
  isplitr; · iapply (show records m K ⊢ cellInv ER (agRd m) (K (c, iCp)) (cpCell c) from inv_at m K (c, iCp)); iexact HR
  isplitr; · iapply (show records m K ⊢ bigSep Finset.univ fun k : Fin 16 => cellInv ER (agRd m) (K (c, iF 0 k)) (xsCell c k) from inv_fam m K c 0); iexact HR
  isplitr; · iapply (show records m K ⊢ bigSep Finset.univ fun k : Fin 16 => cellInv ER (agRd m) (K (c, iF 1 k)) (xrCell c k) from inv_fam m K c 1); iexact HR
  isplitr; · iapply (show records m K ⊢ bigSep Finset.univ fun k : Fin 16 => cellInv ER (agRd m) (K (c, iF 2 k)) (zsCell c k) from inv_fam m K c 2); iexact HR
  isplitr; · iapply (show records m K ⊢ bigSep Finset.univ fun k : Fin 16 => cellInv ER (agRd m) (K (c, iF 3 k)) (zrCell c k) from inv_fam m K c 3); iexact HR
  isplitr; · iapply (show records m K ⊢ bigSep Finset.univ fun k : Fin 16 => cellInv ER (agRd m) (K (xp c, iF 1 k)) (xrCell (xp c) k) from inv_fam m K (xp c) 1); iexact HR
  iapply (show records m K ⊢ bigSep Finset.univ fun k : Fin 16 => cellInv ER (agRd m) (K (zp c, iF 3 k)) (zrCell (zp c) k) from inv_fam m K (zp c) 3); iexact HR

omit [FloatOps F] in
theorem reachs_intro (K : Dev nD × CIx → ℕ) (c : Dev nD) : records m K ⊢ reachs c := by
  unfold reachs
  iintro #HR
  isplitr; · iapply (show records m K ⊢ reached ER (barCell (xp c)) 0 from reached_at m K (xp c, iBar)); iexact HR
  isplitr; · iapply (show records m K ⊢ reached ER (barCell (zp c)) 0 from reached_at m K (zp c, iBar)); iexact HR
  isplitr; · iapply (show records m K ⊢ reached ER (cpCell c) 0 from reached_at m K (c, iCp)); iexact HR
  isplitr; · iapply (show records m K ⊢ bigSep Finset.univ fun k : Fin 16 => reached ER (xsCell c k) 0 from reached_fam m K c 0); iexact HR
  isplitr; · iapply (show records m K ⊢ bigSep Finset.univ fun k : Fin 16 => reached ER (zsCell c k) 0 from reached_fam m K c 2); iexact HR
  isplitr; · iapply (show records m K ⊢ bigSep Finset.univ fun k : Fin 16 => reached ER (xrCell (xp c) k) 0 from reached_fam m K (xp c) 1); iexact HR
  iapply (show records m K ⊢ bigSep Finset.univ fun k : Fin 16 => reached ER (zrCell (zp c) k) 0 from reached_fam m K (zp c) 3); iexact HR

omit [FloatOps F] in
theorem ghost_intro (K : Dev nD × CIx → ℕ) (c : Dev nD) : iprop(records m K ∗ poss c ∗ payToks c) ⊢ G' m c := by
  unfold G' ghost
  iintro ⟨#HR, Hp, Ht⟩
  iexists K
  isplitr; · iapply (invs_intro m K c); iexact HR
  isplitr; · iapply (reachs_intro m K c); iexact HR
  isplitl [Hp]; · iexact Hp
  iexact Ht

omit [FloatOps F] in
/-- A device's own cells' tokens, family by family. -/
theorem toks_eq (c : Dev nD) : (toks c : sProp 𝕄) = iprop(dutyTok ER (barCell c) 0 true ∗ dutyTok ER (barCell c) 0 false ∗ dutyTok ER (cpCell c) 0 false
    ∗ (bigSep Finset.univ fun k : Fin 16 => dutyTok ER (xsCell c k) 0 false) ∗ (bigSep Finset.univ fun k : Fin 16 => dutyTok ER (xrCell c k) 0 false)
    ∗ (bigSep Finset.univ fun k : Fin 16 => dutyTok ER (zsCell c k) 0 false) ∗ (bigSep Finset.univ fun k : Fin 16 => dutyTok ER (zrCell c k) 0 false)) := by
  unfold toks; rw [bigSep_CIx]; rfl

omit [FloatOps F] in
/-- The tokens dealt around: a barrier's `false` token and the first-receive tokens go to the partner across the first
    axis, its `true` token and the forwarded-receive tokens to the partner across the last; the rest stay. -/
theorem toks_around : (bigSep Finset.univ fun c : Dev nD => (toks c : sProp 𝕄)) ⊢ bigSep Finset.univ fun c : Dev nD => payToks c := by
  rw [bigSep_congr (s := Finset.univ) (fun (c : Dev nD) _ => toks_eq (F := F) c)]
  unfold payToks
  simp only [bigSep_sep']
  rw [bigSep_xp (fun c : Dev nD => (dutyTok ER (barCell c) 0 false : sProp 𝕄)),
    bigSep_zp (fun c : Dev nD => (dutyTok ER (barCell c) 0 true : sProp 𝕄)),
    bigSep_xp (fun c : Dev nD => bigSep Finset.univ fun k : Fin 16 => (dutyTok ER (xrCell c k) 0 false : sProp 𝕄)),
    bigSep_zp (fun c : Dev nD => bigSep Finset.univ fun k : Fin 16 => (dutyTok ER (zrCell c k) 0 false : sProp 𝕄))]
  iintro ⟨HbT, HbF, Hcp, Hxs, Hxr, Hzs, Hzr⟩
  isplitl [HbF]; · iexact HbF
  isplitl [HbT]; · iexact HbT
  isplitl [Hcp]; · iexact Hcp
  isplitl [Hxs]; · iexact Hxs
  isplitl [Hzs]; · iexact Hzs
  isplitl [Hxr]; · iexact Hxr
  iexact Hzr

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun i : CIx => iprop(∃ κ : ℕ, cellInv ER (agRd m) κ (kcell (c, i))))
          ∗ (bigSep Finset.univ fun i : CIx => iprop(atPos ER (kcell (c, i)) 0 ∅ 0 ∗ reached ER (kcell (c, i)) 0)) ∗ toks c) : sProp 𝕄)
      ⊢ bigSep Finset.univ (G' m) := by
  rw [bigSep_sep', bigSep_sep', ← bigSep_univ_prod (fun ck : Dev nD × CIx => iprop(∃ κ : ℕ, cellInv ER (agRd m) κ (kcell ck))),
    bigSep_congr (s := Finset.univ) (fun (c : Dev nD) _ => bigSep_sep' Finset.univ (fun i : CIx => (atPos ER (kcell (c, i)) 0 ∅ 0 : sProp 𝕄)) (fun i => reached ER (kcell (c, i)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER (agRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun i : CIx => (atPos ER (kcell (c, i)) 0 ∅ 0 : sProp 𝕄)) payToks).symm).trans
      (bigSep_mono fun c _ => show _ ⊢ iprop(poss c ∗ payToks c) from Entails.of_eq (by unfold poss; rw [bigSep_CIx]; rfl)))
    isplitl [Hat]; · iexact Hat
    iexact Htk

omit [FloatOps F] in
/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
theorem owedX_sum (d : Dev nD) : owedX d allK = ∑ k : Fin 16, (tallyAt (xrCell (xp d) k) () NC : CellTallies nD τ sig Unit) := by
  unfold owedX; rw [Fin.sum_univ_def]; rfl
omit [FloatOps F] in
theorem owedZ_sum (d : Dev nD) : owedZ d allK = ∑ k : Fin 16, (tallyAt (zrCell (zp d) k) () NC : CellTallies nD τ sig Unit) := by
  unfold owedZ; rw [Fin.sum_univ_def]; rfl

omit [FloatOps F] in
/-- What every device owes at launch, as one function of the device: the forwarded chunks, the first chunks, the unit
    to the partner across the last axis, the unit to the partner across the first. -/
theorem O₀_eq : (O₀ : Dev nD → CellTallies nD τ sig Unit) = fun d =>
    (((∑ k : Fin 16, (tallyAt (zrCell (zp d) k) () NC : CellTallies nD τ sig Unit)) + ∑ k : Fin 16, (tallyAt (xrCell (xp d) k) () NC : CellTallies nD τ sig Unit))
      + tallyAt (barCell (zp d)) () 1) + tallyAt (barCell (xp d)) () 1 :=
  funext fun d => by unfold O₀ O₁ O₂; rw [owedX_sum, owedZ_sum]

omit [FloatOps F] in
/-- Each partner map being a bijection of the devices, the units owed to the partners' cells come back as each device's
    own credit: two units on its barrier cell, a chunk's credit on each receive cell. -/
theorem creds_intro (c : Dev nD) : (Pipeline.launchCred O₀ c : sProp 𝕄) ⊢ creds c := by
  rw [O₀_eq, Pipeline.launchCred_add, Pipeline.launchCred_add, Pipeline.launchCred_add,
    Pipeline.launchCred_sum Finset.univ (fun (k : Fin 16) (d : Dev nD) => (tallyAt (zrCell (zp d) k) () NC : CellTallies nD τ sig Unit)) c,
    Pipeline.launchCred_sum Finset.univ (fun (k : Fin 16) (d : Dev nD) => (tallyAt (xrCell (xp d) k) () NC : CellTallies nD τ sig Unit)) c]
  unfold creds
  iintro ⟨⟨⟨HZ, HX⟩, HbZ⟩, HbX⟩
  ihave H1 := (Pipeline.launchCred_tallyAt (.reg barS) zp zp zp_zp zp_zp () 1 c) $$ HbZ
  ihave H2 := (Pipeline.launchCred_tallyAt (.reg barS) xp xp xp_xp xp_xp () 1 c) $$ HbX
  isplitl [H1 H2]
  · rw [← tallyAt_add (barCell c) () 1 1]
    iapply (cred_add _ _).2
    isplitl [H1] <;> iassumption
  isplitl [HX]
  · iapply (show (bigSep Finset.univ fun k : Fin 16 => Pipeline.launchCred (fun d => (tallyAt (xrCell (xp d) k) () NC : CellTallies nD τ sig Unit)) c : sProp 𝕄)
        ⊢ bigSep Finset.univ fun k : Fin 16 => cred (tallyAt (xrCell c k) () NC) from
      bigSep_mono fun (k : Fin 16) _ => Pipeline.launchCred_tallyAt (.dma (xrS k)) xp xp xp_xp xp_xp () NC c)
    iexact HX
  · iapply (show (bigSep Finset.univ fun k : Fin 16 => Pipeline.launchCred (fun d => (tallyAt (zrCell (zp d) k) () NC : CellTallies nD τ sig Unit)) c : sProp 𝕄)
        ⊢ bigSep Finset.univ fun k : Fin 16 => cred (tallyAt (zrCell c k) () NC) from
      bigSep_mono fun (k : Fin 16) _ => Pipeline.launchCred_tallyAt (.dma (zrS k)) zp zp zp_zp zp_zp () NC c)
    iexact HZ

/-! ### The theorem's side conditions -/

omit [FloatOps F] in
theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, -⟩
  iexact Hs

omit [FloatOps F] in
/-- The kernel's own cells at zero, family by family. -/
theorem ownSems0_eq (c : Dev nD) : (Pipeline.ownSems0 (Ix := Unit) (Name := ℕ) (U := UU) (Lvl := ℕ) (Val := Elt F) (τ := τ) osem c : sProp 𝕄)
    = iprop(semVal (cpCell c) 0 ∗ (bigSep Finset.univ fun k : Fin 16 => semVal (xsCell c k) 0) ∗ (bigSep Finset.univ fun k : Fin 16 => semVal (xrCell c k) 0)
      ∗ (bigSep Finset.univ fun k : Fin 16 => semVal (zsCell c k) 0) ∗ (bigSep Finset.univ fun k : Fin 16 => semVal (zrCell c k) 0)) := by
  unfold Pipeline.ownSems0
  rw [bigSep_sum', bigSep_univ_of_subsingleton (), bigSep_univ_prod, bigSep_univ_eq_bigSepL [(0 : Fin 4), 1, 2, 3] (by decide) (by decide)]
  rfl

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro H
  isplitr; · iempintro
  isplitl
  · iexact H
  · iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

set_option maxRecDepth 8000 in
/-- At the compiled mesh of eight devices, from any memory with zero counters: every weakly fair execution of @main
    terminates, and every final state has each windowed array at what the proof data compute for it. -/
theorem run_main (ρ : Dev nD → PrngReg)
    (hbody : ∀ c : Dev nD, BodyObligation (dats (F := F) m 0 c) (defs₀ (F := F)) 𝒱₀ () Set.univ) :
    θ_run (defs (F := F)) (onTc (τ := τ) (main (F := F))) ⟨m, fun _ => 0, ρ⟩
      (fun r => ∀ c : Dev nD, ∀ w : Fin cfg0.W,
        r.2.mem ((cfg0.win w).arr.view.loc (c : Thread nD τ)) = (dats m 0 c).arrAt w cfg0.N) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ag m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.Kernel.AG.run_main' depends on axioms: [propext, Classical.choice, Quot.sound] -/
#guard_msgs in #print axioms run_main

end Cert.Kernel.AG

end
-- ==== Proof.Kernel.Final.lean ====
import proofs.«900660_g7700000000000661_dist_ag_v7x_xyz2x2x2_x_m1024_n512_f32_1_alg».proof.Proof.Kernel.Ghost
import Idealize.ShloMosaic.Lib.Layout
import Idealize.ShloMosaic.Lib.Pipeline.Value

/-!
# The arrays after the run

The input array is a staged input window: it ends as it began. The result array is the one output window, flushed
whole at the one grid point: it ends holding what the body left in its staging buffer, `outAt m c`. When every device's
input is its block of ONE whole array `X` — block `c / 4` of two along the rows — every row `r` of `outAt m c` is row
`r % 1024` of block `r / 1024` of `X`, that is row `r` of `X`: the result is `X` on every device.
-/

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The input array after the run holds what it held. -/
theorem final_x (c : Dev nD) :
    (dats (F := F) m 0 c).arrAt (0 : Fin 2) cfg0.N = m ((cfg0.win (0 : Fin 2)).arr.view.loc (c : Thread nD τ)) :=
  (dats (F := F) m 0 c).arrAt_in (0 : Fin 2) rfl _

/-- The result array after the run holds the body's result. -/
theorem final_o (c : Dev nD) :
    (dats (F := F) m 0 c).arrAt (1 : Fin 2) cfg0.N = (outAt m c : Buf (Elt F) ((cfg0.win (1 : Fin 2)).arr.view.loc (c : Thread nD τ))) := by
  -- the one point's block of the result array starts at row 0, column 0: it is the whole array
  have hz : (fun a => win0_1.index t₀ a * main_v1.ty.shape.size a) = fun _ => 0 := funext fun a => by fin_cases a <;> decide
  have hr := fun f => Memref.read_access_unit_zero (Elt F) main_v1 hz (fun a => by rw [congrFun hz a]; simp) f
  -- the one point writes its block back
  have h := (dats (F := F) m 0 c).arrAt_succ (1 : Fin 2) t₀
  rw [show (cfg0.win (1 : Fin 2)).flush t₀ = true from by decide, if_pos rfl] at h
  have hN : cfg0.N = t₀.val + 1 := cfg0_N
  refine (congrArg ((dats (F := F) m 0 c).arrAt (1 : Fin 2)) hN).trans (h.trans ?_)
  -- an array read through its whole-array block is itself; the block written everywhere reads back as written
  refine (hr _).symm.trans ?_
  exact View.read_write_univ _ _

/-! ## The result against one whole array -/

/-- A device's block coordinate along the rows is its first mesh coordinate. -/
theorem meshLin_row (d : Dev nD) : Layout.meshLin [2, 2, 2] d.val [0] = d.val / 4 := by revert d; decide
theorem xp_row (c : Dev nD) : (xp c).val / 4 = 1 - c.val / 4 := by revert c; decide
theorem xpzp_row (c : Dev nD) : (xp (zp c)).val / 4 = 1 - c.val / 4 := by revert c; decide

/-- The device that supplies row `r` holds the block that row is in. -/
theorem srcDev_row (c : Dev nD) (r : ℕ) (hr : r < 2048) : (srcDev c r).val / 4 = r / 1024 := by
  have hc : c.val < 8 := c.isLt
  unfold srcDev
  split
  · omega
  · split
    · rw [xp_row]; omega
    · rw [xpzp_row]; omega

/-- If every device's input is its block of one whole array, every device's result is that array. -/
theorem outAt_whole (X : (⟨2, ![2048, 512]⟩ : Shape).Idx → Elt F .f32)
    (hblk : ∀ c : Dev nD, m ((c.tc : Thread nD τ).loc main_arg0)
      = Layout.blockN ⟨2, ![1024, 512]⟩ ⟨2, ![2048, 512]⟩ (Layout.meshBlock [2, 2, 2] ![[0], []] c) X)
    (c : Dev nD) : (outAt m c : S2048x512.Idx → Elt F .f32) = X := by
  -- the input window's one block starts at row 0, column 0: read through it, the input array is itself
  have hz : (fun a => win0_0.index t₀ a * main_arg0.ty.shape.size a) = fun _ => 0 := funext fun a => by fin_cases a <;> decide
  have hr := fun f => Memref.read_access_unit_zero (Elt F) main_arg0 hz (fun a => by rw [congrFun hz a]; simp) f
  have hx : ∀ d : Dev nD, (xstg m d : S1024x512.Idx → Elt F .f32)
      = Layout.blockN ⟨2, ![1024, 512]⟩ ⟨2, ![2048, 512]⟩ (Layout.meshBlock [2, 2, 2] ![[0], []] d) X := fun d => by
    rw [← hblk d]; exact hr _
  funext i
  have hi : (i 0).val < 2048 := (i 0).isLt
  show (xstg m (srcDev c (i 0).val) : S1024x512.Idx → Elt F .f32) (blkIdx i) = X i
  rw [hx, Layout.blockN_apply]
  congr 1
  funext a
  apply Fin.ext
  rw [Layout.TilesN.idx_val, Layout.meshBlock_val]
  match a with
  | ⟨0, _⟩ =>
    show Layout.meshLin [2, 2, 2] (srcDev c (i 0).val).val [0] * 1024 + (i 0).val % 1024 = (i 0).val
    rw [meshLin_row, srcDev_row c _ hi]; omega
  | ⟨1, _⟩ =>
    show 0 * 512 + (i 1).val = (i 1).val
    omega

/-! ## Axioms -/

/-- info: 'Cert.Kernel.AG.final_x' depends on axioms: [propext, Classical.choice, Quot.sound] -/
#guard_msgs in #print axioms final_x
/-- info: 'Cert.Kernel.AG.final_o' depends on axioms: [propext, Classical.choice, Quot.sound] -/
#guard_msgs in #print axioms final_o
/-- info: 'Cert.Kernel.AG.outAt_whole' depends on axioms: [propext, Classical.choice, Quot.sound] -/
#guard_msgs in #print axioms outAt_whole

end Cert.Kernel.AG

end
-- ==== Proof.RefRun.lean ====
import proofs.«900660_g7700000000000661_dist_ag_v7x_xyz2x2x2_x_m1024_n512_f32_1_alg».proof.Proof.Gen.ReferenceIdeal
import Idealize.ShloMosaic.Lib.StableHlo.Run

/-!
# The reference's run

The reference program performs no operation: its result is its argument. So from any memory with zero counters every
weakly fair execution of it terminates, and leaves every buffer as it found it.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program is the empty line of operations. -/
theorem main_eq (c : Dev nD) : main (F := F) c = seq [] := rfl
theorem scopedRefs_eq : (Finset.univ.filter fun b : Ref sig .tc => b.isScoped) = ∅ := by decide
theorem scopedSems_eq : (Finset.univ.filter fun sm : SemLoc sig => sm.isScoped .tc) = ∅ := by decide

/-- The device has one buffer, the argument. -/
theorem devRef_eq (x : DevRef τ sig) : x = Proc.devRef .tc main_arg0 := by
  revert x; decide

/-- Every buffer is a TensorCore's. -/
theorem loc_eq (ℓ : Loc nD τ sig) : ℓ = ((ℓ.1).tc : Thread nD τ).loc main_arg0 :=
  Prod.ext rfl (devRef_eq ℓ.2)

/-- Each TensorCore buffer after the run holds what it held. -/
theorem run_tc (m' : (ℓ : Loc nD τ sig) → Buf (Elt F) ℓ) (g' : Dev nD → PrngReg) :
    θ_run (defs (F := F)) (onTc (τ := τ) (main (F := F))) ⟨m', fun _ => 0, g'⟩
      (fun r => ∀ (c : Dev nD) (b : Ref sig .tc), r.2.mem ((c.tc : Thread nD τ).loc b) = m' ((c.tc : Thread nD τ).loc b)) :=
  (θ_run defs _ _).mono (fun _ h c b => h c b)
    (run_seq scopedRefs_eq scopedSems_eq defs main (fun _ => []) main_eq (fun _ => trivial) m' g')

/-- Every buffer after the run holds what it held. -/
theorem run (m' : (ℓ : Loc nD τ sig) → Buf (Elt F) ℓ) (g' : Dev nD → PrngReg) :
    θ_run (defs (F := F)) (onTc (τ := τ) (main (F := F))) ⟨m', fun _ => 0, g'⟩ (fun r => ∀ ℓ, r.2.mem ℓ = m' ℓ) :=
  (θ_run defs _ _).mono (fun r h ℓ => by rw [loc_eq ℓ]; exact h ℓ.1 main_arg0) (run_tc m' g')

/-! ## Axioms -/

/-- info: 'Cert.ReferenceIdeal.RefRun.run' depends on axioms: [propext, Classical.choice, Quot.sound] -/
#guard_msgs in #print axioms run

end Cert.ReferenceIdeal.RefRun

end
-- ==== Proof.lean ====
/-
  Eight devices on a 2×2×2 mesh gather an array cut in two along its rows; the reference is the identity on the whole
  array. Device `c` at `(x, y, z)` holds block `x`. Its result buffer is filled from three sources: its own block
  by a local copy; the `z`-th half of the other block, sent in sixteen chunks by its partner across the first axis;
  the other half of that block, which its partner across the last axis received from ITS partner across the first
  axis and forwards chunk by chunk. The devices meet on the barrier semaphore first (each signals its two partners
  and waits for two), so that no chunk is written into a result buffer before its owner is inside the kernel, and each
  device waits for all thirty-two incoming chunks and for its own transfers' completion before it leaves.

  Each program's run is the pipeline's launch theorem for devices that owe units at launch, over one proof of one
  device's body at a symbolic device, with the protocol's ghost state allocated for all devices at once. The three
  frames are those runs with the values dropped; at the ideal instance every device's result is the whole array,
  because row `r` of the result is row `r % 1024` of block `r / 1024`; the idealization rewrote nothing.
-/
import proofs.«900660_g7700000000000661_dist_ag_v7x_xyz2x2x2_x_m1024_n512_f32_1_alg».proof.Defs
import proofs.«900660_g7700000000000661_dist_ag_v7x_xyz2x2x2_x_m1024_n512_f32_1_alg».proof.Proof.Gen.Kernel
import proofs.«900660_g7700000000000661_dist_ag_v7x_xyz2x2x2_x_m1024_n512_f32_1_alg».proof.Proof.Gen.Kernel.Skeleton
import proofs.«900660_g7700000000000661_dist_ag_v7x_xyz2x2x2_x_m1024_n512_f32_1_alg».proof.Proof.Gen.Kernel.Launch
import proofs.«900660_g7700000000000661_dist_ag_v7x_xyz2x2x2_x_m1024_n512_f32_1_alg».proof.Proof.Gen.Kernel.Points
import proofs.«900660_g7700000000000661_dist_ag_v7x_xyz2x2x2_x_m1024_n512_f32_1_alg».proof.Proof.Gen.Kernel.Frame
import proofs.«900660_g7700000000000661_dist_ag_v7x_xyz2x2x2_x_m1024_n512_f32_1_alg».proof.Proof.Gen.KernelIdeal
import proofs.«900660_g7700000000000661_dist_ag_v7x_xyz2x2x2_x_m1024_n512_f32_1_alg».proof.Proof.Gen.KernelIdeal.Skeleton
import proofs.«900660_g7700000000000661_dist_ag_v7x_xyz2x2x2_x_m1024_n512_f32_1_alg».proof.Proof.Gen.KernelIdeal.Launch
import proofs.«900660_g7700000000000661_dist_ag_v7x_xyz2x2x2_x_m1024_n512_f32_1_alg».proof.Proof.Gen.KernelIdeal.Points
import proofs.«900660_g7700000000000661_dist_ag_v7x_xyz2x2x2_x_m1024_n512_f32_1_alg».proof.Proof.Gen.KernelIdeal.Frame
import proofs.«900660_g7700000000000661_dist_ag_v7x_xyz2x2x2_x_m1024_n512_f32_1_alg».proof.Proof.Gen.ReferenceIdeal
import proofs.«900660_g7700000000000661_dist_ag_v7x_xyz2x2x2_x_m1024_n512_f32_1_alg».proof.Proof.Gen.Pre_finite_inputs_Kernel
import proofs.«900660_g7700000000000661_dist_ag_v7x_xyz2x2x2_x_m1024_n512_f32_1_alg».proof.Proof.Gen.Pre_finite_inputs_ReferenceIdeal
import proofs.«900660_g7700000000000661_dist_ag_v7x_xyz2x2x2_x_m1024_n512_f32_1_alg».proof.Proof.KernelIdeal.Body
import proofs.«900660_g7700000000000661_dist_ag_v7x_xyz2x2x2_x_m1024_n512_f32_1_alg».proof.Proof.KernelIdeal.Launch
import proofs.«900660_g7700000000000661_dist_ag_v7x_xyz2x2x2_x_m1024_n512_f32_1_alg».proof.Proof.KernelIdeal.Final
import proofs.«900660_g7700000000000661_dist_ag_v7x_xyz2x2x2_x_m1024_n512_f32_1_alg».proof.Proof.Kernel.Body
import proofs.«900660_g7700000000000661_dist_ag_v7x_xyz2x2x2_x_m1024_n512_f32_1_alg».proof.Proof.Kernel.Launch
import proofs.«900660_g7700000000000661_dist_ag_v7x_xyz2x2x2_x_m1024_n512_f32_1_alg».proof.Proof.Kernel.Final
import proofs.«900660_g7700000000000661_dist_ag_v7x_xyz2x2x2_x_m1024_n512_f32_1_alg».proof.Proof.RefRun
import Idealize.ShloMosaic.Adequacy
import Idealize.ShloMosaic.Init

noncomputable section

namespace Cert.Proof

open Idealize.ShloMosaic Idealize.SL.Sem

/-- The word-level kernel runs, and each device's input block ends as it began. -/
theorem frame_k : Cert.frame_Kernel := fun m ρ _ =>
  (θ_run _ _ _).mono (fun r h c => (h c 0).trans (Cert.Kernel.AG.final_x m c))
    (Cert.Kernel.AG.run_main m ρ (Cert.Kernel.AG.body_obligation m))

/-- The idealized kernel likewise. -/
theorem frame_ki : Cert.frame_KernelIdeal := fun m ρ _ =>
  (θ_run _ _ _).mono (fun r h c => (h c 0).trans (Cert.KernelIdeal.AG.final_x m c))
    (Cert.KernelIdeal.AG.run_main m ρ (Cert.KernelIdeal.AG.body_obligation m))

/-- The reference has no operation: it runs and changes nothing. -/
theorem frame_ri : Cert.frame_ReferenceIdeal := fun m ρ _ =>
  (θ_run _ _ _).mono (fun r h c => h _) (Cert.ReferenceIdeal.RefRun.run m ρ)

/-- The idealization rewrote no operation. -/
theorem preserves : Cert.preserves_Kernel_KernelIdeal := trivial

/-- At the ideal instance, from device blocks of one whole array: every device's result is that array, which is what
    the reference returns. -/
theorem algebraic : Cert.algebraic_KernelIdeal_ReferenceIdeal := by
  intro m g m' g' _ hblk
  refine ⟨m' (((0 : Dev Cert.ReferenceIdeal.nD).tc : Thread Cert.ReferenceIdeal.nD Cert.ReferenceIdeal.τ).loc Cert.ReferenceIdeal.main_arg0), ?_, ?_⟩
  · refine (θ_run _ _ _).mono (fun r h c => ⟨?_, ?_⟩)
      (Cert.KernelIdeal.AG.run_main m g (Cert.KernelIdeal.AG.body_obligation m))
    · exact ((h c 1).trans (Cert.KernelIdeal.AG.final_o m c)).trans (Cert.KernelIdeal.AG.outAt_whole m _ hblk c)
    · exact (h c 0).trans (Cert.KernelIdeal.AG.final_x m c)
  · exact (θ_run _ _ _).mono (fun r h => ⟨h _, h _⟩) (Cert.ReferenceIdeal.RefRun.run m' g')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, frame_ri, preserves, algebraic⟩

end Cert.Proof

end
